-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S128 : Shape := ⟨1, ![128]⟩
abbrev S1x128x128 : Shape := ⟨3, ![1, 128, 128]⟩
abbrev S128x128 : Shape := ⟨2, ![128, 128]⟩
abbrev S1x128 : Shape := ⟨2, ![1, 128]⟩
abbrev S10000x128 : Shape := ⟨2, ![10000, 128]⟩
abbrev S1700000x128 : Shape := ⟨2, ![1700000, 128]⟩
abbrev S100000x1 : Shape := ⟨2, ![100000, 1]⟩
abbrev S1x1 : Shape := ⟨2, ![1, 1]⟩
abbrev S512x1 : Shape := ⟨2, ![512, 1]⟩
abbrev S5000x128 : Shape := ⟨2, ![5000, 128]⟩
abbrev S5000x1 : Shape := ⟨2, ![5000, 1]⟩
abbrev S512x128 : Shape := ⟨2, ![512, 128]⟩
abbrev S5000x512 : Shape := ⟨2, ![5000, 512]⟩
abbrev S512 : Shape := ⟨1, ![512]⟩

abbrev nBuf : Space → Nat
  | .hbm => 120
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128, .f32⟩
  | .hbm, ⟨5, _⟩ => ⟨S128x1, .f32⟩
  | .hbm, ⟨6, _⟩ => ⟨S1, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .f32⟩
  | .hbm, ⟨48, _⟩ => ⟨S128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S128, .f32⟩
  | .hbm, ⟨93, _⟩ => ⟨S1x128x128, .f32⟩
  | .hbm, ⟨94, _⟩ => ⟨S128x128, .f32⟩
  | .hbm, ⟨95, _⟩ => ⟨S1x128, .f32⟩
  | .hbm, ⟨96, _⟩ => ⟨S100000x128, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000x128, .f32⟩
  | .hbm, ⟨106, _⟩ => ⟨S1700000x1, .f32⟩
  | .hbm, ⟨107, _⟩ => ⟨S1700000x128, .f32⟩
  | .hbm, ⟨108, _⟩ => ⟨S1700000x128, .f32⟩
  | .hbm, ⟨109, _⟩ => ⟨S_, .f32⟩
  | .hbm, ⟨110, _⟩ => ⟨S100000x128, .f32⟩
  | .hbm, ⟨111, _⟩ => ⟨S1700000x1, .i32⟩
  | .hbm, ⟨112, _⟩ => ⟨S100000x128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S100000x1, .i32⟩
  | .hbm, ⟨117, _⟩ => ⟨S1x1, .f32⟩
  | .hbm, ⟨118, _⟩ => ⟨S512x1, .f32⟩
  | .hbm, ⟨119, _⟩ => ⟨S512, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S5000x1, .i32⟩
  | .local _ .vmem, ⟨22, _⟩ => ⟨S5000x1, .i32⟩
  | .local _ .vmem, ⟨23, _⟩ => ⟨S128x1, .f32⟩
  | .local _ .vmem, ⟨24, _⟩ => ⟨S1x1, .f32⟩
  | .local _ .vmem, ⟨25, _⟩ => ⟨S512x1, .f32⟩
  | .local _ .vmem, ⟨26, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_10 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_13 : Ref sig .tc := ⟨.hbm, 97, rfl⟩
abbrev main_v73 : Ref sig .tc := ⟨.hbm, 98, rfl⟩
abbrev main_v74 : Ref sig .tc := ⟨.hbm, 99, rfl⟩
abbrev main_c_14 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem5_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_11 : BitVec 32 := 0#32
  let v28 : BitVec 1 := Scalar.cmpi .ne v27 c0_i32_11
  v28

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .i32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S100000_S100000x1 : S100000.ShapeCasts S100000x1
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S512x1_S512 : S512x1.ShapeCasts S512
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x512_S5000x128_S512x128_0_0_1_1_n_n_wf : DotDims.WF S5000x512 S5000x128 S512x128 [0] [0] [1] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .i32 = 32 ∨ (Rect.block (s := S100000x1) S5000x1.size (cc3_transform_2 i) (hinb3_2 i)).WholeWords (EltTy.packing .i32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x1.size a ≤ S128x1.size a
  hwx3_3 : ∀ i : grid3.Coords, EltTy.bits .f32 = 32 ∨ (Rect.block (s := S128x1) S128x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S512x1.size a
  hwx3_5 : ∀ i : grid3.Coords, EltTy.bits .f32 = 32 ∨ (Rect.block (s := S512x1) S512x1.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v70) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v71) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S512x1.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S512x1 : Shape := ⟨2, ![512, 1]⟩
abbrev S1x1 : Shape := ⟨2, ![1, 1]⟩
abbrev S512 : Shape := ⟨1, ![512]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S128x1, .f32⟩
  | 6 => ⟨S1, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S1x128x128, .f32⟩
  | 48 => ⟨S128x128, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000x128, .f32⟩
  | 86 => ⟨S1700000x1, .f32⟩
  | 87 => ⟨S1700000x128, .f32⟩
  | 88 => ⟨S1700000x128, .f32⟩
  | 89 => ⟨S_, .f32⟩
  | 90 => ⟨S100000x128, .f32⟩
  | 91 => ⟨S1700000x1, .i32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S512x128, .f32⟩
  | 2 => ⟨S100000x1, .i32⟩
  | 3 => ⟨S512x128, .f32⟩
  | 4 => ⟨S512x1, .f32⟩
  | 5 => ⟨S1x1, .f32⟩
  | 6 => ⟨S512x1, .f32⟩
  | 7 => ⟨S512x1, .f32⟩
  | 8 => ⟨S512, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call2_cst : Ref sig .tc := ⟨.hbm, 98, rfl⟩
abbrev main_call2_v0 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_c_13 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_14 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call3_cst : Ref sig .tc := ⟨.hbm, 125, rfl⟩
abbrev main_call3_v0 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  dot_S512x128_S128x1_S512x1_1_0_0_1_n_n_wf : DotDims.WF S512x128 S128x1 S512x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.K.R0.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The first layer's matrix product, as a pipeline of ten row blocks

The grid has ten points. At point `t` the pipeline stages rows `10000 t … 10000 t + 9999` of the activations
(window 0), the whole weight matrix (window 1) and the whole bias row (window 2), the last two copied in once at
the first point and left in their buffers afterwards; the body multiplies the staged rows by the staged weights
and overwrites the output block (window 3), which is written back after every point. Everything here is stated at
arbitrary entry contents `V` of the core's buffers. -/

/-! ## The windows' blocks -/

/-- The block of window `w` at point `t`: the entries of the window's array, as the region finds it, that lie in
    the rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation rows: whatever proof data starts from the entry contents and says the body leaves this staging
    buffer as it found it, the buffer holds the rows of point `t` when the body runs there. (A point at which the
    window is not copied in has the same block index as the point before, so what was left there is still right.) -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: copied in at the first point only. Its index map is constant, so the block it would fetch
    at any later point is the one already sitting in the buffer, which the body never writes. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: as for the weights (one copy at the first point, a constant index map, never written). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 10000 × 128 rectangle: what the body reads of the activation block and writes of the output block. -/
abbrev r0_x : Rect S10000x128 := Rect.unit (s := S10000x128) ![0, 0] S10000x128.size inb_S10000x128_S10000x128_0_0

/-- The whole 128 × 128 rectangle: what the body reads of the weights. -/
abbrev r0_w : Rect S128x128 := Rect.unit (s := S128x128) ![0, 0] S128x128.size inb_S128x128_S128x128_0_0

/-! ## What the body leaves in the output buffer -/

/-- The output buffer after the body, as a function of the staged activation rows `x0` and the staged weights `x1`:
    a single write over the whole rectangle, of the product of the two (each rounded to bf16 first, accumulated
    from zero). The bias buffer does not enter. -/
def out0_3 (x0 : Vec F S10000x128 .f32) (x1 : Vec F S128x128 .f32) : Vec F S10000x128 .f32 :=
  View.canon [⟨r0_x, k0_pay1 (View.ld x0 r0_x) (View.ld x1 r0_w)⟩]

/-- The one written rectangle is the whole buffer, so every index lies in it. -/
theorem cover0_3 (p0 : Vec F S10000x128 .f32) (y : S10000x128.Idx) :
    ∃ pc ∈ ([⟨r0_x, p0⟩] : List (View.Piece (Elt F) S10000x128 .f32)), y ∈ pc.1.set :=
  View.cover_of_tiled [⟨r0_x, p0⟩] S10000x128.size (by rfl) y

/-! ## The body's triple -/

set_option maxHeartbeats 1000000 in
/-- Run on whole staging buffers holding `x0`, `x1`, `x2` (inputs) and anything at all (output), the body ends with
    the inputs unchanged and the output at `out0_3 x0 x1`. It reads the first two inputs, reads the output buffer
    once without using the value, and stores the product over the whole output rectangle. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1)) -∗ K ⟨⟩))
      ⊢ wp frame (wpE (defs₀ (F := F)) Variants.none c none) E (cc0__layer_kernel i arg1 harg1 arg2 harg2 arg3 harg3 arg4 harg4) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`. The arrays are the entry contents. After the body at point `t`
    every input buffer still holds its block, and the output buffer holds `out0_3` of the activation block and the
    weights. The invariant is the untouched remainder of the core's state; nothing is owed; all shares are full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]

/-- Each input's staging buffer holds its block whenever the body runs, copied in at that point or earlier. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at an arbitrary point -/

/-- What the body is given at point `t`: the invariant, the owed transfers, and the four current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies with those as
    the read contents; the invariant and the owed transfers are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.K.R1.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The second layer's matrix kernel: ten row blocks of 10000 rows, each sent to
    `max (block + bias) 0` times the weight matrix.

    Everything here is stated at an arbitrary contents `V` of the core's buffers at entry. -/

/-! ## The blocks the windows see -/

/-- What window `w` shows at grid point `t`: the rectangle of its array (as found at entry) that the
    window's index map selects there. For the activations and the output this is rows
    `10000 t … 10000 t + 9999`; for the weight and the bias it is the whole array at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's buffer holds the activation block of the current point whenever the body
    starts, for any bookkeeping whose array is the entry contents and whose body does not change that
    buffer: the block is copied in afresh at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix whenever the body starts. It is copied in only
    at the first point; at a later point the window's index is the same as the point before, the body
    left the buffer alone, so what is there is still what a copy at this point would bring. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the bias row whenever the body starts: copied in once, like the weight. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer whole -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output buffer -/

/-- The output buffer after the body, from the three input buffers' contents (activations `x0`, weight
    `x1`, bias `x2`): its single store writes the whole buffer with the matrix product of
    `max (x0 + x2) 0` and `x1`. The payload takes its arguments in the order the body reads them:
    activations, bias, weight. -/
def out1_3 (x0 : Vec F S10000x128 .f32) (x1 : Vec F S128x128 .f32) (x2 : Vec F S1x128 .f32) : Vec F S10000x128 .f32 :=
  View.canon [⟨r1_0, k1_pay1 (View.ld x0 r1_0) (View.ld x2 r1_2) (View.ld x1 r1_1)⟩]

/-- The one stored rectangle is the whole buffer, so every index of the buffer lies in it. -/
theorem cover1_3 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The body run on four whole buffers, the three inputs at known contents and the output at anything:
    it reads the activations, the bias and the weight, reads the output buffer once without using the
    value, and stores the product over the whole output buffer. The inputs come back as they were and
    the output holds `out1_3` of them. -/
theorem sound_kernel1 (c : Dev nD) (E : Set ℕ) (i : grid1.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__layer_kernel i arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's bookkeeping -/

/-- The bookkeeping of this pipeline on core `c`: each window's array at its entry contents; after the
    body at point `t` each input buffer still at its block and the output buffer at `out1_3` of the
    three input blocks; the invariant is the rest of the core's scoped memory and the random-number
    register, untouched; full ownership everywhere and nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The bookkeeping's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input buffer holds its block whenever the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation, at a generic point -/

/-- What the body is handed at point `t`: the invariant, the core's debts, and the four current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's run asks of the body, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The third layer's matrix kernel: ten row blocks of 10000 rows, each sent to
    `max (block + bias) 0` times the weight matrix.

    Everything here is stated at an arbitrary contents `V` of the core's buffers at entry. -/

/-! ## The blocks the windows see -/

/-- What window `w` shows at grid point `t`: the rectangle of its array (as found at entry) that the
    window's index map selects there. For the activations and the output this is rows
    `10000 t … 10000 t + 9999`; for the weight and the bias it is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's buffer holds the activation block of the current point whenever the body
    starts, for any bookkeeping whose array is the entry contents and whose body does not change that
    buffer: the block is copied in afresh at every point. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the weight matrix whenever the body starts. It is copied in only
    at the first point; at a later point the window's index is the same as the point before, the body
    left the buffer alone, so what is there is still what a copy at this point would bring. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window's buffer holds the bias row whenever the body starts: copied in once, like the weight. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output buffer -/

/-- The output buffer after the body, from the three input buffers' contents (activations `x0`, weight
    `x1`, bias `x2`): its single store writes the whole buffer with the matrix product of
    `max (x0 + x2) 0` and `x1`. The payload takes its arguments in the order the body reads them:
    activations, bias, weight. -/
def out2_3 (x0 : Vec F S10000x128 .f32) (x1 : Vec F S128x128 .f32) (x2 : Vec F S1x128 .f32) : Vec F S10000x128 .f32 :=
  View.canon [⟨r2_0, k2_pay1 (View.ld x0 r2_0) (View.ld x2 r2_2) (View.ld x1 r2_1)⟩]

/-- The one stored rectangle is the whole buffer, so every index of the buffer lies in it. -/
theorem cover2_3 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The body run on four whole buffers, the three inputs at known contents and the output at anything:
    it reads the activations, the bias and the weight, reads the output buffer once without using the
    value, and stores the product over the whole output buffer. The inputs come back as they were and
    the output holds `out2_3` of them. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__layer_kernel i arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's bookkeeping -/

/-- The bookkeeping of this pipeline on core `c`: each window's array at its entry contents; after the
    body at point `t` each input buffer still at its block and the output buffer at `out2_3` of the
    three input blocks; the invariant is the rest of the core's scoped memory and the random-number
    register, untouched; full ownership everywhere and nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The bookkeeping's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input buffer holds its block whenever the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's obligation, at a generic point -/

/-- What the body is handed at point `t`: the invariant, the core's debts, and the four current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's run asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Fold.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import proofs.«414673_j4638564679932_1_alg».proof.Proof.Gen.Kernel.Regions
import proofs.«414673_j4638564679932_1_alg».proof.Proof.K.R0
import proofs.«414673_j4638564679932_1_alg».proof.Proof.K.R1
import proofs.«414673_j4638564679932_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The whole program: the buffers' contents at every boundary, the four regions as segments, the launch

The program alternates stretches of host operations with four kernel regions. The contents of the core's unscoped
buffers at each boundary are a fold from the launch memory: a host stretch applies its operations; a region leaves its
output array at what its grid points wrote back and every other buffer as it found it. Each region's proof data are
stated at the contents it is entered with. One launch over the eleven segments gives every weakly fair execution
terminating with every unscoped buffer at the last boundary's contents. -/

variable (m : (ℓ : Loc nD τ sig) → Buf (Elt F) ℓ) (ρ : Dev nD → PrngReg)

/-- The buffers at launch. -/
abbrev W0 : Dev nD → Valuation τ sig (Elt F) := fun c b => (s₀ m ρ).mem ((c : Dev nD), b)
/-- After the host stretch `hostOps0`. -/
abbrev W1 (c : Dev nD) : Valuation τ sig (Elt F) := StableHlo.after hostOps0 (W0 m ρ c)
theorem W1_keep (c : Dev nD) (b : Ref sig .tc) (hb : b ∉ hostOps0_W) : W1 m ρ c b = W0 m ρ c b :=
  StableHlo.after_of_writes_sub hostOps0 _ hostOps0_writes hb
/-- After the host stretch `hostOps0_1`. -/
abbrev W2 (c : Dev nD) : Valuation τ sig (Elt F) := StableHlo.after hostOps0_1 (W1 m ρ c)
theorem W2_keep (c : Dev nD) (b : Ref sig .tc) (hb : b ∉ hostOps0_1_W) : W2 m ρ c b = W1 m ρ c b :=
  StableHlo.after_of_writes_sub hostOps0_1 _ hostOps0_1_writes hb
/-- After the host stretch `hostOps0_2`. -/
abbrev W3 (c : Dev nD) : Valuation τ sig (Elt F) := StableHlo.after hostOps0_2 (W2 m ρ c)
theorem W3_keep (c : Dev nD) (b : Ref sig .tc) (hb : b ∉ hostOps0_2_W) : W3 m ρ c b = W2 m ρ c b :=
  StableHlo.after_of_writes_sub hostOps0_2 _ hostOps0_2_writes hb
/-- What region 0 is entered with, read at the TensorCore's references. -/
abbrev B3 : (c : Dev nD) → (b : Ref sig .tc) → Buf (Elt F) ((c : Thread nD τ).loc b) := fun c b => W3 m ρ c b

/-- After region 0: its arrays at what the pipeline leaves (the inputs as entered, the output's write-backs folded), every
    other buffer as entered. -/
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem hF0 (c : Dev nD) (w : Fin cfg0.W) : (dat0 (B3 m ρ) c).arrAt w cfg0.N = W4 m ρ c (Pipeline.arrRef spec0 w) :=
  (W4_arr m ρ c w).symm
theorem hrest0 (c : Dev nD) : ∀ b, b ∉ Finset.univ.image (Pipeline.arrRef spec0) → W4 m ρ c b = B3 m ρ c b :=
  fun b hb => W4_of_ne m ρ c b fun w e => hb (Finset.mem_image.mpr ⟨w, Finset.mem_univ _, e⟩)
/-- Region 0 changes one array only, its output's: every other buffer, an input window's array included, is as entered. -/
theorem W4_keep (c : Dev nD) (b : Ref sig .tc) (hb : b ≠ main_v34) : W4 m ρ c b = W3 m ρ c b := by
  by_cases h0 : Pipeline.arrRef spec0 0 = b
  · subst h0; exact (W4_arr m ρ c 0).trans (((dat0 (B3 m ρ) c).arrAt_in 0 rfl _).trans (A_eq0 (B3 m ρ) c 0))
  by_cases h1 : Pipeline.arrRef spec0 1 = b
  · subst h1; exact (W4_arr m ρ c 1).trans (((dat0 (B3 m ρ) c).arrAt_in 1 rfl _).trans (A_eq0 (B3 m ρ) c 1))
  by_cases h2 : Pipeline.arrRef spec0 2 = b
  · subst h2; exact (W4_arr m ρ c 2).trans (((dat0 (B3 m ρ) c).arrAt_in 2 rfl _).trans (A_eq0 (B3 m ρ) c 2))
  exact W4_of_ne m ρ c b (fun w => by
    fin_cases w
    · exact h0
    · exact h1
    · exact h2
    · exact fun e => hb e.symm)

/-- After the host stretch `hostOps1`. -/
abbrev W5 (c : Dev nD) : Valuation τ sig (Elt F) := StableHlo.after hostOps1 (W4 m ρ c)
theorem W5_keep (c : Dev nD) (b : Ref sig .tc) (hb : b ∉ hostOps1_W) : W5 m ρ c b = W4 m ρ c b :=
  StableHlo.after_of_writes_sub hostOps1 _ hostOps1_writes hb
abbrev B5 : (c : Dev nD) → (b : Ref sig .tc) → Buf (Elt F) ((c : Thread nD τ).loc b) := fun c b => W5 m ρ c b

/-- After region 1: its arrays at what the pipeline leaves (the inputs as entered, the output's write-backs folded), every
    other buffer as entered. -/
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (B5 m ρ) c).arrAt w cfg1.N = W6 m ρ c (Pipeline.arrRef spec1 w) :=
  (W6_arr m ρ c w).symm
theorem hrest1 (c : Dev nD) : ∀ b, b ∉ Finset.univ.image (Pipeline.arrRef spec1) → W6 m ρ c b = B5 m ρ c b :=
  fun b hb => W6_of_ne m ρ c b fun w e => hb (Finset.mem_image.mpr ⟨w, Finset.mem_univ _, e⟩)
/-- Region 1 changes one array only, its output's: every other buffer, an input window's array included, is as entered. -/
theorem W6_keep (c : Dev nD) (b : Ref sig .tc) (hb : b ≠ main_v53) : W6 m ρ c b = W5 m ρ c b := by
  by_cases h0 : Pipeline.arrRef spec1 0 = b
  · subst h0; exact (W6_arr m ρ c 0).trans (((dat1 (B5 m ρ) c).arrAt_in 0 rfl _).trans (A_eq1 (B5 m ρ) c 0))
  by_cases h1 : Pipeline.arrRef spec1 1 = b
  · subst h1; exact (W6_arr m ρ c 1).trans (((dat1 (B5 m ρ) c).arrAt_in 1 rfl _).trans (A_eq1 (B5 m ρ) c 1))
  by_cases h2 : Pipeline.arrRef spec1 2 = b
  · subst h2; exact (W6_arr m ρ c 2).trans (((dat1 (B5 m ρ) c).arrAt_in 2 rfl _).trans (A_eq1 (B5 m ρ) c 2))
  exact W6_of_ne m ρ c b (fun w => by
    fin_cases w
    · exact h0
    · exact h1
    · exact h2
    · exact fun e => hb e.symm)

/-- After the host stretch `hostOps2`. -/
abbrev W7 (c : Dev nD) : Valuation τ sig (Elt F) := StableHlo.after hostOps2 (W6 m ρ c)
theorem W7_keep (c : Dev nD) (b : Ref sig .tc) (hb : b ∉ hostOps2_W) : W7 m ρ c b = W6 m ρ c b :=
  StableHlo.after_of_writes_sub hostOps2 _ hostOps2_writes hb
abbrev B7 : (c : Dev nD) → (b : Ref sig .tc) → Buf (Elt F) ((c : Thread nD τ).loc b) := fun c b => W7 m ρ c b

/-- After region 2: its arrays at what the pipeline leaves (the inputs as entered, the output's write-backs folded), every
    other buffer as entered. -/
def W8 (c : Dev nD) : Valuation τ sig (Elt F) :=
  Pipeline.withArrays spec2 c (W7 m ρ c) fun w => (dat2 (B7 m ρ) c).arrAt w cfg2.N
theorem W8_arr (c : Dev nD) (w : Fin cfg2.W) :
    W8 m ρ c (Proc.devRef .tc (Pipeline.arrRef spec2 w)) = (dat2 (B7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem hF2 (c : Dev nD) (w : Fin cfg2.W) : (dat2 (B7 m ρ) c).arrAt w cfg2.N = W8 m ρ c (Pipeline.arrRef spec2 w) :=
  (W8_arr m ρ c w).symm
theorem hrest2 (c : Dev nD) : ∀ b, b ∉ Finset.univ.image (Pipeline.arrRef spec2) → W8 m ρ c b = B7 m ρ c b :=
  fun b hb => W8_of_ne m ρ c b fun w e => hb (Finset.mem_image.mpr ⟨w, Finset.mem_univ _, e⟩)
/-- Region 2 changes one array only, its output's: every other buffer, an input window's array included, is as entered. -/
theorem W8_keep (c : Dev nD) (b : Ref sig .tc) (hb : b ≠ main_v72) : W8 m ρ c b = W7 m ρ c b := by
  by_cases h0 : Pipeline.arrRef spec2 0 = b
  · subst h0; exact (W8_arr m ρ c 0).trans (((dat2 (B7 m ρ) c).arrAt_in 0 rfl _).trans (A_eq2 (B7 m ρ) c 0))
  by_cases h1 : Pipeline.arrRef spec2 1 = b
  · subst h1; exact (W8_arr m ρ c 1).trans (((dat2 (B7 m ρ) c).arrAt_in 1 rfl _).trans (A_eq2 (B7 m ρ) c 1))
  by_cases h2 : Pipeline.arrRef spec2 2 = b
  · subst h2; exact (W8_arr m ρ c 2).trans (((dat2 (B7 m ρ) c).arrAt_in 2 rfl _).trans (A_eq2 (B7 m ρ) c 2))
  exact W8_of_ne m ρ c b (fun w => by
    fin_cases w
    · exact h0
    · exact h1
    · exact h2
    · exact fun e => hb e.symm)

/-- After the host stretch `hostOps3`. -/
abbrev W9 (c : Dev nD) : Valuation τ sig (Elt F) := StableHlo.after hostOps3 (W8 m ρ c)
theorem W9_keep (c : Dev nD) (b : Ref sig .tc) (hb : b ∉ hostOps3_W) : W9 m ρ c b = W8 m ρ c b :=
  StableHlo.after_of_writes_sub hostOps3 _ hostOps3_writes hb
abbrev B9 : (c : Dev nD) → (b : Ref sig .tc) → Buf (Elt F) ((c : Thread nD τ).loc b) := fun c b => W9 m ρ c b

end Cert.Kernel.Hand

end
-- ==== Proof.K.R3Runs.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! ## The two branch conditions of the pooling body, decided over the twenty row blocks

The body zeroes the 512 x 128 accumulator when the block coordinate is 0 and computes the head
(accumulator times the head weights plus the head bias) when the coordinate is 19. -/

/-- The reset condition, as the body's scalar chain computes it from the block coordinate. -/
abbrev cond3_0 (i : grid3.Coords) : Prop := (Scalar.cmpi .ne (Scalar.extui (Scalar.cmpi .eq (BitVec.ofNat 32 (i 0).val) 0#32)) 0#32) = 1#1
/-- It holds exactly at the first block. -/
theorem hcond3_0 : ∀ t : Fin cfg3.N, cond3_0 (grid3.coords t) ↔ t.val = 0 :=
  (by decide +kernel : ∀ t : Fin grid3.N, cond3_0 (grid3.coords t) ↔ t.val = 0)

/-- The head condition. -/
abbrev cond3_1 (i : grid3.Coords) : Prop := k3_cond2 i = 1#1
/-- It holds exactly at the last block. -/
theorem hcond3_1 : ∀ t : Fin cfg3.N, cond3_1 (grid3.coords t) ↔ t.val = 19 :=
  (by decide +kernel : ∀ t : Fin grid3.N, cond3_1 (grid3.coords t) ↔ t.val = 19)

/-! ## Where the windows are live

The five inputs are read at every block; the 512 x 1 result is stored only at the last block, and
at the other blocks its buffer is neither stored into nor written back. -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last block the result window is idle, -/
theorem idleAt3_5 : ∀ t : Fin cfg3.N, ¬cond3_1 (grid3.coords t) → cfg3.idle 5 (grid3.coords t) = true := by decide +kernel
/-- and not written back; -/
theorem noFlush3_5 : ∀ t : Fin cfg3.N, ¬cond3_1 (grid3.coords t) → (cfg3.win 5).flush t = false := by decide +kernel
/-- at the last block it is live. -/
theorem liveAt3_5 : ∀ t : Fin cfg3.N, cond3_1 (grid3.coords t) → cfg3.idle 5 (grid3.coords t) = false := by decide +kernel

/-! ## The buffers the body is called on -/

/-- One staging buffer of the result window, through which its contents are stated. -/
abbrev VO3_5 : View sig .tc .vmem S512x1 .f32 := (Memref.whole cc3_stg5_0 : Memref sig .tc .vmem S512x1 .f32).view
/-- Each window's current staging buffer at block `t`, and that it is a whole buffer. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x1 .f32 := win3_5.stage (cfg3.slots t 5)
abbrev hs3_5 (t : Fin cfg3.N) : (ms3_5 t).IsWhole := hstage3_5 ((cfg3.slots t 5).cast nbuf3_5)
/-- The accumulator: a whole scoped buffer of the kernel's own, passed beside the windows and kept from block to block. -/
abbrev scM3_0 : Memref sig .tc .vmem S512x128 .f32 := Memref.whole cc3_scratch0
/-- The accumulator as a view: what it holds is stated through it. -/
abbrev VS3_0 : View sig .tc .vmem S512x128 .f32 := scM3_0.view

/-- The region's invariant, conjunct by conjunct: the eighteen staging buffers of the three layer calls at
    some contents each, the accumulator owned at some contents, and the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

/-! ## The body run once, in each of its three control cases

Each run is stated on arbitrary whole buffers: the five inputs at given contents, and the list of
stores each written buffer ends with (latest first) is found by executing the body. -/

-- (the run's term is large)
set_option maxHeartbeats 1000000 in
/-- FIRST BLOCK (reset taken, head not): the accumulator, at any contents, is loaded, overwritten by zeros,
    loaded again and overwritten by zeros plus this block's pooled rows; the result buffer is handed back untouched. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) :
    Σ' (L5 : List (View.Piece (Elt F) S512x1 .f32)), { LS0 : List (View.Piece (Elt F) S512x128 .f32) //
      ∀ (xi5 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨[], ?_, fun xi5 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- A MIDDLE BLOCK (neither branch): the accumulator, at what the block before left, is loaded and overwritten
    by itself plus this block's pooled rows; the result buffer is handed back untouched. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) :
    Σ' (L5 : List (View.Piece (Elt F) S512x1 .f32)), { LS0 : List (View.Piece (Elt F) S512x128 .f32) //
      ∀ (xi5 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨[], ?_, fun xi5 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- THE LAST BLOCK (head taken, reset not): the accumulator is updated as at a middle block, then loaded once more
    and multiplied into the head; the result buffer, at any contents, is loaded and overwritten by the head's value. -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) :
    Σ' (L5 : List (View.Piece (Elt F) S512x1 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨?_, ?_, fun E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.K.R3.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414673_j4638564679932_1_alg».proof.Proof.K.R3Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! ## The windows' blocks -/

/-- Window `w`'s block at row block `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current staging buffer holds its block at every row block, whether it was fetched there or not
    (a window whose block index does not move keeps the block it was given at the first row block). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What each control case leaves behind -/

/-- At the first row block nothing is stored into the result buffer: no pieces (a placeholder nothing consults). -/
def out3_A_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : Vec F S512x1 .f32 :=
  VO3_5.read (Elt F) (VO3_5.writes (Elt F) VO3_5.junk (kernelRun3_A c i arg1 harg1 arg2 harg2 arg3 harg3 arg4 harg4 arg5 harg5 arg6 harg6 arg7 harg7 hc0 hc1 x0 x1 x2 x3 x4).1)

/-- The first row block's two stores into the accumulator (zeros, then the first sum) each cover it whole. -/
theorem scover3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) (y : S512x128.Idx) :
    ∃ pc ∈ (kernelRun3_A c i arg1 harg1 arg2 harg2 arg3 harg3 arg4 harg4 arg5 harg5 arg6 harg6 arg7 harg7 hc0 hc1 x0 x1 x2 x3 x4).2.1, y ∈ pc.1.set :=
  View.cover_of_tiledL (kernelRun3_A c i arg1 harg1 arg2 harg2 arg3 harg3 arg4 harg4 arg5 harg5 arg6 harg6 arg7 harg7 hc0 hc1 x0 x1 x2 x3 x4).2.1 S512x128.size (by sl_kernel_rfl) y

/-- What the first row block leaves in the accumulator: its stores read back. -/
def sout3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : Vec F S512x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3 x4).2.1)

/-- At a middle row block nothing is stored into the result buffer. -/
def out3_B_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x1 .f32 :=
  VO3_5.read (Elt F) (VO3_5.writes (Elt F) VO3_5.junk (kernelRun3_B c i arg1 harg1 arg2 harg2 arg3 harg3 arg4 harg4 arg5 harg5 arg6 harg6 arg7 harg7 hc0 hc1 x0 x1 x2 x3 x4 xs0).1)

/-- A middle row block's one store into the accumulator covers it whole. -/
theorem scover3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x128.Idx) :
    ∃ pc ∈ (kernelRun3_B c i arg1 harg1 arg2 harg2 arg3 harg3 arg4 harg4 arg5 harg5 arg6 harg6 arg7 harg7 hc0 hc1 x0 x1 x2 x3 x4 xs0).2.1, y ∈ pc.1.set :=
  View.cover_of_tiledL (kernelRun3_B c i arg1 harg1 arg2 harg2 arg3 harg3 arg4 harg4 arg5 harg5 arg6 harg6 arg7 harg7 hc0 hc1 x0 x1 x2 x3 x4 xs0).2.1 S512x128.size (by sl_kernel_rfl) y

/-- What a middle row block leaves in the accumulator. -/
def sout3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 x4 xs0).2.1)

/-- The last row block's store of the head's value covers the 512 x 1 result buffer. -/
theorem cover3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x1.Idx) :
    ∃ pc ∈ (kernelRun3_C c i arg1 harg1 arg2 harg2 arg3 harg3 arg4 harg4 arg5 harg5 arg6 harg6 arg7 harg7 hc0 hc1 x0 x1 x2 x3 x4 xs0).1, y ∈ pc.1.set :=
  View.cover_of_tiledL (kernelRun3_C c i arg1 harg1 arg2 harg2 arg3 harg3 arg4 harg4 arg5 harg5 arg6 harg6 arg7 harg7 hc0 hc1 x0 x1 x2 x3 x4 xs0).1 S512x1.size (by sl_kernel_rfl) y

/-- What the last row block leaves in the result buffer. -/
def out3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x1 .f32 :=
  VO3_5.read (Elt F) (VO3_5.writes (Elt F) VO3_5.junk (kernelRun3_C c i arg1 harg1 arg2 harg2 arg3 harg3 arg4 harg4 arg5 harg5 arg6 harg6 arg7 harg7 hc0 hc1 x0 x1 x2 x3 x4 xs0).1)

/-- The last row block's store into the accumulator covers it whole. -/
theorem scover3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x128.Idx) :
    ∃ pc ∈ (kernelRun3_C c i arg1 harg1 arg2 harg2 arg3 harg3 arg4 harg4 arg5 harg5 arg6 harg6 arg7 harg7 hc0 hc1 x0 x1 x2 x3 x4 xs0).2.1, y ∈ pc.1.set :=
  View.cover_of_tiledL (kernelRun3_C c i arg1 harg1 arg2 harg2 arg3 harg3 arg4 harg4 arg5 harg5 arg6 harg6 arg7 harg7 hc0 hc1 x0 x1 x2 x3 x4 xs0).2.1 S512x128.size (by sl_kernel_rfl) y

/-- What the last row block leaves in the accumulator. -/
def sout3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 x4 xs0).2.1)

/-! ## The accumulation over the twenty row blocks -/

/-- The first row block is not the last. -/
theorem ncond3_1_of_zero (t : Fin cfg3.N) (h0 : t.val = 0) : ¬cond3_1 (grid3.coords t) :=
  fun h => by have h19 := (hcond3_1 t).mp h; omega
/-- A later row block does not reset. -/
theorem ncond3_0_of_pos (t : Fin cfg3.N) (h0 : t.val ≠ 0) : ¬cond3_0 (grid3.coords t) :=
  fun h => h0 ((hcond3_0 t).mp h)

/-- What the result window's staging buffer and the accumulator hold after the body at row block `n`: the first
    block starts from zeros; every later block adds its pooled rows to what the block before left; block 19 also
    stores the head's value. -/
def outsAt3 (c : Dev nD) : (n : ℕ) → n < cfg3.N → Vec F S512x1 .f32 × Vec F S512x128 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr rfl) (ncond3_1_of_zero ⟨0, hn⟩ rfl) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr rfl) (ncond3_1_of_zero ⟨0, hn⟩ rfl) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h1 : n + 1 = 19 then
      (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
    else
      (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)

/-- `outsAt3` at the first row block. -/
theorem outsAt3_A (c : Dev nD) (t : Fin cfg3.N) (h0 : t.val = 0) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (ncond3_1_of_zero t h0) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (ncond3_1_of_zero t h0) (iblk3 V c 0 t) (iblk3 V c 1 t) (iblk3 V c 2 t) (iblk3 V c 3 t) (iblk3 V c 4 t)) := by
  obtain ⟨n, hn⟩ := t
  cases n with
  | zero => exact rfl
  | succ n => exact absurd h0 (Nat.succ_ne_zero n)

/-- `outsAt3` at a middle row block: over what the block before left. -/
theorem outsAt3_B (c : Dev nD) (t : Fin cfg3.N) (h0 : t.val ≠ 0) (h1 : ¬t.val = 19) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- `outsAt3` at the last row block: over what the block before left. -/
theorem outsAt3_C (c : Dev nD) (t : Fin cfg3.N) (h0 : t.val ≠ 0) (h1 : t.val = 19) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between row blocks -/

/-- Before the first row block: the region's own invariant (every scoped buffer that is no staging buffer of this
    call at anything). Afterwards: the accumulator owned at what the block before left in it, the other eighteen
    scoped buffers still at anything, the generator register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2)) ∗ (∃ r, prngReg c r)) := by
  cases n with
  | zero => exact absurd rfl hz
  | succ n => rfl

/-! ## The pipeline's proof data -/

/-- The arrays as the region finds them; after the body at row block `t` each input's buffer at its block and the
    result's at `outsAt3`'s first component; the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic row block -/

/-- What the body is called with at row block `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any row block: the inputs' buffers hold their blocks; the block's position says which control case
    runs; the invariant hands the body the accumulator (at anything at the first block, at what the block before left
    afterwards) and takes it back at this block's contents; the other scoped buffers and the register pass through;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  by_cases h0 : t.val = 0
  · -- the first row block
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [Dat.leavesExact_idle (dat3 V c) 5 t (idleAt3_5 t (ncond3_1_of_zero t h0)) (noFlush3_5 t (ncond3_1_of_zero t h0))]
    rw [outsAt3_A V c t h0]
    unfold sout3_A_0; (try dsimp only)
    rw [PhiS3_castSucc V c t, PhiS3_zero V c _ _ h0, PhiA3_eq]
    iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3_0 t).mpr h0) (ncond3_1_of_zero t h0) (iblk3 V c 0 t) (iblk3 V c 1 t) (iblk3 V c 2 t) (iblk3 V c 3 t) (iblk3 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HR10 HR11 HR12 HR13 HR14 HR15 HR16 HR17 HS0 Hg]
    · isplitl [HR0 HR1 HR2 HR3 HR4 HR5 HR6 HR7 HR8 HR9 HR10 HR11 HR12 HR13 HR14 HR15 HR16 HR17 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS0
        ipureintro; exact View.read_writes_of_cover _ _ _ _ _ (scover3_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 19
    · -- the last row block
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold out3_C_5 sout3_C_0; (try dsimp only)
      rw [PhiS3_castSucc V c t, PhiS3_pos V c _ _ h0]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (ncond3_0_of_pos t h0) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover3_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _)
    · -- a middle row block
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B_0; (try dsimp only)
      rw [PhiS3_castSucc V c t, PhiS3_pos V c _ _ h0]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (ncond3_0_of_pos t h0) (fun h => h1 ((hcond3_1 t).mp h)) (iblk3 V c 0 t) (iblk3 V c 1 t) (iblk3 V c 2 t) (iblk3 V c 3 t) (iblk3 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover3_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every row block. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first row block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any row block the invariant gives the region's own back: the accumulator's named contents are forgotten,
    the eighteen other buffers go back in their listed order. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last row block. -/
theorem hout3 (c : Dev nD) : (dat3 V c).Φ (Fin.last cfg3.N) ⊢ Pipeline.ΦA spec3 c :=
  Phi_out3 V c _ (by rw [Fin.val_last]; have : cfg3.N = 20 := N_3; omega)

/-! ## The accumulation in closed form, over the body's arithmetic

What each control case leaves, as the body's own arithmetic applied to the blocks it loaded: the accumulator after the
first row block is the pooled sum of that block over zeros; after every later block it is the pooled sum of the block
over what the block before left; and the result after the last block is the head applied to the accumulator. -/

/-- The zero offsets of every whole-buffer access, as a constant function. -/
theorem hz3 : (![0, 0] : Fin 2 → Nat) = fun _ => 0 := funext fun a => by fin_cases a <;> rfl

/-- First row block: zeros are stored, read back, and the block's pooled rows added. -/
theorem sout3_A_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : sout3_A_0 c i arg1 harg1 arg2 harg2 arg3 harg3 arg4 harg4 arg5 harg5 arg6 harg6 arg7 harg7 hc0 hc1 x0 x1 x2 x3 x4 = k3_pay2 x0 x1 x2 k3_pay1 := by
  unfold sout3_A_0
  rw [View.read_writes_eq_canon _ _ _ (scover3_A_0 c i arg1 harg1 arg2 harg2 arg3 harg3 arg4 harg4 arg5 harg5 arg6 harg6 arg7 harg7 hc0 hc1 x0 x1 x2 x3 x4)]
  unfold kernelRun3_A
  dsimp only
  sl_unfold_words
  rw [View.canon_cons_unit_zero (S := S512x128) hz3]
  simp only [View.readAt_eq_ld, harg1.read_unread, harg2.read_unread, harg3.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3, View.readCov_unit_zero (S := S512x128) _ hz3]

/-- A middle row block: the block's pooled rows added to what the accumulator held. -/
theorem sout3_B_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : sout3_B_0 c i arg1 harg1 arg2 harg2 arg3 harg3 arg4 harg4 arg5 harg5 arg6 harg6 arg7 harg7 hc0 hc1 x0 x1 x2 x3 x4 xs0 = k3_pay2 x0 x1 x2 xs0 := by
  unfold sout3_B_0
  rw [View.read_writes_eq_canon _ _ _ (scover3_B_0 c i arg1 harg1 arg2 harg2 arg3 harg3 arg4 harg4 arg5 harg5 arg6 harg6 arg7 harg7 hc0 hc1 x0 x1 x2 x3 x4 xs0)]
  unfold kernelRun3_B
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- The last row block updates the accumulator as a middle one does. -/
theorem sout3_C_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : sout3_C_0 c i arg1 harg1 arg2 harg2 arg3 harg3 arg4 harg4 arg5 harg5 arg6 harg6 arg7 harg7 hc0 hc1 x0 x1 x2 x3 x4 xs0 = k3_pay2 x0 x1 x2 xs0 := by
  unfold sout3_C_0
  rw [View.read_writes_eq_canon _ _ _ (scover3_C_0 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- The last row block's result: the head applied to the accumulator it has just updated. -/
theorem out3_C_5_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : out3_C_5 c i arg1 harg1 arg2 harg2 arg3 harg3 arg4 harg4 arg5 harg5 arg6 harg6 arg7 harg7 hc0 hc1 x0 x1 x2 x3 x4 xs0 = k3_pay3 (k3_pay2 x0 x1 x2 xs0) x3 x4 := by
  unfold out3_C_5
  rw [View.read_writes_eq_canon _ _ _ (cover3_C_5 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3, View.readCov_unit_zero (S := S512x128) _ hz3]
  simp only [View.readAt_eq_ld, harg1.read_unread, harg2.read_unread, harg3.read_unread, harg4.read_unread, harg5.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- After the first row block the accumulator is that block's pooled sum over zeros. -/
theorem scr3_zero (c : Dev nD) (h : 0 < cfg3.N) : (outsAt3 V c 0 h).2 = k3_pay2 (iblk3 V c 0 ⟨0, h⟩) (iblk3 V c 1 ⟨0, h⟩) (iblk3 V c 2 ⟨0, h⟩) k3_pay1 := by
  have e : outsAt3 V c 0 h = _ := outsAt3_A V c ⟨0, h⟩ rfl
  rw [e]; dsimp only
  exact sout3_A_0_eq c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) scM3_0 (Memref.isWhole_whole _) ((hcond3_0 ⟨0, h⟩).mpr rfl) (ncond3_1_of_zero ⟨0, h⟩ rfl) (iblk3 V c 0 ⟨0, h⟩) (iblk3 V c 1 ⟨0, h⟩) (iblk3 V c 2 ⟨0, h⟩) (iblk3 V c 3 ⟨0, h⟩) (iblk3 V c 4 ⟨0, h⟩)

/-- After every later row block it is that block's pooled sum over what the block before left. -/
theorem scr3_succ (c : Dev nD) (n : ℕ) (h : n + 1 < cfg3.N) : (outsAt3 V c (n + 1) h).2 = k3_pay2 (iblk3 V c 0 ⟨n + 1, h⟩) (iblk3 V c 1 ⟨n + 1, h⟩) (iblk3 V c 2 ⟨n + 1, h⟩) (outsAt3 V c n (Nat.lt_of_succ_lt h)).2 := by
  by_cases h1 : n + 1 = 19
  · have e : outsAt3 V c (n + 1) h = _ := outsAt3_C V c ⟨n + 1, h⟩ (Nat.succ_ne_zero n) h1
    rw [e]; dsimp only
    exact sout3_C_0_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2
  · have e : outsAt3 V c (n + 1) h = _ := outsAt3_B V c ⟨n + 1, h⟩ (Nat.succ_ne_zero n) h1
    rw [e]; dsimp only
    exact sout3_B_0_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (ncond3_0_of_pos ⟨n + 1, h⟩ (Nat.succ_ne_zero n)) (fun hc => h1 ((hcond3_1 ⟨n + 1, h⟩).mp hc)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2

/-- After the last row block the result buffer holds the head of the final accumulator. -/
theorem out3_last (c : Dev nD) (h : 19 < cfg3.N) : (outsAt3 V c 19 h).1 = k3_pay3 (outsAt3 V c 19 h).2 (iblk3 V c 3 ⟨19, h⟩) (iblk3 V c 4 ⟨19, h⟩) := by
  have e : outsAt3 V c 19 h = _ := outsAt3_C V c ⟨19, h⟩ (Nat.succ_ne_zero 18) rfl
  rw [e]; dsimp only
  exact (out3_C_5_eq c (grid3.coords ⟨19, h⟩) (ms3_0 ⟨19, h⟩) (hs3_0 ⟨19, h⟩) (ms3_1 ⟨19, h⟩) (hs3_1 ⟨19, h⟩) (ms3_2 ⟨19, h⟩) (hs3_2 ⟨19, h⟩) (ms3_3 ⟨19, h⟩) (hs3_3 ⟨19, h⟩) (ms3_4 ⟨19, h⟩) (hs3_4 ⟨19, h⟩) (ms3_5 ⟨19, h⟩) (hs3_5 ⟨19, h⟩) scM3_0 (Memref.isWhole_whole _) (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (outsAt3 V c (19 - 1) (Nat.lt_of_le_of_lt (Nat.sub_le _ _) h)).2).trans
    (congrArg (fun s => k3_pay3 s (iblk3 V c 3 ⟨19, h⟩) (iblk3 V c 4 ⟨19, h⟩))
      (sout3_C_0_eq c (grid3.coords ⟨19, h⟩) (ms3_0 ⟨19, h⟩) (hs3_0 ⟨19, h⟩) (ms3_1 ⟨19, h⟩) (hs3_1 ⟨19, h⟩) (ms3_2 ⟨19, h⟩) (hs3_2 ⟨19, h⟩) (ms3_3 ⟨19, h⟩) (hs3_3 ⟨19, h⟩) (ms3_4 ⟨19, h⟩) (hs3_4 ⟨19, h⟩) (ms3_5 ⟨19, h⟩) (hs3_5 ⟨19, h⟩) scM3_0 (Memref.isWhole_whole _) (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (outsAt3 V c (19 - 1) (Nat.lt_of_le_of_lt (Nat.sub_le _ _) h)).2).symm)

end Cert.Kernel.Hand

end
-- ==== Proof.K.Run.lean ====
import proofs.«414673_j4638564679932_1_alg».proof.Proof.Gen.Kernel.Launch
import proofs.«414673_j4638564679932_1_alg».proof.Proof.Gen.Kernel.Skeleton
import proofs.«414673_j4638564679932_1_alg».proof.Proof.Gen.Kernel.Points
import proofs.«414673_j4638564679932_1_alg».proof.Proof.Gen.Kernel.Regions
import proofs.«414673_j4638564679932_1_alg».proof.Proof.K.Fold
import proofs.«414673_j4638564679932_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

/-! # The last region, the launch

The fold of the buffers' contents continues through region 3 and the last host stretch; then the four regions as
segments and one launch over the eleven segments. -/

variable (m : (ℓ : Loc nD τ sig) → Buf (Elt F) ℓ) (ρ : Dev nD → PrngReg)

/-- After region 3: its arrays at what the pipeline leaves (the inputs as entered, the output's write-backs folded), every
    other buffer as entered. -/
def W10 (c : Dev nD) : Valuation τ sig (Elt F) :=
  Pipeline.withArrays spec3 c (W9 m ρ c) fun w => (dat3 (B9 m ρ) c).arrAt w cfg3.N
theorem W10_arr (c : Dev nD) (w : Fin cfg3.W) :
    W10 m ρ c (Proc.devRef .tc (Pipeline.arrRef spec3 w)) = (dat3 (B9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
theorem hF3 (c : Dev nD) (w : Fin cfg3.W) : (dat3 (B9 m ρ) c).arrAt w cfg3.N = W10 m ρ c (Pipeline.arrRef spec3 w) :=
  (W10_arr m ρ c w).symm
theorem hrest3 (c : Dev nD) : ∀ b, b ∉ Finset.univ.image (Pipeline.arrRef spec3) → W10 m ρ c b = B9 m ρ c b :=
  fun b hb => W10_of_ne m ρ c b fun w e => hb (Finset.mem_image.mpr ⟨w, Finset.mem_univ _, e⟩)
/-- Region 3 changes one array only, its output's: every other buffer, an input window's array included, is as entered. -/
theorem W10_keep (c : Dev nD) (b : Ref sig .tc) (hb : b ≠ main_v91) : W10 m ρ c b = W9 m ρ c b := by
  by_cases h0 : Pipeline.arrRef spec3 0 = b
  · subst h0; exact (W10_arr m ρ c 0).trans (((dat3 (B9 m ρ) c).arrAt_in 0 rfl _).trans (A_eq3 (B9 m ρ) c 0))
  by_cases h1 : Pipeline.arrRef spec3 1 = b
  · subst h1; exact (W10_arr m ρ c 1).trans (((dat3 (B9 m ρ) c).arrAt_in 1 rfl _).trans (A_eq3 (B9 m ρ) c 1))
  by_cases h2 : Pipeline.arrRef spec3 2 = b
  · subst h2; exact (W10_arr m ρ c 2).trans (((dat3 (B9 m ρ) c).arrAt_in 2 rfl _).trans (A_eq3 (B9 m ρ) c 2))
  by_cases h3 : Pipeline.arrRef spec3 3 = b
  · subst h3; exact (W10_arr m ρ c 3).trans (((dat3 (B9 m ρ) c).arrAt_in 3 rfl _).trans (A_eq3 (B9 m ρ) c 3))
  by_cases h4 : Pipeline.arrRef spec3 4 = b
  · subst h4; exact (W10_arr m ρ c 4).trans (((dat3 (B9 m ρ) c).arrAt_in 4 rfl _).trans (A_eq3 (B9 m ρ) c 4))
  exact W10_of_ne m ρ c b (fun w => by
    fin_cases w
    · exact h0
    · exact h1
    · exact h2
    · exact h3
    · exact h4
    · exact fun e => hb e.symm)

/-- After the host stretch `hostOps4`. -/
abbrev W11 (c : Dev nD) : Valuation τ sig (Elt F) := StableHlo.after hostOps4 (W10 m ρ c)
theorem W11_keep (c : Dev nD) (b : Ref sig .tc) (hb : b ∉ hostOps4_W) : W11 m ρ c b = W10 m ρ c b :=
  StableHlo.after_of_writes_sub hostOps4 _ hostOps4_writes hb

/-- A buffer that no host stretch writes and that is no region's output holds its launch contents at the end. -/
theorem W11_kept (c : Dev nD) (b : Ref sig .tc) (h0 : b ∉ hostOps0_W) (h1 : b ∉ hostOps0_1_W) (h2 : b ∉ hostOps0_2_W)
    (h3 : b ≠ main_v34) (h4 : b ∉ hostOps1_W) (h5 : b ≠ main_v53) (h6 : b ∉ hostOps2_W) (h7 : b ≠ main_v72)
    (h8 : b ∉ hostOps3_W) (h9 : b ≠ main_v91) (h10 : b ∉ hostOps4_W) :
    W11 m ρ c b = m ((c : Thread nD τ).loc b) :=
  (W11_keep m ρ c b h10).trans <| (W10_keep m ρ c b h9).trans <| (W9_keep m ρ c b h8).trans <| (W8_keep m ρ c b h7).trans <|
    (W7_keep m ρ c b h6).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-! ## The proof data family and the thread state -/

/-- No pipeline has a prefetched table. -/
abbrev padm : (p : Fin 4) → (pcfgs (F := F) p).Adm := fun p => (cfgs p).toPCfg_adm
/-- Every pipeline's proof data, each at the contents its region is entered with. -/
def pdats : (p : Fin 4) → (c : Dev nD) → Dat τ (Elt F) Unit ℕ (Pipeline.UD sig nD τ) ℕ (Pipeline.pin (pcfgs (F := F)) padm p) c
  | ⟨0, _⟩ => fun c => dat0 (B3 m ρ) c
  | ⟨1, _⟩ => fun c => dat1 (B5 m ρ) c
  | ⟨2, _⟩ => fun c => dat2 (B7 m ρ) c
  | ⟨3, _⟩ => fun c => dat3 (B9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W3`, left with them at `W4`. Its arrays are
    split out of the unscoped buffers and put back at their exit contents; the generator register passes through the
    region's invariant; the kernel has no semaphore of its own and owes nothing. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (B3 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := Pipeline.UD sig nD τ) (Lvl := ℕ)
      launch0.win launch0.arr_whole c (pdats m ρ) ((pdats m ρ 0 c).share_full fun _ => rfl)
      (B3 m ρ c) (fun b => W4 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays are
    split out of the unscoped buffers and put back at their exit contents; the generator register passes through the
    region's invariant; the kernel has no semaphore of its own and owes nothing. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (B5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := Pipeline.UD sig nD τ) (Lvl := ℕ)
      launch1.win launch1.arr_whole c (pdats m ρ) ((pdats m ρ 1 c).share_full fun _ => rfl)
      (B5 m ρ c) (fun b => W6 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its arrays are
    split out of the unscoped buffers and put back at their exit contents; the generator register passes through the
    region's invariant; the kernel has no semaphore of its own and owes nothing. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (B7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := Pipeline.UD sig nD τ) (Lvl := ℕ)
      launch2.win launch2.arr_whole c (pdats m ρ) ((pdats m ρ 2 c).share_full fun _ => rfl)
      (B7 m ρ c) (fun b => W8 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its arrays are
    split out of the unscoped buffers and put back at their exit contents; the generator register passes through the
    region's invariant; the kernel has no semaphore of its own and owes nothing. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (B9 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (B9 m ρ) c
    unfold Pipeline.ΦA at h3
    rw [show (pdats m ρ 3 c).Φ 0 = (dat3 (B9 m ρ) c).Φ 0 from rfl]
    iintro ⟨Hp, -, Hr⟩
    iapply h3
    isplitl [Hr]; · iexact Hr
    iexact Hp
  hout c := by
    have h3 := hout3 (B9 m ρ) c
    unfold Pipeline.ΦA at h3
    rw [Pipeline.ownSems0_none, show (pdats m ρ 3 c).Φ (Fin.last _) = (dat3 (B9 m ρ) c).Φ (Fin.last cfg3.N) from rfl]
    iintro H
    ihave H' := h3 $$ H
    icases H' with ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := Pipeline.UD sig nD τ) (Lvl := ℕ)
      launch3.win launch3.arr_whole c (pdats m ρ) ((pdats m ρ 3 c).share_full fun _ => rfl)
      (B9 m ρ c) (fun b => W10 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev psegs : List (Pipeline.Seg (pcfgs (F := F)) padm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]
theorem main_run (c : Dev nD) : main (F := F) c = Pipeline.Seg.run (psegs m ρ) := (main_chain c).trans (by chain_rfl)

set_option backward.isDefEq.respectTransparency.types false in
/-- Every weakly fair execution of the program from memory `m` with zero counters terminates, nothing faulting, and the final
    memory holds every unscoped buffer of every core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) padm (pdats m ρ) () cellOf_inj embL defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every weakly fair execution terminates, nothing faulting, and each of the seven argument arrays ends holding
    its launch contents — no host stretch writes an argument and no region's output is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W11_kept m ρ c main_arg0 (by decide) (by decide) (by decide) (by decide) (by decide) (by decide) (by decide) (by decide) (by decide) (by decide) (by decide)),
     (h c _ (mem_uc main_arg1 (by decide))).trans (W11_kept m ρ c main_arg1 (by decide) (by decide) (by decide) (by decide) (by decide) (by decide) (by decide) (by decide) (by decide) (by decide) (by decide)),
     (h c _ (mem_uc main_arg2 (by decide))).trans (W11_kept m ρ c main_arg2 (by decide) (by decide) (by decide) (by decide) (by decide) (by decide) (by decide) (by decide) (by decide) (by decide) (by decide)),
     (h c _ (mem_uc main_arg3 (by decide))).trans (W11_kept m ρ c main_arg3 (by decide) (by decide) (by decide) (by decide) (by decide) (by decide) (by decide) (by decide) (by decide) (by decide) (by decide)),
     (h c _ (mem_uc main_arg4 (by decide))).trans (W11_kept m ρ c main_arg4 (by decide) (by decide) (by decide) (by decide) (by decide) (by decide) (by decide) (by decide) (by decide) (by decide) (by decide)),
     (h c _ (mem_uc main_arg5 (by decide))).trans (W11_kept m ρ c main_arg5 (by decide) (by decide) (by decide) (by decide) (by decide) (by decide) (by decide) (by decide) (by decide) (by decide) (by decide)),
     (h c _ (mem_uc main_arg6 (by decide))).trans (W11_kept m ρ c main_arg6 (by decide) (by decide) (by decide) (by decide) (by decide) (by decide) (by decide) (by decide) (by decide) (by decide) (by decide))⟩) (run_all m ρ)

/-- The same run with the result buffer named: it ends at the last boundary's contents of `main_v92`. -/
theorem run_value : θ_run defs (onTc (τ := τ) (main (F := F))) ⟨m, fun _ => 0, ρ⟩ (fun r => ∀ c : Dev nD,
      r.2.mem ((c.tc : Thread nD τ).loc main_v92) = W11 m ρ c main_v92
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v92 (by decide)),
     (h c _ (mem_uc main_arg0 (by decide))).trans (W11_kept m ρ c main_arg0 (by decide) (by decide) (by decide) (by decide) (by decide) (by decide) (by decide) (by decide) (by decide) (by decide) (by decide)),
     (h c _ (mem_uc main_arg1 (by decide))).trans (W11_kept m ρ c main_arg1 (by decide) (by decide) (by decide) (by decide) (by decide) (by decide) (by decide) (by decide) (by decide) (by decide) (by decide)),
     (h c _ (mem_uc main_arg2 (by decide))).trans (W11_kept m ρ c main_arg2 (by decide) (by decide) (by decide) (by decide) (by decide) (by decide) (by decide) (by decide) (by decide) (by decide) (by decide)),
     (h c _ (mem_uc main_arg3 (by decide))).trans (W11_kept m ρ c main_arg3 (by decide) (by decide) (by decide) (by decide) (by decide) (by decide) (by decide) (by decide) (by decide) (by decide) (by decide)),
     (h c _ (mem_uc main_arg4 (by decide))).trans (W11_kept m ρ c main_arg4 (by decide) (by decide) (by decide) (by decide) (by decide) (by decide) (by decide) (by decide) (by decide) (by decide) (by decide)),
     (h c _ (mem_uc main_arg5 (by decide))).trans (W11_kept m ρ c main_arg5 (by decide) (by decide) (by decide) (by decide) (by decide) (by decide) (by decide) (by decide) (by decide) (by decide) (by decide)),
     (h c _ (mem_uc main_arg6 (by decide))).trans (W11_kept m ρ c main_arg6 (by decide) (by decide) (by decide) (by decide) (by decide) (by decide) (by decide) (by decide) (by decide) (by decide) (by decide))⟩) (run_all m ρ)

end Cert.Kernel.Hand

end
-- ==== Proof.KI.R0.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The first layer's matrix product, as a pipeline of ten row blocks

The grid has ten points. At point `t` the pipeline stages rows `10000 t … 10000 t + 9999` of the activations
(window 0), the whole weight matrix (window 1) and the whole bias row (window 2), the last two copied in once at
the first point and left in their buffers afterwards; the body multiplies the staged rows by the staged weights
and overwrites the output block (window 3), which is written back after every point. Everything here is stated at
arbitrary entry contents `V` of the core's buffers. -/

/-! ## The windows' blocks -/

/-- The block of window `w` at point `t`: the entries of the window's array, as the region finds it, that lie in
    the rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activation rows: whatever proof data starts from the entry contents and says the body leaves this staging
    buffer as it found it, the buffer holds the rows of point `t` when the body runs there. (A point at which the
    window is not copied in has the same block index as the point before, so what was left there is still right.) -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix: copied in at the first point only. Its index map is constant, so the block it would fetch
    at any later point is the one already sitting in the buffer, which the body never writes. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row: as for the weights (one copy at the first point, a constant index map, never written). -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 10000 × 128 rectangle: what the body reads of the activation block and writes of the output block. -/
abbrev r0_x : Rect S10000x128 := Rect.unit (s := S10000x128) ![0, 0] S10000x128.size inb_S10000x128_S10000x128_0_0

/-- The whole 128 × 128 rectangle: what the body reads of the weights. -/
abbrev r0_w : Rect S128x128 := Rect.unit (s := S128x128) ![0, 0] S128x128.size inb_S128x128_S128x128_0_0

/-! ## What the body leaves in the output buffer -/

/-- The output buffer after the body, as a function of the staged activation rows `x0` and the staged weights `x1`:
    a single write over the whole rectangle, of the product of the two (each rounded to bf16 first, accumulated
    from zero). The bias buffer does not enter. -/
def out0_3 (x0 : Vec F S10000x128 .f32) (x1 : Vec F S128x128 .f32) : Vec F S10000x128 .f32 :=
  View.canon [⟨r0_x, k0_pay1 (View.ld x0 r0_x) (View.ld x1 r0_w)⟩]

/-- The one written rectangle is the whole buffer, so every index lies in it. -/
theorem cover0_3 (p0 : Vec F S10000x128 .f32) (y : S10000x128.Idx) :
    ∃ pc ∈ ([⟨r0_x, p0⟩] : List (View.Piece (Elt F) S10000x128 .f32)), y ∈ pc.1.set :=
  View.cover_of_tiled [⟨r0_x, p0⟩] S10000x128.size (by rfl) y

/-! ## The body's triple -/

set_option maxHeartbeats 1000000 in
/-- Run on whole staging buffers holding `x0`, `x1`, `x2` (inputs) and anything at all (output), the body ends with
    the inputs unchanged and the output at `out0_3 x0 x1`. It reads the first two inputs, reads the output buffer
    once without using the value, and stores the product over the whole output rectangle. -/
theorem sound_kernel0 (c : Dev nD) (E : Set ℕ) (i : grid0.Coords)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1)) -∗ K ⟨⟩))
      ⊢ wp frame (wpE (defs₀ (F := F)) Variants.none c none) E (cc0__layer_kernel i arg1 harg1 arg2 harg2 arg3 harg3 arg4 harg4) K := by
  simp only [cc0__layer_kernel_eq_skeleton]; unfold cc0__layer_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`. The arrays are the entry contents. After the body at point `t`
    every input buffer still holds its block, and the output buffer holds `out0_3` of the activation block and the
    weights. The invariant is the untouched remainder of the core's state; nothing is owed; all shares are full. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]

/-- Each input's staging buffer holds its block whenever the body runs, copied in at that point or earlier. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at an arbitrary point -/

/-- What the body is given at point `t`: the invariant, the owed transfers, and the four current staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the body's triple applies with those as
    the read contents; the invariant and the owed transfers are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KI.R1.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The second layer's matrix kernel: ten row blocks of 10000 rows, each sent to
    `max (block + bias) 0` times the weight matrix.

    Everything here is stated at an arbitrary contents `V` of the core's buffers at entry. -/

/-! ## The blocks the windows see -/

/-- What window `w` shows at grid point `t`: the rectangle of its array (as found at entry) that the
    window's index map selects there. For the activations and the output this is rows
    `10000 t … 10000 t + 9999`; for the weight and the bias it is the whole array at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The activation window's buffer holds the activation block of the current point whenever the body
    starts, for any bookkeeping whose array is the entry contents and whose body does not change that
    buffer: the block is copied in afresh at every point. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's buffer holds the weight matrix whenever the body starts. It is copied in only
    at the first point; at a later point the window's index is the same as the point before, the body
    left the buffer alone, so what is there is still what a copy at this point would bring. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window's buffer holds the bias row whenever the body starts: copied in once, like the weight. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each buffer whole -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0

/-! ## What the body leaves in the output buffer -/

/-- The output buffer after the body, from the three input buffers' contents (activations `x0`, weight
    `x1`, bias `x2`): its single store writes the whole buffer with the matrix product of
    `max (x0 + x2) 0` and `x1`. The payload takes its arguments in the order the body reads them:
    activations, bias, weight. -/
def out1_3 (x0 : Vec F S10000x128 .f32) (x1 : Vec F S128x128 .f32) (x2 : Vec F S1x128 .f32) : Vec F S10000x128 .f32 :=
  View.canon [⟨r1_0, k1_pay1 (View.ld x0 r1_0) (View.ld x2 r1_2) (View.ld x1 r1_1)⟩]

/-- The one stored rectangle is the whole buffer, so every index of the buffer lies in it. -/
theorem cover1_3 (p0 : Vec F S10000x128 .f32) (y : S10000x128.Idx) :
    ∃ pc ∈ ([⟨r1_0, p0⟩] : List (View.Piece (Elt F) S10000x128 .f32)), y ∈ pc.1.set :=
  View.cover_of_tiled [⟨r1_0, p0⟩] S10000x128.size (by rfl) y

/-! ## The body's triple -/

set_option maxHeartbeats 1000000 in
/-- The body run on four whole buffers, the three inputs at known contents and the output at anything:
    it reads the activations, the bias and the weight, reads the output buffer once without using the
    value, and stores the product over the whole output buffer. The inputs come back as they were and
    the output holds `out1_3` of them. -/
theorem sound_kernel1 (c : Dev nD) (E : Set ℕ) (i : grid1.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__layer_kernel i arg1 harg1 arg2 harg2 arg3 harg3 arg4 harg4) K := by
  simp only [cc1__layer_kernel_eq_skeleton]; unfold cc1__layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's bookkeeping -/

/-- The bookkeeping of this pipeline on core `c`: each window's array at its entry contents; after the
    body at point `t` each input buffer still at its block and the output buffer at `out1_3` of the
    three input blocks; the invariant is the rest of the core's scoped memory and the random-number
    register, untouched; full ownership everywhere and nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The bookkeeping's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input buffer holds its block whenever the body starts. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's obligation, at a generic point -/

/-- What the body is handed at point `t`: the invariant, the core's debts, and the four current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the body's triple applies; the
    invariant and the debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's run asks of the body, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! # The third layer's matrix kernel: ten row blocks of 10000 rows, each sent to
    `max (block + bias) 0` times the weight matrix.

    Everything here is stated at an arbitrary contents `V` of the core's buffers at entry. -/

/-! ## The blocks the windows see -/

/-- What window `w` shows at grid point `t`: the rectangle of its array (as found at entry) that the
    window's index map selects there. For the activations and the output this is rows
    `10000 t … 10000 t + 9999`; for the weight and the bias it is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activation window's buffer holds the activation block of the current point whenever the body
    starts, for any bookkeeping whose array is the entry contents and whose body does not change that
    buffer: the block is copied in afresh at every point. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's buffer holds the weight matrix whenever the body starts. It is copied in only
    at the first point; at a later point the window's index is the same as the point before, the body
    left the buffer alone, so what is there is still what a copy at this point would bring. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window's buffer holds the bias row whenever the body starts: copied in once, like the weight. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body touches: each buffer whole -/

abbrev r2_0 : Rect S10000x128 := Rect.unit (s := S10000x128) ![0, 0] S10000x128.size inb_S10000x128_S10000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0

/-! ## What the body leaves in the output buffer -/

/-- The output buffer after the body, from the three input buffers' contents (activations `x0`, weight
    `x1`, bias `x2`): its single store writes the whole buffer with the matrix product of
    `max (x0 + x2) 0` and `x1`. The payload takes its arguments in the order the body reads them:
    activations, bias, weight. -/
def out2_3 (x0 : Vec F S10000x128 .f32) (x1 : Vec F S128x128 .f32) (x2 : Vec F S1x128 .f32) : Vec F S10000x128 .f32 :=
  View.canon [⟨r2_0, k2_pay1 (View.ld x0 r2_0) (View.ld x2 r2_2) (View.ld x1 r2_1)⟩]

/-- The one stored rectangle is the whole buffer, so every index of the buffer lies in it. -/
theorem cover2_3 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body's triple -/

set_option maxHeartbeats 1000000 in
/-- The body run on four whole buffers, the three inputs at known contents and the output at anything:
    it reads the activations, the bias and the weight, reads the output buffer once without using the
    value, and stores the product over the whole output buffer. The inputs come back as they were and
    the output holds `out2_3` of them. -/
theorem sound_kernel2 (c : Dev nD) (E : Set ℕ) (i : grid2.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S10000x128 .f32) (harg4 : arg4.IsWhole)
    (x0 : Vec F S10000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__layer_kernel i arg1 harg1 arg2 harg2 arg3 harg3 arg4 harg4) K := by
  simp only [cc2__layer_kernel_eq_skeleton]; unfold cc2__layer_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's bookkeeping -/

/-- The bookkeeping of this pipeline on core `c`: each window's array at its entry contents; after the
    body at point `t` each input buffer still at its block and the output buffer at `out2_3` of the
    three input blocks; the invariant is the rest of the core's scoped memory and the random-number
    register, untouched; full ownership everywhere and nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The bookkeeping's arrays are the entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input buffer holds its block whenever the body starts. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body's obligation, at a generic point -/

/-- What the body is handed at point `t`: the invariant, the core's debts, and the four current buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the
    invariant and the debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the pipeline's run asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Fold.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import proofs.«414673_j4638564679932_1_alg».proof.Proof.Gen.KernelIdeal.Regions
import proofs.«414673_j4638564679932_1_alg».proof.Proof.KI.R0
import proofs.«414673_j4638564679932_1_alg».proof.Proof.KI.R1
import proofs.«414673_j4638564679932_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The whole program: the buffers' contents at every boundary, the four regions as segments, the launch

The program alternates stretches of host operations with four kernel regions. The contents of the core's unscoped
buffers at each boundary are a fold from the launch memory: a host stretch applies its operations; a region leaves its
output array at what its grid points wrote back and every other buffer as it found it. Each region's proof data are
stated at the contents it is entered with. One launch over the eleven segments gives every weakly fair execution
terminating with every unscoped buffer at the last boundary's contents. -/

variable (m : (ℓ : Loc nD τ sig) → Buf (Elt F) ℓ) (ρ : Dev nD → PrngReg)

/-- The buffers at launch. -/
abbrev W0 : Dev nD → Valuation τ sig (Elt F) := fun c b => (s₀ m ρ).mem ((c : Dev nD), b)
/-- After the host stretch `hostOps0`. -/
abbrev W1 (c : Dev nD) : Valuation τ sig (Elt F) := StableHlo.after hostOps0 (W0 m ρ c)
theorem W1_keep (c : Dev nD) (b : Ref sig .tc) (hb : b ∉ hostOps0_W) : W1 m ρ c b = W0 m ρ c b :=
  StableHlo.after_of_writes_sub hostOps0 _ hostOps0_writes hb
/-- After the host stretch `hostOps0_1`. -/
abbrev W2 (c : Dev nD) : Valuation τ sig (Elt F) := StableHlo.after hostOps0_1 (W1 m ρ c)
theorem W2_keep (c : Dev nD) (b : Ref sig .tc) (hb : b ∉ hostOps0_1_W) : W2 m ρ c b = W1 m ρ c b :=
  StableHlo.after_of_writes_sub hostOps0_1 _ hostOps0_1_writes hb
/-- After the host stretch `hostOps0_2`. -/
abbrev W3 (c : Dev nD) : Valuation τ sig (Elt F) := StableHlo.after hostOps0_2 (W2 m ρ c)
theorem W3_keep (c : Dev nD) (b : Ref sig .tc) (hb : b ∉ hostOps0_2_W) : W3 m ρ c b = W2 m ρ c b :=
  StableHlo.after_of_writes_sub hostOps0_2 _ hostOps0_2_writes hb
/-- What region 0 is entered with, read at the TensorCore's references. -/
abbrev B3 : (c : Dev nD) → (b : Ref sig .tc) → Buf (Elt F) ((c : Thread nD τ).loc b) := fun c b => W3 m ρ c b

/-- After region 0: its arrays at what the pipeline leaves (the inputs as entered, the output's write-backs folded), every
    other buffer as entered. -/
def W4 (c : Dev nD) : Valuation τ sig (Elt F) :=
  Pipeline.withArrays spec0 c (W3 m ρ c) fun w => (dat0 (B3 m ρ) c).arrAt w cfg0.N
theorem W4_arr (c : Dev nD) (w : Fin cfg0.W) :
    W4 m ρ c (Proc.devRef .tc (Pipeline.arrRef spec0 w)) = (dat0 (B3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
theorem hF0 (c : Dev nD) (w : Fin cfg0.W) : (dat0 (B3 m ρ) c).arrAt w cfg0.N = W4 m ρ c (Pipeline.arrRef spec0 w) :=
  (W4_arr m ρ c w).symm
theorem hrest0 (c : Dev nD) : ∀ b, b ∉ Finset.univ.image (Pipeline.arrRef spec0) → W4 m ρ c b = B3 m ρ c b :=
  fun b hb => W4_of_ne m ρ c b fun w e => hb (Finset.mem_image.mpr ⟨w, Finset.mem_univ _, e⟩)
/-- Region 0 changes one array only, its output's: every other buffer, an input window's array included, is as entered. -/
theorem W4_keep (c : Dev nD) (b : Ref sig .tc) (hb : b ≠ main_v34) : W4 m ρ c b = W3 m ρ c b := by
  by_cases h0 : Pipeline.arrRef spec0 0 = b
  · subst h0; exact (W4_arr m ρ c 0).trans (((dat0 (B3 m ρ) c).arrAt_in 0 rfl _).trans (A_eq0 (B3 m ρ) c 0))
  by_cases h1 : Pipeline.arrRef spec0 1 = b
  · subst h1; exact (W4_arr m ρ c 1).trans (((dat0 (B3 m ρ) c).arrAt_in 1 rfl _).trans (A_eq0 (B3 m ρ) c 1))
  by_cases h2 : Pipeline.arrRef spec0 2 = b
  · subst h2; exact (W4_arr m ρ c 2).trans (((dat0 (B3 m ρ) c).arrAt_in 2 rfl _).trans (A_eq0 (B3 m ρ) c 2))
  exact W4_of_ne m ρ c b (fun w => by
    fin_cases w
    · exact h0
    · exact h1
    · exact h2
    · exact fun e => hb e.symm)

/-- After the host stretch `hostOps1`. -/
abbrev W5 (c : Dev nD) : Valuation τ sig (Elt F) := StableHlo.after hostOps1 (W4 m ρ c)
theorem W5_keep (c : Dev nD) (b : Ref sig .tc) (hb : b ∉ hostOps1_W) : W5 m ρ c b = W4 m ρ c b :=
  StableHlo.after_of_writes_sub hostOps1 _ hostOps1_writes hb
abbrev B5 : (c : Dev nD) → (b : Ref sig .tc) → Buf (Elt F) ((c : Thread nD τ).loc b) := fun c b => W5 m ρ c b

/-- After region 1: its arrays at what the pipeline leaves (the inputs as entered, the output's write-backs folded), every
    other buffer as entered. -/
def W6 (c : Dev nD) : Valuation τ sig (Elt F) :=
  Pipeline.withArrays spec1 c (W5 m ρ c) fun w => (dat1 (B5 m ρ) c).arrAt w cfg1.N
theorem W6_arr (c : Dev nD) (w : Fin cfg1.W) :
    W6 m ρ c (Proc.devRef .tc (Pipeline.arrRef spec1 w)) = (dat1 (B5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
theorem hF1 (c : Dev nD) (w : Fin cfg1.W) : (dat1 (B5 m ρ) c).arrAt w cfg1.N = W6 m ρ c (Pipeline.arrRef spec1 w) :=
  (W6_arr m ρ c w).symm
theorem hrest1 (c : Dev nD) : ∀ b, b ∉ Finset.univ.image (Pipeline.arrRef spec1) → W6 m ρ c b = B5 m ρ c b :=
  fun b hb => W6_of_ne m ρ c b fun w e => hb (Finset.mem_image.mpr ⟨w, Finset.mem_univ _, e⟩)
/-- Region 1 changes one array only, its output's: every other buffer, an input window's array included, is as entered. -/
theorem W6_keep (c : Dev nD) (b : Ref sig .tc) (hb : b ≠ main_v53) : W6 m ρ c b = W5 m ρ c b := by
  by_cases h0 : Pipeline.arrRef spec1 0 = b
  · subst h0; exact (W6_arr m ρ c 0).trans (((dat1 (B5 m ρ) c).arrAt_in 0 rfl _).trans (A_eq1 (B5 m ρ) c 0))
  by_cases h1 : Pipeline.arrRef spec1 1 = b
  · subst h1; exact (W6_arr m ρ c 1).trans (((dat1 (B5 m ρ) c).arrAt_in 1 rfl _).trans (A_eq1 (B5 m ρ) c 1))
  by_cases h2 : Pipeline.arrRef spec1 2 = b
  · subst h2; exact (W6_arr m ρ c 2).trans (((dat1 (B5 m ρ) c).arrAt_in 2 rfl _).trans (A_eq1 (B5 m ρ) c 2))
  exact W6_of_ne m ρ c b (fun w => by
    fin_cases w
    · exact h0
    · exact h1
    · exact h2
    · exact fun e => hb e.symm)

/-- After the host stretch `hostOps2`. -/
abbrev W7 (c : Dev nD) : Valuation τ sig (Elt F) := StableHlo.after hostOps2 (W6 m ρ c)
theorem W7_keep (c : Dev nD) (b : Ref sig .tc) (hb : b ∉ hostOps2_W) : W7 m ρ c b = W6 m ρ c b :=
  StableHlo.after_of_writes_sub hostOps2 _ hostOps2_writes hb
abbrev B7 : (c : Dev nD) → (b : Ref sig .tc) → Buf (Elt F) ((c : Thread nD τ).loc b) := fun c b => W7 m ρ c b

/-- After region 2: its arrays at what the pipeline leaves (the inputs as entered, the output's write-backs folded), every
    other buffer as entered. -/
def W8 (c : Dev nD) : Valuation τ sig (Elt F) :=
  Pipeline.withArrays spec2 c (W7 m ρ c) fun w => (dat2 (B7 m ρ) c).arrAt w cfg2.N
theorem W8_arr (c : Dev nD) (w : Fin cfg2.W) :
    W8 m ρ c (Proc.devRef .tc (Pipeline.arrRef spec2 w)) = (dat2 (B7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
theorem hF2 (c : Dev nD) (w : Fin cfg2.W) : (dat2 (B7 m ρ) c).arrAt w cfg2.N = W8 m ρ c (Pipeline.arrRef spec2 w) :=
  (W8_arr m ρ c w).symm
theorem hrest2 (c : Dev nD) : ∀ b, b ∉ Finset.univ.image (Pipeline.arrRef spec2) → W8 m ρ c b = B7 m ρ c b :=
  fun b hb => W8_of_ne m ρ c b fun w e => hb (Finset.mem_image.mpr ⟨w, Finset.mem_univ _, e⟩)
/-- Region 2 changes one array only, its output's: every other buffer, an input window's array included, is as entered. -/
theorem W8_keep (c : Dev nD) (b : Ref sig .tc) (hb : b ≠ main_v72) : W8 m ρ c b = W7 m ρ c b := by
  by_cases h0 : Pipeline.arrRef spec2 0 = b
  · subst h0; exact (W8_arr m ρ c 0).trans (((dat2 (B7 m ρ) c).arrAt_in 0 rfl _).trans (A_eq2 (B7 m ρ) c 0))
  by_cases h1 : Pipeline.arrRef spec2 1 = b
  · subst h1; exact (W8_arr m ρ c 1).trans (((dat2 (B7 m ρ) c).arrAt_in 1 rfl _).trans (A_eq2 (B7 m ρ) c 1))
  by_cases h2 : Pipeline.arrRef spec2 2 = b
  · subst h2; exact (W8_arr m ρ c 2).trans (((dat2 (B7 m ρ) c).arrAt_in 2 rfl _).trans (A_eq2 (B7 m ρ) c 2))
  exact W8_of_ne m ρ c b (fun w => by
    fin_cases w
    · exact h0
    · exact h1
    · exact h2
    · exact fun e => hb e.symm)

/-- After the host stretch `hostOps3`. -/
abbrev W9 (c : Dev nD) : Valuation τ sig (Elt F) := StableHlo.after hostOps3 (W8 m ρ c)
theorem W9_keep (c : Dev nD) (b : Ref sig .tc) (hb : b ∉ hostOps3_W) : W9 m ρ c b = W8 m ρ c b :=
  StableHlo.after_of_writes_sub hostOps3 _ hostOps3_writes hb
abbrev B9 : (c : Dev nD) → (b : Ref sig .tc) → Buf (Elt F) ((c : Thread nD τ).loc b) := fun c b => W9 m ρ c b

end Cert.KernelIdeal.Hand

end
-- ==== Proof.KI.R3Runs.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! ## The two branch conditions of the pooling body, decided over the twenty row blocks

The body zeroes the 512 x 128 accumulator when the block coordinate is 0 and computes the head
(accumulator times the head weights plus the head bias) when the coordinate is 19. -/

/-- The reset condition, as the body's scalar chain computes it from the block coordinate. -/
abbrev cond3_0 (i : grid3.Coords) : Prop := (Scalar.cmpi .ne (Scalar.extui (Scalar.cmpi .eq (BitVec.ofNat 32 (i 0).val) 0#32)) 0#32) = 1#1
/-- It holds exactly at the first block. -/
theorem hcond3_0 : ∀ t : Fin cfg3.N, cond3_0 (grid3.coords t) ↔ t.val = 0 :=
  (by decide +kernel : ∀ t : Fin grid3.N, cond3_0 (grid3.coords t) ↔ t.val = 0)

/-- The head condition. -/
abbrev cond3_1 (i : grid3.Coords) : Prop := k3_cond2 i = 1#1
/-- It holds exactly at the last block. -/
theorem hcond3_1 : ∀ t : Fin cfg3.N, cond3_1 (grid3.coords t) ↔ t.val = 19 :=
  (by decide +kernel : ∀ t : Fin grid3.N, cond3_1 (grid3.coords t) ↔ t.val = 19)

/-! ## Where the windows are live

The five inputs are read at every block; the 512 x 1 result is stored only at the last block, and
at the other blocks its buffer is neither stored into nor written back. -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
/-- Away from the last block the result window is idle, -/
theorem idleAt3_5 : ∀ t : Fin cfg3.N, ¬cond3_1 (grid3.coords t) → cfg3.idle 5 (grid3.coords t) = true := by decide +kernel
/-- and not written back; -/
theorem noFlush3_5 : ∀ t : Fin cfg3.N, ¬cond3_1 (grid3.coords t) → (cfg3.win 5).flush t = false := by decide +kernel
/-- at the last block it is live. -/
theorem liveAt3_5 : ∀ t : Fin cfg3.N, cond3_1 (grid3.coords t) → cfg3.idle 5 (grid3.coords t) = false := by decide +kernel

/-! ## The buffers the body is called on -/

/-- One staging buffer of the result window, through which its contents are stated. -/
abbrev VO3_5 : View sig .tc .vmem S512x1 .f32 := (Memref.whole cc3_stg5_0 : Memref sig .tc .vmem S512x1 .f32).view
/-- Each window's current staging buffer at block `t`, and that it is a whole buffer. -/
abbrev ms3_0 (t : Fin cfg3.N) : Memref sig .tc .vmem S5000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S512x1 .f32 := win3_5.stage (cfg3.slots t 5)
abbrev hs3_5 (t : Fin cfg3.N) : (ms3_5 t).IsWhole := hstage3_5 ((cfg3.slots t 5).cast nbuf3_5)
/-- The accumulator: a whole scoped buffer of the kernel's own, passed beside the windows and kept from block to block. -/
abbrev scM3_0 : Memref sig .tc .vmem S512x128 .f32 := Memref.whole cc3_scratch0
/-- The accumulator as a view: what it holds is stated through it. -/
abbrev VS3_0 : View sig .tc .vmem S512x128 .f32 := scM3_0.view

/-- The region's invariant, conjunct by conjunct: the eighteen staging buffers of the three layer calls at
    some contents each, the accumulator owned at some contents, and the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

/-! ## The body run once, in each of its three control cases

Each run is stated on arbitrary whole buffers: the five inputs at given contents, and the list of
stores each written buffer ends with (latest first) is found by executing the body. -/

-- (the run's term is large)
set_option maxHeartbeats 1000000 in
/-- FIRST BLOCK (reset taken, head not): the accumulator, at any contents, is loaded, overwritten by zeros,
    loaded again and overwritten by zeros plus this block's pooled rows; the result buffer is handed back untouched. -/
noncomputable def kernelRun3_A (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) :
    Σ' (L5 : List (View.Piece (Elt F) S512x1 .f32)), { LS0 : List (View.Piece (Elt F) S512x128 .f32) //
      ∀ (xi5 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨[], ?_, fun xi5 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- A MIDDLE BLOCK (neither branch): the accumulator, at what the block before left, is loaded and overwritten
    by itself plus this block's pooled rows; the result buffer is handed back untouched. -/
noncomputable def kernelRun3_B (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) :
    Σ' (L5 : List (View.Piece (Elt F) S512x1 .f32)), { LS0 : List (View.Piece (Elt F) S512x128 .f32) //
      ∀ (xi5 : Vec F S512x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨[], ?_, fun xi5 E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- THE LAST BLOCK (head taken, reset not): the accumulator is updated as at a middle block, then loaded once more
    and multiplied into the head; the result buffer, at any contents, is loaded and overwritten by the head's value. -/
noncomputable def kernelRun3_C (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) :
    Σ' (L5 : List (View.Piece (Elt F) S512x1 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc3__pool_head_kernel i arg1 harg1 arg2 harg2 arg3 harg3 arg4 harg4 arg5 harg5 arg6 harg6 arg7 harg7) K } := by
  refine ⟨?_, ?_, fun E K => ?run⟩
  case run =>
    simp only [cc3__pool_head_kernel_eq_skeleton]; unfold cc3__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.KI.R3.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414673_j4638564679932_1_alg».proof.Proof.KI.R3Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: a parameter
variable (V : (c : Dev nD) → (b : Ref sig .tc) → Buf (Elt F) ((c : Thread nD τ).loc b))

/-! ## The windows' blocks -/

/-- Window `w`'s block at row block `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input's current staging buffer holds its block at every row block, whether it was fetched there or not
    (a window whose block index does not move keeps the block it was given at the first row block). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## What each control case leaves behind -/

/-- At the first row block nothing is stored into the result buffer: no pieces (a placeholder nothing consults). -/
def out3_A_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : Vec F S512x1 .f32 :=
  VO3_5.read (Elt F) (VO3_5.writes (Elt F) VO3_5.junk (kernelRun3_A c i arg1 harg1 arg2 harg2 arg3 harg3 arg4 harg4 arg5 harg5 arg6 harg6 arg7 harg7 hc0 hc1 x0 x1 x2 x3 x4).1)

/-- The first row block's two stores into the accumulator (zeros, then the first sum) each cover it whole. -/
theorem scover3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) (y : S512x128.Idx) :
    ∃ pc ∈ (kernelRun3_A c i arg1 harg1 arg2 harg2 arg3 harg3 arg4 harg4 arg5 harg5 arg6 harg6 arg7 harg7 hc0 hc1 x0 x1 x2 x3 x4).2.1, y ∈ pc.1.set :=
  View.cover_of_tiledL (kernelRun3_A c i arg1 harg1 arg2 harg2 arg3 harg3 arg4 harg4 arg5 harg5 arg6 harg6 arg7 harg7 hc0 hc1 x0 x1 x2 x3 x4).2.1 S512x128.size (by sl_kernel_rfl) y

/-- What the first row block leaves in the accumulator: its stores read back. -/
def sout3_A_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : Vec F S512x128 .f32 :=
  VS3_0.read (Elt F) (VS3_0.writes (Elt F) VS3_0.junk (kernelRun3_A c i arg1 harg1 arg2 harg2 arg3 harg3 arg4 harg4 arg5 harg5 arg6 harg6 arg7 harg7 hc0 hc1 x0 x1 x2 x3 x4).2.1)

/-- At a middle row block nothing is stored into the result buffer. -/
def out3_B_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x1 .f32 :=
  VO3_5.read (Elt F) (VO3_5.writes (Elt F) VO3_5.junk (kernelRun3_B c i arg1 harg1 arg2 harg2 arg3 harg3 arg4 harg4 arg5 harg5 arg6 harg6 arg7 harg7 hc0 hc1 x0 x1 x2 x3 x4 xs0).1)

/-- A middle row block's one store into the accumulator covers it whole. -/
theorem scover3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x128.Idx) :
    ∃ pc ∈ (kernelRun3_B c i arg1 harg1 arg2 harg2 arg3 harg3 arg4 harg4 arg5 harg5 arg6 harg6 arg7 harg7 hc0 hc1 x0 x1 x2 x3 x4 xs0).2.1, y ∈ pc.1.set :=
  View.cover_of_tiledL (kernelRun3_B c i arg1 harg1 arg2 harg2 arg3 harg3 arg4 harg4 arg5 harg5 arg6 harg6 arg7 harg7 hc0 hc1 x0 x1 x2 x3 x4 xs0).2.1 S512x128.size (by sl_kernel_rfl) y

/-- What a middle row block leaves in the accumulator. -/
def sout3_B_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x128 .f32 :=
  VS3_0.read (Elt F) (VS3_0.writes (Elt F) VS3_0.junk (kernelRun3_B c i arg1 harg1 arg2 harg2 arg3 harg3 arg4 harg4 arg5 harg5 arg6 harg6 arg7 harg7 hc0 hc1 x0 x1 x2 x3 x4 xs0).2.1)

/-- The last row block's store of the head's value covers the 512 x 1 result buffer. -/
theorem cover3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x1.Idx) :
    ∃ pc ∈ (kernelRun3_C c i arg1 harg1 arg2 harg2 arg3 harg3 arg4 harg4 arg5 harg5 arg6 harg6 arg7 harg7 hc0 hc1 x0 x1 x2 x3 x4 xs0).1, y ∈ pc.1.set :=
  View.cover_of_tiledL (kernelRun3_C c i arg1 harg1 arg2 harg2 arg3 harg3 arg4 harg4 arg5 harg5 arg6 harg6 arg7 harg7 hc0 hc1 x0 x1 x2 x3 x4 xs0).1 S512x1.size (by sl_kernel_rfl) y

/-- What the last row block leaves in the result buffer. -/
def out3_C_5 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x1 .f32 :=
  VO3_5.read (Elt F) (VO3_5.writes (Elt F) VO3_5.junk (kernelRun3_C c i arg1 harg1 arg2 harg2 arg3 harg3 arg4 harg4 arg5 harg5 arg6 harg6 arg7 harg7 hc0 hc1 x0 x1 x2 x3 x4 xs0).1)

/-- The last row block's store into the accumulator covers it whole. -/
theorem scover3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) (y : S512x128.Idx) :
    ∃ pc ∈ (kernelRun3_C c i arg1 harg1 arg2 harg2 arg3 harg3 arg4 harg4 arg5 harg5 arg6 harg6 arg7 harg7 hc0 hc1 x0 x1 x2 x3 x4 xs0).2.1, y ∈ pc.1.set :=
  View.cover_of_tiledL (kernelRun3_C c i arg1 harg1 arg2 harg2 arg3 harg3 arg4 harg4 arg5 harg5 arg6 harg6 arg7 harg7 hc0 hc1 x0 x1 x2 x3 x4 xs0).2.1 S512x128.size (by sl_kernel_rfl) y

/-- What the last row block leaves in the accumulator. -/
def sout3_C_0 (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : Vec F S512x128 .f32 :=
  VS3_0.read (Elt F) (VS3_0.writes (Elt F) VS3_0.junk (kernelRun3_C c i arg1 harg1 arg2 harg2 arg3 harg3 arg4 harg4 arg5 harg5 arg6 harg6 arg7 harg7 hc0 hc1 x0 x1 x2 x3 x4 xs0).2.1)

/-! ## The accumulation over the twenty row blocks -/

/-- The first row block is not the last. -/
theorem ncond3_1_of_zero (t : Fin cfg3.N) (h0 : t.val = 0) : ¬cond3_1 (grid3.coords t) :=
  fun h => by have h19 := (hcond3_1 t).mp h; omega
/-- A later row block does not reset. -/
theorem ncond3_0_of_pos (t : Fin cfg3.N) (h0 : t.val ≠ 0) : ¬cond3_0 (grid3.coords t) :=
  fun h => h0 ((hcond3_0 t).mp h)

/-- What the result window's staging buffer and the accumulator hold after the body at row block `n`: the first
    block starts from zeros; every later block adds its pooled rows to what the block before left; block 19 also
    stores the head's value. -/
def outsAt3 (c : Dev nD) : (n : ℕ) → n < cfg3.N → Vec F S512x1 .f32 × Vec F S512x128 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr rfl) (ncond3_1_of_zero ⟨0, hn⟩ rfl) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr rfl) (ncond3_1_of_zero ⟨0, hn⟩ rfl) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if h1 : n + 1 = 19 then
      (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
    else
      (out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (ncond3_0_of_pos ⟨n + 1, hn⟩ (Nat.succ_ne_zero n)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)

/-- `outsAt3` at the first row block. -/
theorem outsAt3_A (c : Dev nD) (t : Fin cfg3.N) (h0 : t.val = 0) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (ncond3_1_of_zero t h0) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr h0) (ncond3_1_of_zero t h0) (iblk3 V c 0 t) (iblk3 V c 1 t) (iblk3 V c 2 t) (iblk3 V c 3 t) (iblk3 V c 4 t)) := by
  obtain ⟨n, hn⟩ := t
  cases n with
  | zero => exact rfl
  | succ n => exact absurd h0 (Nat.succ_ne_zero n)

/-- `outsAt3` at a middle row block: over what the block before left. -/
theorem outsAt3_B (c : Dev nD) (t : Fin cfg3.N) (h0 : t.val ≠ 0) (h1 : ¬t.val = 19) :
    outsAt3 V c t.val t.isLt = (out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) (fun h => h1 ((hcond3_1 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_neg h1).trans rfl

/-- `outsAt3` at the last row block: over what the block before left. -/
theorem outsAt3_C (c : Dev nD) (t : Fin cfg3.N) (h0 : t.val ≠ 0) (h1 : t.val = 19) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (ncond3_0_of_pos t h0) ((hcond3_1 t).mpr h1) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between row blocks -/

/-- Before the first row block: the region's own invariant (every scoped buffer that is no staging buffer of this
    call at anything). Afterwards: the accumulator owned at what the block before left in it, the other eighteen
    scoped buffers still at anything, the generator register at some state. -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r)) := rfl

theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2)) ∗ (∃ r, prngReg c r)) := by
  cases n with
  | zero => exact absurd rfl hz
  | succ n => rfl

/-! ## The pipeline's proof data -/

/-- The arrays as the region finds them; after the body at row block `t` each input's buffer at its block and the
    result's at `outsAt3`'s first component; the invariant `PhiS3`; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic row block -/

/-- What the body is called with at row block `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any row block: the inputs' buffers hold their blocks; the block's position says which control case
    runs; the invariant hands the body the accumulator (at anything at the first block, at what the block before left
    afterwards) and takes it back at this block's contents; the other scoped buffers and the register pass through;
    the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  by_cases h0 : t.val = 0
  · -- the first row block
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [Dat.leavesExact_idle (dat3 V c) 5 t (idleAt3_5 t (ncond3_1_of_zero t h0)) (noFlush3_5 t (ncond3_1_of_zero t h0))]
    rw [outsAt3_A V c t h0]
    unfold sout3_A_0; (try dsimp only)
    rw [PhiS3_castSucc V c t, PhiS3_zero V c _ _ h0, PhiA3_eq]
    iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ _ _ ((hcond3_0 t).mpr h0) (ncond3_1_of_zero t h0) (iblk3 V c 0 t) (iblk3 V c 1 t) (iblk3 V c 2 t) (iblk3 V c 3 t) (iblk3 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HR10 HR11 HR12 HR13 HR14 HR15 HR16 HR17 HS0 Hg]
    · isplitl [HR0 HR1 HR2 HR3 HR4 HR5 HR6 HR7 HR8 HR9 HR10 HR11 HR12 HR13 HR14 HR15 HR16 HR17 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS0
        ipureintro; exact View.read_writes_of_cover _ _ _ _ _ (scover3_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val = 19
    · -- the last row block
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [outsAt3_C V c t h0 h1]
      unfold out3_C_5 sout3_C_0; (try dsimp only)
      rw [PhiS3_castSucc V c t, PhiS3_pos V c _ _ h0]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun3_C c (grid3.coords t) _ _ _ _ _ _ _ _ _ _ _ _ _ _ (ncond3_0_of_pos t h0) ((hcond3_1 t).mpr h1) (iblk3 V c 0 t) (iblk3 V c 1 t) (iblk3 V c 2 t) (iblk3 V c 3 t) (iblk3 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover3_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover3_C_5 c _ _ _ _ _ _ _ _ _ _ _ _ _ _ _ _ _ _ _ _ _ _ _)
    · -- a middle row block
      rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [Dat.leavesExact_idle (dat3 V c) 5 t (idleAt3_5 t (fun h => h1 ((hcond3_1 t).mp h))) (noFlush3_5 t (fun h => h1 ((hcond3_1 t).mp h)))]
      rw [outsAt3_B V c t h0 h1]
      unfold sout3_B_0; (try dsimp only)
      rw [PhiS3_castSucc V c t, PhiS3_pos V c _ _ h0]
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun3_B c (grid3.coords t) _ _ _ _ _ _ _ _ _ _ _ _ _ _ (ncond3_0_of_pos t h0) (fun h => h1 ((hcond3_1 t).mp h)) (iblk3 V c 0 t) (iblk3 V c 1 t) (iblk3 V c 2 t) (iblk3 V c 3 t) (iblk3 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover3_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every row block. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first row block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any row block the invariant gives the region's own back: the accumulator's named contents are forgotten,
    the eighteen other buffers go back in their listed order. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last row block. -/
theorem hout3 (c : Dev nD) : (dat3 V c).Φ (Fin.last cfg3.N) ⊢ Pipeline.ΦA spec3 c :=
  Phi_out3 V c _ (by rw [Fin.val_last]; have : cfg3.N = 20 := N_3; omega)

/-! ## The accumulation in closed form, over the body's arithmetic

What each control case leaves, as the body's own arithmetic applied to the blocks it loaded: the accumulator after the
first row block is the pooled sum of that block over zeros; after every later block it is the pooled sum of the block
over what the block before left; and the result after the last block is the head applied to the accumulator. -/

/-- The zero offsets of every whole-buffer access, as a constant function. -/
theorem hz3 : (![0, 0] : Fin 2 → Nat) = fun _ => 0 := funext fun a => by fin_cases a <;> rfl

/-- First row block: zeros are stored, read back, and the block's pooled rows added. -/
theorem sout3_A_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : cond3_0 i) (hc1 : ¬cond3_1 i)
    (x0 : Vec F S5000x128 .f32) (x1 : Vec F S1x128 .f32) (x2 : Vec F S5000x1 .i32) (x3 : Vec F S128x1 .f32) (x4 : Vec F S1x1 .f32) : sout3_A_0 c i arg1 harg1 arg2 harg2 arg3 harg3 arg4 harg4 arg5 harg5 arg6 harg6 arg7 harg7 hc0 hc1 x0 x1 x2 x3 x4 = k3_pay2 x0 x1 x2 k3_pay1 := by
  unfold sout3_A_0
  rw [View.read_writes_eq_canon _ _ _ (scover3_A_0 c i arg1 harg1 arg2 harg2 arg3 harg3 arg4 harg4 arg5 harg5 arg6 harg6 arg7 harg7 hc0 hc1 x0 x1 x2 x3 x4)]
  unfold kernelRun3_A
  dsimp only
  sl_unfold_words
  rw [View.canon_cons_unit_zero (S := S512x128) hz3]
  simp only [View.readAt_eq_ld, harg1.read_unread, harg2.read_unread, harg3.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3, View.readCov_unit_zero (S := S512x128) _ hz3]

/-- A middle row block: the block's pooled rows added to what the accumulator held. -/
theorem sout3_B_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : ¬cond3_1 i)
    (x0 : Vec F S5000x128 .f32) (x1 : Vec F S1x128 .f32) (x2 : Vec F S5000x1 .i32) (x3 : Vec F S128x1 .f32) (x4 : Vec F S1x1 .f32) (xs0 : Vec F S512x128 .f32) : sout3_B_0 c i arg1 harg1 arg2 harg2 arg3 harg3 arg4 harg4 arg5 harg5 arg6 harg6 arg7 harg7 hc0 hc1 x0 x1 x2 x3 x4 xs0 = k3_pay2 x0 x1 x2 xs0 := by
  unfold sout3_B_0
  rw [View.read_writes_eq_canon _ _ _ (scover3_B_0 c i arg1 harg1 arg2 harg2 arg3 harg3 arg4 harg4 arg5 harg5 arg6 harg6 arg7 harg7 hc0 hc1 x0 x1 x2 x3 x4 xs0)]
  unfold kernelRun3_B
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- The last row block updates the accumulator as a middle one does. -/
theorem sout3_C_0_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : sout3_C_0 c i arg1 harg1 arg2 harg2 arg3 harg3 arg4 harg4 arg5 harg5 arg6 harg6 arg7 harg7 hc0 hc1 x0 x1 x2 x3 x4 xs0 = k3_pay2 x0 x1 x2 xs0 := by
  unfold sout3_C_0
  rw [View.read_writes_eq_canon _ _ _ (scover3_C_0 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3]
  simp only [View.readAt_eq_ld, harg1.read_unread, harg2.read_unread, harg3.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- The last row block's result: the head applied to the accumulator it has just updated. -/
theorem out3_C_5_eq (c : Dev nD) (i : grid3.Coords) (arg1 : Memref sig .tc .vmem S5000x128 .f32) (harg1 : arg1.IsWhole) (arg2 : Memref sig .tc .vmem S1x128 .f32) (harg2 : arg2.IsWhole) (arg3 : Memref sig .tc .vmem S5000x1 .i32) (harg3 : arg3.IsWhole) (arg4 : Memref sig .tc .vmem S128x1 .f32) (harg4 : arg4.IsWhole) (arg5 : Memref sig .tc .vmem S1x1 .f32) (harg5 : arg5.IsWhole) (arg6 : Memref sig .tc .vmem S512x1 .f32) (harg6 : arg6.IsWhole) (arg7 : Memref sig .tc .vmem S512x128 .f32) (harg7 : arg7.IsWhole) (hc0 : ¬cond3_0 i) (hc1 : cond3_1 i)
    (x0 : Vec F S5000x128 .f32) (x1 : Vec F S1x128 .f32) (x2 : Vec F S5000x1 .i32) (x3 : Vec F S128x1 .f32) (x4 : Vec F S1x1 .f32) (xs0 : Vec F S512x128 .f32) : out3_C_5 c i arg1 harg1 arg2 harg2 arg3 harg3 arg4 harg4 arg5 harg5 arg6 harg6 arg7 harg7 hc0 hc1 x0 x1 x2 x3 x4 xs0 = k3_pay3 (k3_pay2 x0 x1 x2 xs0) x3 x4 := by
  unfold out3_C_5
  rw [View.read_writes_eq_canon _ _ _ (cover3_C_5 c i arg1 harg1 arg2 harg2 arg3 harg3 arg4 harg4 arg5 harg5 arg6 harg6 arg7 harg7 hc0 hc1 x0 x1 x2 x3 x4 xs0)]
  unfold kernelRun3_C
  dsimp only
  sl_unfold_words
  rw [View.canon_unit_zero hz3, View.readCov_unit_zero (S := S512x128) _ hz3]
  simp only [View.readAt_eq_ld, harg1.read_unread, harg2.read_unread, harg3.read_unread, harg4.read_unread, harg5.read_unread, harg7.read_unread, View.ld_unit_zero (S := S5000x128) hz3, View.ld_unit_zero (S := S1x128) hz3, View.ld_unit_zero (S := S5000x1) hz3, View.ld_unit_zero (S := S512x128) hz3, View.ld_unit_zero (S := S128x1) hz3, View.ld_unit_zero (S := S1x1) hz3]

/-- After the first row block the accumulator is that block's pooled sum over zeros. -/
theorem scr3_zero (c : Dev nD) (h : 0 < cfg3.N) : (outsAt3 V c 0 h).2 = k3_pay2 (iblk3 V c 0 ⟨0, h⟩) (iblk3 V c 1 ⟨0, h⟩) (iblk3 V c 2 ⟨0, h⟩) k3_pay1 := by
  have e : outsAt3 V c 0 h = _ := outsAt3_A V c ⟨0, h⟩ rfl
  rw [e]; dsimp only
  exact sout3_A_0_eq c (grid3.coords ⟨0, h⟩) (ms3_0 ⟨0, h⟩) (hs3_0 ⟨0, h⟩) (ms3_1 ⟨0, h⟩) (hs3_1 ⟨0, h⟩) (ms3_2 ⟨0, h⟩) (hs3_2 ⟨0, h⟩) (ms3_3 ⟨0, h⟩) (hs3_3 ⟨0, h⟩) (ms3_4 ⟨0, h⟩) (hs3_4 ⟨0, h⟩) (ms3_5 ⟨0, h⟩) (hs3_5 ⟨0, h⟩) scM3_0 (Memref.isWhole_whole _) ((hcond3_0 ⟨0, h⟩).mpr rfl) (ncond3_1_of_zero ⟨0, h⟩ rfl) (iblk3 V c 0 ⟨0, h⟩) (iblk3 V c 1 ⟨0, h⟩) (iblk3 V c 2 ⟨0, h⟩) (iblk3 V c 3 ⟨0, h⟩) (iblk3 V c 4 ⟨0, h⟩)

/-- After every later row block it is that block's pooled sum over what the block before left. -/
theorem scr3_succ (c : Dev nD) (n : ℕ) (h : n + 1 < cfg3.N) : (outsAt3 V c (n + 1) h).2 = k3_pay2 (iblk3 V c 0 ⟨n + 1, h⟩) (iblk3 V c 1 ⟨n + 1, h⟩) (iblk3 V c 2 ⟨n + 1, h⟩) (outsAt3 V c n (Nat.lt_of_succ_lt h)).2 := by
  by_cases h1 : n + 1 = 19
  · have e : outsAt3 V c (n + 1) h = _ := outsAt3_C V c ⟨n + 1, h⟩ (Nat.succ_ne_zero n) h1
    rw [e]; dsimp only
    exact sout3_C_0_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (ncond3_0_of_pos ⟨n + 1, h⟩ (Nat.succ_ne_zero n)) ((hcond3_1 ⟨n + 1, h⟩).mpr h1) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2
  · have e : outsAt3 V c (n + 1) h = _ := outsAt3_B V c ⟨n + 1, h⟩ (Nat.succ_ne_zero n) h1
    rw [e]; dsimp only
    exact sout3_B_0_eq c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) scM3_0 (Memref.isWhole_whole _) (ncond3_0_of_pos ⟨n + 1, h⟩ (Nat.succ_ne_zero n)) (fun hc => h1 ((hcond3_1 ⟨n + 1, h⟩).mp hc)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (outsAt3 V c n (Nat.lt_of_succ_lt h)).2

/-- After the last row block the result buffer holds the head of the final accumulator. -/
theorem out3_last (c : Dev nD) (h : 19 < cfg3.N) : (outsAt3 V c 19 h).1 = k3_pay3 (outsAt3 V c 19 h).2 (iblk3 V c 3 ⟨19, h⟩) (iblk3 V c 4 ⟨19, h⟩) := by
  have e : outsAt3 V c 19 h = _ := outsAt3_C V c ⟨19, h⟩ (Nat.succ_ne_zero 18) rfl
  rw [e]; dsimp only
  exact (out3_C_5_eq c (grid3.coords ⟨19, h⟩) (ms3_0 ⟨19, h⟩) (hs3_0 ⟨19, h⟩) (ms3_1 ⟨19, h⟩) (hs3_1 ⟨19, h⟩) (ms3_2 ⟨19, h⟩) (hs3_2 ⟨19, h⟩) (ms3_3 ⟨19, h⟩) (hs3_3 ⟨19, h⟩) (ms3_4 ⟨19, h⟩) (hs3_4 ⟨19, h⟩) (ms3_5 ⟨19, h⟩) (hs3_5 ⟨19, h⟩) scM3_0 (Memref.isWhole_whole _) (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (outsAt3 V c (19 - 1) (Nat.lt_of_le_of_lt (Nat.sub_le _ _) h)).2).trans
    (congrArg (fun s => k3_pay3 s (iblk3 V c 3 ⟨19, h⟩) (iblk3 V c 4 ⟨19, h⟩))
      (sout3_C_0_eq c (grid3.coords ⟨19, h⟩) (ms3_0 ⟨19, h⟩) (hs3_0 ⟨19, h⟩) (ms3_1 ⟨19, h⟩) (hs3_1 ⟨19, h⟩) (ms3_2 ⟨19, h⟩) (hs3_2 ⟨19, h⟩) (ms3_3 ⟨19, h⟩) (hs3_3 ⟨19, h⟩) (ms3_4 ⟨19, h⟩) (hs3_4 ⟨19, h⟩) (ms3_5 ⟨19, h⟩) (hs3_5 ⟨19, h⟩) scM3_0 (Memref.isWhole_whole _) (ncond3_0_of_pos ⟨19, h⟩ (Nat.succ_ne_zero 18)) ((hcond3_1 ⟨19, h⟩).mpr rfl) (iblk3 V c 0 ⟨19, h⟩) (iblk3 V c 1 ⟨19, h⟩) (iblk3 V c 2 ⟨19, h⟩) (iblk3 V c 3 ⟨19, h⟩) (iblk3 V c 4 ⟨19, h⟩) (outsAt3 V c (19 - 1) (Nat.lt_of_le_of_lt (Nat.sub_le _ _) h)).2).symm)

end Cert.KernelIdeal.Hand

end
-- ==== Proof.KI.Run.lean ====
import proofs.«414673_j4638564679932_1_alg».proof.Proof.Gen.KernelIdeal.Launch
import proofs.«414673_j4638564679932_1_alg».proof.Proof.Gen.KernelIdeal.Skeleton
import proofs.«414673_j4638564679932_1_alg».proof.Proof.Gen.KernelIdeal.Points
import proofs.«414673_j4638564679932_1_alg».proof.Proof.Gen.KernelIdeal.Regions
import proofs.«414673_j4638564679932_1_alg».proof.Proof.KI.Fold
import proofs.«414673_j4638564679932_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! # The last region, the launch

The fold of the buffers' contents continues through region 3 and the last host stretch; then the four regions as
segments and one launch over the eleven segments. -/

variable (m : (ℓ : Loc nD τ sig) → Buf (Elt F) ℓ) (ρ : Dev nD → PrngReg)

/-- After region 3: its arrays at what the pipeline leaves (the inputs as entered, the output's write-backs folded), every
    other buffer as entered. -/
def W10 (c : Dev nD) : Valuation τ sig (Elt F) :=
  Pipeline.withArrays spec3 c (W9 m ρ c) fun w => (dat3 (B9 m ρ) c).arrAt w cfg3.N
theorem W10_arr (c : Dev nD) (w : Fin cfg3.W) :
    W10 m ρ c (Proc.devRef .tc (Pipeline.arrRef spec3 w)) = (dat3 (B9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
theorem hF3 (c : Dev nD) (w : Fin cfg3.W) : (dat3 (B9 m ρ) c).arrAt w cfg3.N = W10 m ρ c (Pipeline.arrRef spec3 w) :=
  (W10_arr m ρ c w).symm
theorem hrest3 (c : Dev nD) : ∀ b, b ∉ Finset.univ.image (Pipeline.arrRef spec3) → W10 m ρ c b = B9 m ρ c b :=
  fun b hb => W10_of_ne m ρ c b fun w e => hb (Finset.mem_image.mpr ⟨w, Finset.mem_univ _, e⟩)
/-- Region 3 changes one array only, its output's: every other buffer, an input window's array included, is as entered. -/
theorem W10_keep (c : Dev nD) (b : Ref sig .tc) (hb : b ≠ main_v91) : W10 m ρ c b = W9 m ρ c b := by
  by_cases h0 : Pipeline.arrRef spec3 0 = b
  · subst h0; exact (W10_arr m ρ c 0).trans (((dat3 (B9 m ρ) c).arrAt_in 0 rfl _).trans (A_eq3 (B9 m ρ) c 0))
  by_cases h1 : Pipeline.arrRef spec3 1 = b
  · subst h1; exact (W10_arr m ρ c 1).trans (((dat3 (B9 m ρ) c).arrAt_in 1 rfl _).trans (A_eq3 (B9 m ρ) c 1))
  by_cases h2 : Pipeline.arrRef spec3 2 = b
  · subst h2; exact (W10_arr m ρ c 2).trans (((dat3 (B9 m ρ) c).arrAt_in 2 rfl _).trans (A_eq3 (B9 m ρ) c 2))
  by_cases h3 : Pipeline.arrRef spec3 3 = b
  · subst h3; exact (W10_arr m ρ c 3).trans (((dat3 (B9 m ρ) c).arrAt_in 3 rfl _).trans (A_eq3 (B9 m ρ) c 3))
  by_cases h4 : Pipeline.arrRef spec3 4 = b
  · subst h4; exact (W10_arr m ρ c 4).trans (((dat3 (B9 m ρ) c).arrAt_in 4 rfl _).trans (A_eq3 (B9 m ρ) c 4))
  exact W10_of_ne m ρ c b (fun w => by
    fin_cases w
    · exact h0
    · exact h1
    · exact h2
    · exact h3
    · exact h4
    · exact fun e => hb e.symm)

/-- After the host stretch `hostOps4`. -/
abbrev W11 (c : Dev nD) : Valuation τ sig (Elt F) := StableHlo.after hostOps4 (W10 m ρ c)
theorem W11_keep (c : Dev nD) (b : Ref sig .tc) (hb : b ∉ hostOps4_W) : W11 m ρ c b = W10 m ρ c b :=
  StableHlo.after_of_writes_sub hostOps4 _ hostOps4_writes hb

/-- A buffer that no host stretch writes and that is no region's output holds its launch contents at the end. -/
theorem W11_kept (c : Dev nD) (b : Ref sig .tc) (h0 : b ∉ hostOps0_W) (h1 : b ∉ hostOps0_1_W) (h2 : b ∉ hostOps0_2_W)
    (h3 : b ≠ main_v34) (h4 : b ∉ hostOps1_W) (h5 : b ≠ main_v53) (h6 : b ∉ hostOps2_W) (h7 : b ≠ main_v72)
    (h8 : b ∉ hostOps3_W) (h9 : b ≠ main_v91) (h10 : b ∉ hostOps4_W) :
    W11 m ρ c b = m ((c : Thread nD τ).loc b) :=
  (W11_keep m ρ c b h10).trans <| (W10_keep m ρ c b h9).trans <| (W9_keep m ρ c b h8).trans <| (W8_keep m ρ c b h7).trans <|
    (W7_keep m ρ c b h6).trans <| (W6_keep m ρ c b h5).trans <| (W5_keep m ρ c b h4).trans <| (W4_keep m ρ c b h3).trans <|
    (W3_keep m ρ c b h2).trans <| (W2_keep m ρ c b h1).trans <| (W1_keep m ρ c b h0).trans rfl

/-! ## The proof data family and the thread state -/

/-- No pipeline has a prefetched table. -/
abbrev padm : (p : Fin 4) → (pcfgs (F := F) p).Adm := fun p => (cfgs p).toPCfg_adm
/-- Every pipeline's proof data, each at the contents its region is entered with. -/
def pdats : (p : Fin 4) → (c : Dev nD) → Dat τ (Elt F) Unit ℕ (Pipeline.UD sig nD τ) ℕ (Pipeline.pin (pcfgs (F := F)) padm p) c
  | ⟨0, _⟩ => fun c => dat0 (B3 m ρ) c
  | ⟨1, _⟩ => fun c => dat1 (B5 m ρ) c
  | ⟨2, _⟩ => fun c => dat2 (B7 m ρ) c
  | ⟨3, _⟩ => fun c => dat3 (B9 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered with every unscoped buffer at `W3`, left with them at `W4`. Its arrays are
    split out of the unscoped buffers and put back at their exit contents; the generator register passes through the
    region's invariant; the kernel has no semaphore of its own and owes nothing. -/
def reg0 : Pipeline.RegionSeg (pcfgs (F := F)) padm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (B3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (B3 m ρ c)
  hentry c := by
    rw [Pipeline.ownSems0_none]
    have hsplit := Pipeline.arrays_of_unscopedBufs (p := 0) (pcfgs (F := F)) padm (pdats m ρ) launch0.win launch0.arr_whole c
      ((pdats m ρ 0 c).share_full fun _ => rfl) (B3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := Pipeline.UD sig nD τ) (Lvl := ℕ)
      launch0.win launch0.arr_whole c (pdats m ρ) ((pdats m ρ 0 c).share_full fun _ => rfl)
      (B3 m ρ c) (fun b => W4 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays are
    split out of the unscoped buffers and put back at their exit contents; the generator register passes through the
    region's invariant; the kernel has no semaphore of its own and owes nothing. -/
def reg1 : Pipeline.RegionSeg (pcfgs (F := F)) padm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (B5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (B5 m ρ c)
  hentry c := by
    rw [Pipeline.ownSems0_none]
    have hsplit := Pipeline.arrays_of_unscopedBufs (p := 1) (pcfgs (F := F)) padm (pdats m ρ) launch1.win launch1.arr_whole c
      ((pdats m ρ 1 c).share_full fun _ => rfl) (B5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := Pipeline.UD sig nD τ) (Lvl := ℕ)
      launch1.win launch1.arr_whole c (pdats m ρ) ((pdats m ρ 1 c).share_full fun _ => rfl)
      (B5 m ρ c) (fun b => W6 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its arrays are
    split out of the unscoped buffers and put back at their exit contents; the generator register passes through the
    region's invariant; the kernel has no semaphore of its own and owes nothing. -/
def reg2 : Pipeline.RegionSeg (pcfgs (F := F)) padm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (B7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (B7 m ρ c)
  hentry c := by
    rw [Pipeline.ownSems0_none]
    have hsplit := Pipeline.arrays_of_unscopedBufs (p := 2) (pcfgs (F := F)) padm (pdats m ρ) launch2.win launch2.arr_whole c
      ((pdats m ρ 2 c).share_full fun _ => rfl) (B7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := Pipeline.UD sig nD τ) (Lvl := ℕ)
      launch2.win launch2.arr_whole c (pdats m ρ) ((pdats m ρ 2 c).share_full fun _ => rfl)
      (B7 m ρ c) (fun b => W8 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W9`, left with them at `W10`. Its arrays are
    split out of the unscoped buffers and put back at their exit contents; the generator register passes through the
    region's invariant; the kernel has no semaphore of its own and owes nothing. -/
def reg3 : Pipeline.RegionSeg (pcfgs (F := F)) padm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (B9 m ρ) c).loose
  hwaits := Pipeline.hwaits_of_owed_zero _ _ _ _ L lv 3 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (B9 m ρ c)
  hentry c := by
    rw [Pipeline.ownSems0_none]
    have hsplit := Pipeline.arrays_of_unscopedBufs (p := 3) (pcfgs (F := F)) padm (pdats m ρ) launch3.win launch3.arr_whole c
      ((pdats m ρ 3 c).share_full fun _ => rfl) (B9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h3 := hin3 (B9 m ρ) c
    unfold Pipeline.ΦA at h3
    rw [show (pdats m ρ 3 c).Φ 0 = (dat3 (B9 m ρ) c).Φ 0 from rfl]
    iintro ⟨Hp, -, Hr⟩
    iapply h3
    isplitl [Hr]; · iexact Hr
    iexact Hp
  hout c := by
    have h3 := hout3 (B9 m ρ) c
    unfold Pipeline.ΦA at h3
    rw [Pipeline.ownSems0_none, show (pdats m ρ 3 c).Φ (Fin.last _) = (dat3 (B9 m ρ) c).Φ (Fin.last cfg3.N) from rfl]
    iintro H
    ihave H' := h3 $$ H
    icases H' with ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := Pipeline.UD sig nD τ) (Lvl := ℕ)
      launch3.win launch3.arr_whole c (pdats m ρ) ((pdats m ρ 3 c).share_full fun _ => rfl)
      (B9 m ρ c) (fun b => W10 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev psegs : List (Pipeline.Seg (pcfgs (F := F)) padm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]
theorem main_run (c : Dev nD) : main (F := F) c = Pipeline.Seg.run (psegs m ρ) := (main_chain c).trans (by chain_rfl)

set_option backward.isDefEq.respectTransparency.types false in
/-- Every weakly fair execution of the program from memory `m` with zero counters terminates, nothing faulting, and the final
    memory holds every unscoped buffer of every core at the last boundary's contents `W11`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) padm (pdats m ρ) () cellOf_inj embL defs₀ 𝒱₀ L lv m ρ main (psegs m ρ)
    (fun c Q => by rw [main_run m ρ c])
    (by simp only [psegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show (iprop(StableHlo.held (c : Thread nD τ) (Pipeline.ucRefs τ sig) (W11 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every weakly fair execution terminates, nothing faulting, and each of the seven argument arrays ends holding
    its launch contents — no host stretch writes an argument and no region's output is one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W11_kept m ρ c main_arg0 (by decide) (by decide) (by decide) (by decide) (by decide) (by decide) (by decide) (by decide) (by decide) (by decide) (by decide)),
     (h c _ (mem_uc main_arg1 (by decide))).trans (W11_kept m ρ c main_arg1 (by decide) (by decide) (by decide) (by decide) (by decide) (by decide) (by decide) (by decide) (by decide) (by decide) (by decide)),
     (h c _ (mem_uc main_arg2 (by decide))).trans (W11_kept m ρ c main_arg2 (by decide) (by decide) (by decide) (by decide) (by decide) (by decide) (by decide) (by decide) (by decide) (by decide) (by decide)),
     (h c _ (mem_uc main_arg3 (by decide))).trans (W11_kept m ρ c main_arg3 (by decide) (by decide) (by decide) (by decide) (by decide) (by decide) (by decide) (by decide) (by decide) (by decide) (by decide)),
     (h c _ (mem_uc main_arg4 (by decide))).trans (W11_kept m ρ c main_arg4 (by decide) (by decide) (by decide) (by decide) (by decide) (by decide) (by decide) (by decide) (by decide) (by decide) (by decide)),
     (h c _ (mem_uc main_arg5 (by decide))).trans (W11_kept m ρ c main_arg5 (by decide) (by decide) (by decide) (by decide) (by decide) (by decide) (by decide) (by decide) (by decide) (by decide) (by decide)),
     (h c _ (mem_uc main_arg6 (by decide))).trans (W11_kept m ρ c main_arg6 (by decide) (by decide) (by decide) (by decide) (by decide) (by decide) (by decide) (by decide) (by decide) (by decide) (by decide))⟩) (run_all m ρ)

/-- The same run with the result buffer named: it ends at the last boundary's contents of `main_v92`. -/
theorem run_value : θ_run defs (onTc (τ := τ) (main (F := F))) ⟨m, fun _ => 0, ρ⟩ (fun r => ∀ c : Dev nD,
      r.2.mem ((c.tc : Thread nD τ).loc main_v92) = W11 m ρ c main_v92
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v92 (by decide)),
     (h c _ (mem_uc main_arg0 (by decide))).trans (W11_kept m ρ c main_arg0 (by decide) (by decide) (by decide) (by decide) (by decide) (by decide) (by decide) (by decide) (by decide) (by decide) (by decide)),
     (h c _ (mem_uc main_arg1 (by decide))).trans (W11_kept m ρ c main_arg1 (by decide) (by decide) (by decide) (by decide) (by decide) (by decide) (by decide) (by decide) (by decide) (by decide) (by decide)),
     (h c _ (mem_uc main_arg2 (by decide))).trans (W11_kept m ρ c main_arg2 (by decide) (by decide) (by decide) (by decide) (by decide) (by decide) (by decide) (by decide) (by decide) (by decide) (by decide)),
     (h c _ (mem_uc main_arg3 (by decide))).trans (W11_kept m ρ c main_arg3 (by decide) (by decide) (by decide) (by decide) (by decide) (by decide) (by decide) (by decide) (by decide) (by decide) (by decide)),
     (h c _ (mem_uc main_arg4 (by decide))).trans (W11_kept m ρ c main_arg4 (by decide) (by decide) (by decide) (by decide) (by decide) (by decide) (by decide) (by decide) (by decide) (by decide) (by decide)),
     (h c _ (mem_uc main_arg5 (by decide))).trans (W11_kept m ρ c main_arg5 (by decide) (by decide) (by decide) (by decide) (by decide) (by decide) (by decide) (by decide) (by decide) (by decide) (by decide)),
     (h c _ (mem_uc main_arg6 (by decide))).trans (W11_kept m ρ c main_arg6 (by decide) (by decide) (by decide) (by decide) (by decide) (by decide) (by decide) (by decide) (by decide) (by decide) (by decide))⟩) (run_all m ρ)

end Cert.KernelIdeal.Hand

end
-- ==== Proof.RefValue.lean ====
import proofs.«414673_j4638564679932_1_alg».proof.Proof.RefRead

/-! The reference's result as one function of its seven argument arrays, in named stages.

A three-layer graph convolution followed by a pooled linear head. With `N = 100000` nodes, `E = 1600000`
edges and one self loop per node (`E + N = 1700000` messages):

* `edgeSrc`, `edgeDst`: a row of the edge list followed by `0, 1, …, N - 1`;
* `refDeg`: the number of messages arriving at each node; `refDinv`: its inverse square root where it is
  positive, zero elsewhere; `refNorm`: per message, the product of `refDinv` at its two ends;
* `refAgg h`: per node, the sum over the messages arriving there of the source's row of `h` times the
  message's `refNorm` (one function of `h`, the same at every layer);
* `refLayerFirst x W`: the matrix product `x · W`; `refAct s b`: `max (s + b) 0`, the bias `b` added to every row;
* `refPool h batch`: per graph, the sum of the rows of `h` whose node belongs to it;
* `refHead p w b`: `p · w + b`, as a vector.

`res_eq` says that the term the run ends with is `refOut`, the composition of these stages; it only unfolds
definitions. The lemmas after it read the dense stages at an index. -/

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The stages -/

/-- The sources of the messages: row `0` of the edge list, then every node once. -/
def edgeSrc (x1 : (⟨S2x1600000, .i32⟩ : BufTy).Contents (Elt F)) : (⟨S1700000, .i32⟩ : BufTy).Contents (Elt F) :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- The destinations of the messages: row `1` of the edge list, then every node once. -/
def edgeDst (x1 : (⟨S2x1600000, .i32⟩ : BufTy).Contents (Elt F)) : (⟨S1700000, .i32⟩ : BufTy).Contents (Elt F) :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- A node number read from the end when negative: `v + N` where `v < 0`, else `v`. -/
def wrapIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- A list of node numbers as a column of index vectors of length one. -/
def idxCol (v : (⟨S1700000, .i32⟩ : BufTy).Contents (Elt F)) : (⟨S1700000x1, .i32⟩ : BufTy).Contents (Elt F) :=
  broadcastInDim S1700000x1 ![0] bcast_S1700000_S1700000x1_0 v

/-- Per node, the number of messages arriving (a one added per message at its destination). -/
def refDeg (x1 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (idxCol (edgeDst x1))
    (broadcastInDim S1700000 ![] bcast_S_S1700000 (constant S_ .f32 0x3F800000#32))

/-- Per node, `1 / sqrt (refDeg)` where the degree is positive, and zero elsewhere. -/
def refDinv (x1 : (⟨S2x1600000, .i32⟩ : BufTy).Contents (Elt F)) : (⟨S100000, .f32⟩ : BufTy).Contents (Elt F) :=
  select (cmpf (F := F) .ogt (refDeg x1) (broadcastInDim S100000 ![] bcast_S_S100000 (constant S_ .f32 0x00000000#32)))
    (Host.rsqrt (refDeg x1))
    (broadcastInDim S100000 ![] bcast_S_S100000 (id (constant S_ .f32 0x00000000#32)))

/-- Per message, `refDinv` at its source times `refDinv` at its destination. -/
def refNorm (x1 : (⟨S2x1600000, .i32⟩ : BufTy).Contents (Elt F)) : (⟨S1700000, .f32⟩ : BufTy).Contents (Elt F) :=
  mulf (Host.gather gather_S100000_S1700000x1_S1700000_n_0_n_n_0_1_1 (refDinv x1) (idxCol (wrapIdx (edgeSrc x1))))
    (Host.gather gather_S100000_S1700000x1_S1700000_n_0_n_n_0_1_1 (refDinv x1) (idxCol (wrapIdx (edgeDst x1))))

/-- One round of message passing: per node, the sum over the messages arriving there of the source's row of
    `h` scaled by the message's `refNorm`. -/
def refAgg (x1 : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (idxCol (edgeDst x1))
    (mulf (Host.gather gather_S100000x128_S1700000x1_S1700000x128_1_0_n_n_0_1_1128 h (idxCol (wrapIdx (edgeSrc x1))))
      (broadcastInDim S1700000x128 ![0, 1] bcast_S1700000x1_S1700000x128_0_1
        (broadcastInDim S1700000x1 ![0] bcast_S1700000_S1700000x1_0 (refNorm x1))))

/-- Layer `0`'s weight matrix. -/
def refW0 (x3 : (⟨S3x128x128, .f32⟩ : BufTy).Contents (Elt F)) : (⟨S128x128, .f32⟩ : BufTy).Contents (Elt F) :=
  shapeCast _ (extractStridedSlice S1x128x128 ![0, 0, 0] x3 slices_S3x128x128_S1x128x128_0_0_0) shapeCasts_S1x128x128_S128x128
/-- Layer `1`'s weight matrix. -/
def refW1 (x3 : (⟨S3x128x128, .f32⟩ : BufTy).Contents (Elt F)) : (⟨S128x128, .f32⟩ : BufTy).Contents (Elt F) :=
  shapeCast _ (extractStridedSlice S1x128x128 ![1, 0, 0] x3 slices_S3x128x128_S1x128x128_1_0_0) shapeCasts_S1x128x128_S128x128
/-- Layer `2`'s weight matrix. -/
def refW2 (x3 : (⟨S3x128x128, .f32⟩ : BufTy).Contents (Elt F)) : (⟨S128x128, .f32⟩ : BufTy).Contents (Elt F) :=
  shapeCast _ (extractStridedSlice S1x128x128 ![2, 0, 0] x3 slices_S3x128x128_S1x128x128_2_0_0) shapeCasts_S1x128x128_S128x128

/-- Layer `0`'s bias vector. -/
def refB0 (x4 : (⟨S3x128, .f32⟩ : BufTy).Contents (Elt F)) : (⟨S128, .f32⟩ : BufTy).Contents (Elt F) :=
  shapeCast _ (extractStridedSlice S1x128 ![0, 0] x4 slices_S3x128_S1x128_0_0) shapeCasts_S1x128_S128
/-- Layer `1`'s bias vector. -/
def refB1 (x4 : (⟨S3x128, .f32⟩ : BufTy).Contents (Elt F)) : (⟨S128, .f32⟩ : BufTy).Contents (Elt F) :=
  shapeCast _ (extractStridedSlice S1x128 ![1, 0] x4 slices_S3x128_S1x128_1_0) shapeCasts_S1x128_S128
/-- Layer `2`'s bias vector. -/
def refB2 (x4 : (⟨S3x128, .f32⟩ : BufTy).Contents (Elt F)) : (⟨S128, .f32⟩ : BufTy).Contents (Elt F) :=
  shapeCast _ (extractStridedSlice S1x128 ![2, 0] x4 slices_S3x128_S1x128_2_0) shapeCasts_S1x128_S128

/-- The matrix product of the node features with a weight matrix. -/
def refLayerFirst (x : (⟨S100000x128, .f32⟩ : BufTy).Contents (Elt F)) (W : (⟨S128x128, .f32⟩ : BufTy).Contents (Elt F)) : (⟨S100000x128, .f32⟩ : BufTy).Contents (Elt F) :=
  Host.dotGeneral dot_S100000x128_S128x128_S100000x128_1_0_0_1_n_n none x W

/-- The bias added to every row, then the positive part. -/
def refAct (s : (⟨S100000x128, .f32⟩ : BufTy).Contents (Elt F)) (b : (⟨S128, .f32⟩ : BufTy).Contents (Elt F)) : (⟨S100000x128, .f32⟩ : BufTy).Contents (Elt F) :=
  maximumf
    (addf s (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- A later layer's product: the activated sums times the layer's weights. -/
def refLayerNext (s : (⟨S100000x128, .f32⟩ : BufTy).Contents (Elt F)) (b : (⟨S128, .f32⟩ : BufTy).Contents (Elt F)) (W : (⟨S128x128, .f32⟩ : BufTy).Contents (Elt F)) : (⟨S100000x128, .f32⟩ : BufTy).Contents (Elt F) :=
  refLayerFirst (refAct s b) W

/-- Per graph, the sum of the rows of `h` whose node the graph assignment `batch` puts there. -/
def refPool (h : (⟨S100000x128, .f32⟩ : BufTy).Contents (Elt F)) (batch : (⟨S100000, .i32⟩ : BufTy).Contents (Elt F)) : (⟨S512x128, .f32⟩ : BufTy).Contents (Elt F) :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch)
    h

/-- The linear head on the pooled rows: `p · w + b`, one number per graph. -/
def refHead (p : (⟨S512x128, .f32⟩ : BufTy).Contents (Elt F)) (w : (⟨S128x1, .f32⟩ : BufTy).Contents (Elt F)) (b : (⟨S1, .f32⟩ : BufTy).Contents (Elt F)) : (⟨S512, .f32⟩ : BufTy).Contents (Elt F) :=
  shapeCast _
    (addf (Host.dotGeneral dot_S512x128_S128x1_S512x1_1_0_0_1_n_n none p w)
      (broadcastInDim S512x1 ![0, 1] bcast_S1x1_S512x1_0_1 (broadcastInDim S1x1 ![1] bcast_S1_S1x1_1 b)))
    shapeCasts_S512x1_S512

/-- The node features after layer `0`'s aggregation (before its bias). -/
def refS0 (x0 : (⟨S100000x128, .f32⟩ : BufTy).Contents (Elt F)) (x1 : (⟨S2x1600000, .i32⟩ : BufTy).Contents (Elt F)) (x3 : (⟨S3x128x128, .f32⟩ : BufTy).Contents (Elt F)) : (⟨S100000x128, .f32⟩ : BufTy).Contents (Elt F) :=
  refAgg x1 (refLayerFirst x0 (refW0 x3))
/-- The node features after layer `1`'s aggregation. -/
def refS1 (x0 : (⟨S100000x128, .f32⟩ : BufTy).Contents (Elt F)) (x1 : (⟨S2x1600000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  refAgg x1 (refLayerNext (refS0 x0 x1 x3) (refB0 x4) (refW1 x3))
/-- The node features after layer `2`'s aggregation. -/
def refS2 (x0 : (⟨S100000x128, .f32⟩ : BufTy).Contents (Elt F)) (x1 : (⟨S2x1600000, .i32⟩ : BufTy).Contents (Elt F)) (x3 : (⟨S3x128x128, .f32⟩ : BufTy).Contents (Elt F)) (x4 : (⟨S3x128, .f32⟩ : BufTy).Contents (Elt F)) : (⟨S100000x128, .f32⟩ : BufTy).Contents (Elt F) :=
  refAgg x1 (refLayerNext (refS1 x0 x1 x3 x4) (refB1 x4) (refW2 x3))

/-- The reference's result as a function of its seven arguments. -/
def refOut (x0 : (⟨S100000x128, .f32⟩ : BufTy).Contents (Elt F)) (x1 : (⟨S2x1600000, .i32⟩ : BufTy).Contents (Elt F)) (x2 : (⟨S100000, .i32⟩ : BufTy).Contents (Elt F)) (x3 : (⟨S3x128x128, .f32⟩ : BufTy).Contents (Elt F))
    (x4 : (⟨S3x128, .f32⟩ : BufTy).Contents (Elt F)) (x5 : (⟨S128x1, .f32⟩ : BufTy).Contents (Elt F)) (x6 : (⟨S1, .f32⟩ : BufTy).Contents (Elt F)) : (⟨S512, .f32⟩ : BufTy).Contents (Elt F) :=
  refHead (refPool (refAct (refS2 x0 x1 x3 x4) (refB2 x4)) x2) x5 x6

/-! ## The run's term is the composition -/

theorem val_v3_eq (x1 : (⟨S2x1600000, .i32⟩ : BufTy).Contents (Elt F)) : val_main_v3 (F := F) x1 = edgeSrc x1 := rfl
theorem val_v6_eq (x1 : (⟨S2x1600000, .i32⟩ : BufTy).Contents (Elt F)) : val_main_v6 (F := F) x1 = edgeDst x1 := rfl
theorem val_v10_eq (x1 : (⟨S2x1600000, .i32⟩ : BufTy).Contents (Elt F)) : val_main_v10 (F := F) x1 = refDeg x1 := rfl
theorem val_v14_eq (x1 : (⟨S2x1600000, .i32⟩ : BufTy).Contents (Elt F)) : val_main_v14 (F := F) x1 = refDinv x1 := rfl
theorem val_v29_eq (x1 : (⟨S2x1600000, .i32⟩ : BufTy).Contents (Elt F)) : val_main_v29 (F := F) x1 = refNorm x1 := rfl

theorem val_v45_eq (x0 : (⟨S100000x128, .f32⟩ : BufTy).Contents (Elt F)) (x1 : (⟨S2x1600000, .i32⟩ : BufTy).Contents (Elt F)) (x3 : (⟨S3x128x128, .f32⟩ : BufTy).Contents (Elt F)) :
    val_main_v45 (F := F) x0 x1 x3 = refS0 x0 x1 x3 := rfl
theorem val_v67_eq (x0 : (⟨S100000x128, .f32⟩ : BufTy).Contents (Elt F)) (x1 : (⟨S2x1600000, .i32⟩ : BufTy).Contents (Elt F)) (x3 : (⟨S3x128x128, .f32⟩ : BufTy).Contents (Elt F)) (x4 : (⟨S3x128, .f32⟩ : BufTy).Contents (Elt F)) :
    val_main_v67 (F := F) x0 x1 x3 x4 = refS1 x0 x1 x3 x4 := rfl
theorem val_v89_eq (x0 : (⟨S100000x128, .f32⟩ : BufTy).Contents (Elt F)) (x1 : (⟨S2x1600000, .i32⟩ : BufTy).Contents (Elt F)) (x3 : (⟨S3x128x128, .f32⟩ : BufTy).Contents (Elt F)) (x4 : (⟨S3x128, .f32⟩ : BufTy).Contents (Elt F)) :
    val_main_v89 (F := F) x0 x1 x3 x4 = refS2 x0 x1 x3 x4 := rfl

theorem val_v103_eq (x0 : (⟨S100000x128, .f32⟩ : BufTy).Contents (Elt F)) (x1 : (⟨S2x1600000, .i32⟩ : BufTy).Contents (Elt F)) (x2 : (⟨S100000, .i32⟩ : BufTy).Contents (Elt F)) (x3 : (⟨S3x128x128, .f32⟩ : BufTy).Contents (Elt F))
    (x4 : (⟨S3x128, .f32⟩ : BufTy).Contents (Elt F)) (x5 : (⟨S128x1, .f32⟩ : BufTy).Contents (Elt F)) (x6 : (⟨S1, .f32⟩ : BufTy).Contents (Elt F)) :
    val_main_v103 (F := F) x0 x1 x2 x3 x4 x5 x6 = refOut x0 x1 x2 x3 x4 x5 x6 := rfl

/-- The term the run of the reference ends with at its result is `refOut` of the seven arguments' launch
    contents, for any float values: both sides unfold to the same composition of the printed operations. -/
theorem res_eq' (m : (ℓ : Loc nD τ sig) → Buf (Elt F) ℓ) (c : Dev nD) :
    Cert.ReferenceIdeal.RunP.res_main_v103 m c = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (val_main_v103_eq m c).trans (val_v103_eq _ _ _ _ _ _ _)

/-- `res_eq'` over the extended reals. -/
theorem res_eq (m : (ℓ : Loc nD τ sig) → Buf (Elt Ideal) ℓ) (c : Dev nD) :
    Cert.ReferenceIdeal.RunP.res_main_v103 (F := Ideal) m c = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  res_eq' m c

/-- The reference's run with its result named: every weakly fair execution of `@main` from zero counters
    terminates with the result buffer at `refOut` of the arguments' launch contents and the arguments unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v103) = refOut (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq' m c), (h c).2⟩) (Cert.ReferenceIdeal.RunP.run m ρ)

/-! ## The dense stages read at an index

The weights and biases are rows of the stacked arguments; the activation is read entrywise; over the extended
reals the two matrix products are sums of `128` products. -/

/-- Entry `(i₀, i₁)` of matrix `k` of the stacked weights. -/
abbrev wIdx (k : Fin 3) (i : S128x128.Idx) : S3x128x128.Idx := fun a => match a with
  | ⟨0, _⟩ => ⟨k.val, k.isLt⟩
  | ⟨1, _⟩ => ⟨(i 0).val, (i 0).isLt⟩
  | ⟨2, _⟩ => ⟨(i 1).val, (i 1).isLt⟩

/-- Entry `j` of row `k` of the stacked biases. -/
abbrev bIdx (k : Fin 3) (j : S128.Idx) : S3x128.Idx := fun a => match a with
  | ⟨0, _⟩ => ⟨k.val, k.isLt⟩
  | ⟨1, _⟩ => ⟨(j 0).val, (j 0).isLt⟩

/-- The column of an entry of the node features, as an index of a bias vector. -/
abbrev colOf (i : S100000x128.Idx) : S128.Idx := fun a => match a with
  | ⟨0, _⟩ => ⟨(i 1).val, (i 1).isLt⟩

/-- Entry `(row of i, k)` of the node features. -/
abbrev rowAt (i : S100000x128.Idx) (k : Fin 128) : S100000x128.Idx := fun a => match a with
  | ⟨0, _⟩ => ⟨(i 0).val, (i 0).isLt⟩
  | ⟨1, _⟩ => ⟨k.val, k.isLt⟩

/-- Entry `(k, column of i)` of a weight matrix. -/
abbrev colAt (i : S100000x128.Idx) (k : Fin 128) : S128x128.Idx := fun a => match a with
  | ⟨0, _⟩ => ⟨k.val, k.isLt⟩
  | ⟨1, _⟩ => ⟨(i 1).val, (i 1).isLt⟩

/-- Entry `(g, k)` of the pooled rows. -/
abbrev poolAt (g : S512.Idx) (k : Fin 128) : S512x128.Idx := fun a => match a with
  | ⟨0, _⟩ => ⟨(g 0).val, (g 0).isLt⟩
  | ⟨1, _⟩ => ⟨k.val, k.isLt⟩

/-- Entry `k` of the head's weight column. -/
abbrev headAt (k : Fin 128) : S128x1.Idx := fun a => match a with
  | ⟨0, _⟩ => ⟨k.val, k.isLt⟩
  | ⟨1, _⟩ => ⟨0, Nat.one_pos⟩

/-- The one entry of the head's bias. -/
abbrev headBias : S1.Idx := fun a => match a with
  | ⟨0, _⟩ => ⟨0, Nat.one_pos⟩

theorem refW0_apply (x3 : (⟨S3x128x128, .f32⟩ : BufTy).Contents (Elt F)) (i : S128x128.Idx) :
    refW0 (F := F) x3 i = x3 (wIdx 0 i) := by
  refine (val_main_v31_apply x3 i).trans ((val_main_v30_apply x3 _).trans (congrArg x3 (funext fun a => Fin.ext ?_)))
  have h0 : (i 0).val < 128 := (i 0).isLt
  have h1 : (i 1).val < 128 := (i 1).isLt
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

theorem refW1_apply (x3 : (⟨S3x128x128, .f32⟩ : BufTy).Contents (Elt F)) (i : S128x128.Idx) :
    refW1 (F := F) x3 i = x3 (wIdx 1 i) := by
  refine (val_main_v53_apply x3 i).trans ((val_main_v52_apply x3 _).trans (congrArg x3 (funext fun a => Fin.ext ?_)))
  have h0 : (i 0).val < 128 := (i 0).isLt
  have h1 : (i 1).val < 128 := (i 1).isLt
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

theorem refW2_apply (x3 : (⟨S3x128x128, .f32⟩ : BufTy).Contents (Elt F)) (i : S128x128.Idx) :
    refW2 (F := F) x3 i = x3 (wIdx 2 i) := by
  refine (val_main_v75_apply x3 i).trans ((val_main_v74_apply x3 _).trans (congrArg x3 (funext fun a => Fin.ext ?_)))
  have h0 : (i 0).val < 128 := (i 0).isLt
  have h1 : (i 1).val < 128 := (i 1).isLt
  match a with
  | ⟨0, _⟩ => rfl
  | ⟨1, _⟩ => show ((i 0).val * 128 + (i 1).val) / 128 % 128 = (i 0).val; omega
  | ⟨2, _⟩ => show ((i 0).val * 128 + (i 1).val) % 128 = (i 1).val; omega

theorem refB0_apply (x4 : (⟨S3x128, .f32⟩ : BufTy).Contents (Elt F)) (j : S128.Idx) :
    refB0 (F := F) x4 j = x4 (bIdx 0 j) := by
  refine (val_main_v47_apply x4 j).trans ((val_main_v46_apply x4 _).trans (congrArg x4 (funext fun a => Fin.ext ?_)))
  have h0 : (j 0).val < 128 := (j 0).isLt
  match a with
  | ⟨0, _⟩ => rfl
  | ⟨1, _⟩ => show (j 0).val % 128 = (j 0).val; omega

theorem refB1_apply (x4 : (⟨S3x128, .f32⟩ : BufTy).Contents (Elt F)) (j : S128.Idx) :
    refB1 (F := F) x4 j = x4 (bIdx 1 j) := by
  refine (val_main_v69_apply x4 j).trans ((val_main_v68_apply x4 _).trans (congrArg x4 (funext fun a => Fin.ext ?_)))
  have h0 : (j 0).val < 128 := (j 0).isLt
  match a with
  | ⟨0, _⟩ => rfl
  | ⟨1, _⟩ => show (j 0).val % 128 = (j 0).val; omega

theorem refB2_apply (x4 : (⟨S3x128, .f32⟩ : BufTy).Contents (Elt F)) (j : S128.Idx) :
    refB2 (F := F) x4 j = x4 (bIdx 2 j) := by
  refine (val_main_v91_apply x4 j).trans ((val_main_v90_apply x4 _).trans (congrArg x4 (funext fun a => Fin.ext ?_)))
  have h0 : (j 0).val < 128 := (j 0).isLt
  match a with
  | ⟨0, _⟩ => rfl
  | ⟨1, _⟩ => show (j 0).val % 128 = (j 0).val; omega

/-- An entry of the activation: the sum's entry plus the bias of its column, or zero if that is larger. -/
theorem refAct_apply (s : (⟨S100000x128, .f32⟩ : BufTy).Contents (Elt F)) (b : (⟨S128, .f32⟩ : BufTy).Contents (Elt F)) (i : S100000x128.Idx) :
    refAct (F := F) s b i = FloatOps.maximumf (FloatOps.addf (s i) (b (colOf i))) (FloatOps.ofBits .f32 0x00000000#32) := by
  have e1 : broadcastInDim S100000x128 ![0, 1] bcast_S1x128_S100000x128_0_1 (broadcastInDim S1x128 ![1] bcast_S128_S1x128_1 b) i = b (colOf i) := by
    refine (broadcastInDim_apply _ bcast_S1x128_S100000x128_0_1 _ i (idx_main_v49 i) (fun a => match a with
      | ⟨0, _⟩ => by show 0 = if (1 : Nat) = 1 then 0 else (i 0).val; rw [if_pos rfl]
      | ⟨1, _⟩ => by show (i 1).val = if (128 : Nat) = 1 then 0 else (i 1).val; rw [if_neg (by decide)])).trans ?_
    exact broadcastInDim_apply _ bcast_S128_S1x128_1 b (idx_main_v49 i) (colOf i) (fun a => match a with
      | ⟨0, _⟩ => by show (i 1).val = if (128 : Nat) = 1 then 0 else (i 1).val; rw [if_neg (by decide)])
  have e2 : broadcastInDim S100000x128 ![] bcast_S_S100000x128 (constant S_ .f32 0x00000000#32 : (⟨S_, .f32⟩ : BufTy).Contents (Elt F)) i
      = FloatOps.ofBits .f32 0x00000000#32 :=
    broadcastInDim_apply _ bcast_S_S100000x128 _ i (fun a => a.elim0) (fun a => a.elim0)
  show FloatOps.maximumf (FloatOps.addf (s i) _) _ = _
  rw [e1, e2]

/-- Over the extended reals an entry of the product is the sum of the `128` products along its row and column. -/
theorem refLayerFirst_apply (x : (⟨S100000x128, .f32⟩ : BufTy).Contents (Elt Ideal)) (W : (⟨S128x128, .f32⟩ : BufTy).Contents (Elt Ideal)) (i : S100000x128.Idx) :
    refLayerFirst (F := Ideal) x W i = ∑ k : Fin 128, x (rowAt i k) * W (colAt i k) := by
  unfold refLayerFirst
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = rowAt i k := funext fun a => Fin.ext (by
    match a with
    | ⟨0, _⟩ => exact lhs_main_v32_0 _ _
    | ⟨1, _⟩ => exact (lhs_main_v32_1 _ _).trans hk)
  have er : dot_S100000x128_S128x128_S100000x128_1_0_0_1_n_n.rhsIdx i ((ValueIdx.contrEquiv1 dot_S100000x128_S128x128_S100000x128_1_0_0_1_n_n 128 rfl rfl).symm k) = colAt i k := funext fun a => Fin.ext (by
    match a with
    | ⟨0, _⟩ => exact (rhs_main_v32_0 _ _).trans hk
    | ⟨1, _⟩ => exact rhs_main_v32_1 _ _)
  rw [el, er]

/-- A later layer's entry: the same sum over the activated row. -/
theorem refLayerNext_apply (s : (⟨S100000x128, .f32⟩ : BufTy).Contents (Elt Ideal)) (b : (⟨S128, .f32⟩ : BufTy).Contents (Elt Ideal))
    (W : (⟨S128x128, .f32⟩ : BufTy).Contents (Elt Ideal)) (i : S100000x128.Idx) :
    refLayerNext (F := Ideal) s b W i = ∑ k : Fin 128, refAct (F := Ideal) s b (rowAt i k) * W (colAt i k) :=
  refLayerFirst_apply _ W i

/-- Over the extended reals the head's entry for graph `g` is the sum of the `128` products of the graph's pooled
    row with the weight column, plus the bias. -/
theorem refHead_apply (p : (⟨S512x128, .f32⟩ : BufTy).Contents (Elt Ideal)) (w : (⟨S128x1, .f32⟩ : BufTy).Contents (Elt Ideal))
    (b : (⟨S1, .f32⟩ : BufTy).Contents (Elt Ideal)) (g : S512.Idx) :
    refHead (F := Ideal) p w b g = (∑ k : Fin 128, p (poolAt g k) * w (headAt k)) + b headBias := by
  have hg : (g 0).val < 512 := (g 0).isLt
  unfold refHead
  rw [shapeCast_apply _ shapeCasts_S512x1_S512 g (idx_main_v103 g)
    (by rewrite [Shape.rowMajor_val_two, Shape.rowMajor_val_one]; show ((g 0).val) / 1 * 1 + 0 = (g 0).val; omega)]
  have e1 : broadcastInDim S512x1 ![0, 1] bcast_S1x1_S512x1_0_1 (broadcastInDim S1x1 ![1] bcast_S1_S1x1_1 b) (idx_main_v103 g) = b headBias := by
    refine (broadcastInDim_apply _ bcast_S1x1_S512x1_0_1 _ _ (idx_main_v101 (idx_main_v103 g)) (fun a => match a with
      | ⟨0, _⟩ => by show 0 = if (1 : Nat) = 1 then 0 else _; rw [if_pos rfl]
      | ⟨1, _⟩ => by show 0 = if (1 : Nat) = 1 then 0 else _; rw [if_pos rfl])).trans ?_
    exact broadcastInDim_apply _ bcast_S1_S1x1_1 b _ headBias (fun a => match a with
      | ⟨0, _⟩ => by show 0 = if (1 : Nat) = 1 then 0 else _; rw [if_pos rfl])
  show FloatOps.addf (Host.dotGeneral (F := Ideal) (φ₁ := .f32) (φ₂ := .f32) dot_S512x128_S128x1_S512x1_1_0_0_1_n_n none p w (idx_main_v103 g)) _ = _
  rw [e1, Ideal.addf_def]
  congr 1
  simp only [Host.dotGeneral]
  rw [Ideal.dotGeneral_apply, ← Equiv.sum_comp (ValueIdx.contrEquiv1 dot_S512x128_S128x1_S512x1_1_0_0_1_n_n 128 rfl rfl).symm]
  refine Finset.sum_congr rfl fun k _ => ?_
  have hk := ValueIdx.contrEquiv1_symm_val dot_S512x128_S128x1_S512x1_1_0_0_1_n_n 128 rfl rfl k
  have el : dot_S512x128_S128x1_S512x1_1_0_0_1_n_n.lhsIdx (idx_main_v103 g) ((ValueIdx.contrEquiv1 dot_S512x128_S128x1_S512x1_1_0_0_1_n_n 128 rfl rfl).symm k) = poolAt g k := funext fun a => Fin.ext (by
    match a with
    | ⟨0, _⟩ => exact (lhs_main_v99_0 _ _).trans (Nat.div_one _)
    | ⟨1, _⟩ => exact (lhs_main_v99_1 _ _).trans hk)
  have er : dot_S512x128_S128x1_S512x1_1_0_0_1_n_n.rhsIdx (idx_main_v103 g) ((ValueIdx.contrEquiv1 dot_S512x128_S128x1_S512x1_1_0_0_1_n_n 128 rfl rfl).symm k) = headAt k := funext fun a => Fin.ext (by
    match a with
    | ⟨0, _⟩ => exact (rhs_main_v99_0 _ _).trans hk
    | ⟨1, _⟩ => exact rhs_main_v99_1 _ _)
  rw [el, er]

/-! ## The pooled rows read at an index -/

/-- The row of an entry of the node features, as an index of the column of graph numbers. -/
abbrev rowIdx (j : S100000x128.Idx) : S100000x1.Idx := fun a => match a with
  | ⟨0, _⟩ => ⟨(j 0).val, (j 0).isLt⟩
  | ⟨1, _⟩ => ⟨0, Nat.one_pos⟩

/-- Node `n` as an index of a per-node vector. -/
abbrev nodeIdx (n : Fin 100000) : S100000.Idx := fun a => match a with
  | ⟨0, _⟩ => ⟨n.val, n.isLt⟩

/-- Entry `(n, column of i)` of the node features. -/
abbrev nodeAt (n : Fin 100000) (i : S512x128.Idx) : S100000x128.Idx := fun a => match a with
  | ⟨0, _⟩ => ⟨n.val, n.isLt⟩
  | ⟨1, _⟩ => ⟨(i 1).val, (i 1).isLt⟩

private theorem start0 (j : S100000x128.Idx) (idx : IVec S100000x1 32) :
    scatter_S512x128_S100000x1_S100000x128_1_0_0_1.start j idx 0 = (idx (rowIdx j)).toInt := by
  unfold ScatterDims.start
  rw [dif_pos (by decide)]
  congr 2
  funext b
  match b with
  | ⟨0, _⟩ => rfl
  | ⟨1, _⟩ => rfl

private theorem start1 (j : S100000x128.Idx) (idx : IVec S100000x1 32) : scatter_S512x128_S100000x1_S100000x128_1_0_0_1.start j idx 1 = 0 := by
  unfold ScatterDims.start
  rw [dif_neg (by decide)]

private theorem window0 (j : S100000x128.Idx) : scatter_S512x128_S100000x1_S100000x128_1_0_0_1.window j 0 = 0 := by
  unfold ScatterDims.window
  rw [dif_neg (by decide)]

private theorem window1 (j : S100000x128.Idx) : scatter_S512x128_S100000x1_S100000x128_1_0_0_1.window j 1 = (j 1).val := by
  unfold ScatterDims.window
  rw [dif_pos (by decide)]
  rfl

/-- An update entry lands on entry `i` of the pooled rows exactly when its row's graph number, read as a signed
    word, is `i`'s row and its column is `i`'s column; a graph number outside `0 … 511` lands nowhere. -/
theorem pool_resultIdx_iff (j : S100000x128.Idx) (idx : IVec S100000x1 32) (i : S512x128.Idx) :
    scatter_S512x128_S100000x1_S100000x128_1_0_0_1.resultIdx? j idx = some i ↔ (idx (rowIdx j)).toInt = ((i 0).val : ℤ) ∧ (j 1).val = (i 1).val := by
  have hi0 : (i 0).val < 512 := (i 0).isLt
  have hi1 : (i 1).val < 128 := (i 1).isLt
  have hj1 : (j 1).val < 128 := (j 1).isLt
  have s0 : S512x128.size 0 = 512 := rfl
  have s1 : S512x128.size 1 = 128 := rfl
  unfold ScatterDims.resultIdx?
  split
  · rename_i h
    rw [Option.some.injEq]
    constructor
    · intro e
      have e0 : (scatter_S512x128_S100000x1_S100000x128_1_0_0_1.start j idx 0 + (scatter_S512x128_S100000x1_S100000x128_1_0_0_1.window j 0 : ℤ)).toNat = (i 0).val := congrArg (fun f => (f 0).val) e
      have e1 : (scatter_S512x128_S100000x1_S100000x128_1_0_0_1.start j idx 1 + (scatter_S512x128_S100000x1_S100000x128_1_0_0_1.window j 1 : ℤ)).toNat = (i 1).val := congrArg (fun f => (f 1).val) e
      have h0 := (h 0).1
      rw [start0, window0] at e0 h0
      rw [start1, window1] at e1
      constructor <;> omega
    · rintro ⟨ha, hb⟩
      funext a
      apply Fin.ext
      match a with
      | ⟨0, _⟩ =>
        show (scatter_S512x128_S100000x1_S100000x128_1_0_0_1.start j idx 0 + (scatter_S512x128_S100000x1_S100000x128_1_0_0_1.window j 0 : ℤ)).toNat = (i 0).val
        rw [start0, window0]; omega
      | ⟨1, _⟩ =>
        show (scatter_S512x128_S100000x1_S100000x128_1_0_0_1.start j idx 1 + (scatter_S512x128_S100000x1_S100000x128_1_0_0_1.window j 1 : ℤ)).toNat = (i 1).val
        rw [start1, window1]; omega
  · rename_i h
    constructor
    · intro e; exact absurd e (by simp)
    · rintro ⟨ha, hb⟩
      exfalso; apply h
      intro a
      match a with
      | ⟨0, _⟩ =>
        show 0 ≤ scatter_S512x128_S100000x1_S100000x128_1_0_0_1.start j idx 0 + (scatter_S512x128_S100000x1_S100000x128_1_0_0_1.window j 0 : ℤ) ∧ scatter_S512x128_S100000x1_S100000x128_1_0_0_1.start j idx 0 + (scatter_S512x128_S100000x1_S100000x128_1_0_0_1.window j 0 : ℤ) < ((S512x128.size 0 : ℕ) : ℤ)
        rw [start0, window0, s0]; omega
      | ⟨1, _⟩ =>
        show 0 ≤ scatter_S512x128_S100000x1_S100000x128_1_0_0_1.start j idx 1 + (scatter_S512x128_S100000x1_S100000x128_1_0_0_1.window j 1 : ℤ) ∧ scatter_S512x128_S100000x1_S100000x128_1_0_0_1.start j idx 1 + (scatter_S512x128_S100000x1_S100000x128_1_0_0_1.window j 1 : ℤ) < ((S512x128.size 1 : ℕ) : ℤ)
        rw [start1, window1, s1]; omega

/-- Over the extended reals, entry `(g, k)` of the pooled rows is the sum, over the nodes whose graph number read
    as a signed word is `g`, of entry `k` of the node's row. -/
theorem refPool_apply (h : (⟨S100000x128, .f32⟩ : BufTy).Contents (Elt Ideal)) (batch : (⟨S100000, .i32⟩ : BufTy).Contents (Elt Ideal))
    (i : S512x128.Idx) :
    refPool (F := Ideal) h batch i = ∑ n : Fin 100000, if (batch (nodeIdx n)).toInt = ((i 0).val : ℤ) then h (nodeAt n i) else 0 := by
  have hi1 : (i 1).val < 128 := (i 1).isLt
  have ez : broadcastInDim S512x128 ![] bcast_S_S512x128 (constant (F := Ideal) S_ .f32 0x00000000#32) i = 0 :=
    by
    rw [broadcastInDim_apply _ bcast_S_S512x128 _ i (fun a => a.elim0) (fun a => a.elim0)]
    exact Ideal.ofBits_zero_f32
  have eb : ∀ j : S100000x128.Idx, broadcastInDim S100000x1 ![0] bcast_S100000_S100000x1_0 batch (rowIdx j) = batch (nodeIdx (j 0)) := fun j =>
    broadcastInDim_apply _ bcast_S100000_S100000x1_0 batch (rowIdx j) (nodeIdx (j 0)) (fun a => match a with
      | ⟨0, _⟩ => by show (j 0).val = if (100000 : Nat) = 1 then 0 else (j 0).val; rw [if_neg (by decide)])
  unfold refPool
  show Ideal.hostScatterAdd scatter_S512x128_S100000x1_S100000x128_1_0_0_1 _ _ h i = _
  unfold Ideal.hostScatterAdd
  rw [ez, zero_add, Finset.sum_filter, ValueIdx.sum_idx2]
  refine Finset.sum_congr rfl fun n _ => ?_
  have key : ∀ b : Fin 128, scatter_S512x128_S100000x1_S100000x128_1_0_0_1.resultIdx? (ValueIdx.ix2 n b) (broadcastInDim S100000x1 ![0] bcast_S100000_S100000x1_0 batch) = some i
      ↔ ((batch (nodeIdx n)).toInt = ((i 0).val : ℤ) ∧ b.val = (i 1).val) := fun b => by
    rw [pool_resultIdx_iff, eb]
  by_cases hA : (batch (nodeIdx n)).toInt = ((i 0).val : ℤ)
  · rw [if_pos hA, Finset.sum_eq_single (⟨(i 1).val, hi1⟩ : Fin 128)]
    · rw [if_pos ((key ⟨(i 1).val, hi1⟩).2 ⟨hA, rfl⟩)]
      exact congrArg h (funext fun a => match a with
        | ⟨0, _⟩ => rfl
        | ⟨1, _⟩ => rfl)
    · intro b _ hb
      rw [if_neg]
      intro hc
      exact hb (Fin.ext ((key b).1 hc).2)
    · intro hn
      exact absurd (Finset.mem_univ _) hn
  · rw [if_neg hA]
    refine Finset.sum_eq_zero fun b _ => ?_
    rw [if_neg]
    intro hc
    exact hA ((key b).1 hc).1

/-- Entry `(n, k)` of the node features. -/
abbrev featAt (n : Fin 100000) (k : Fin 128) : S100000x128.Idx := fun a => match a with
  | ⟨0, _⟩ => ⟨n.val, n.isLt⟩
  | ⟨1, _⟩ => ⟨k.val, k.isLt⟩

/-- Entry `k` of a bias vector. -/
abbrev biasAt (k : Fin 128) : S128.Idx := fun a => match a with
  | ⟨0, _⟩ => ⟨k.val, k.isLt⟩

/-- The tail of the computation at an index, over the extended reals: for graph `g`, the head's weighted sum over the
    `128` columns of the sum, over the graph's nodes, of the positive part of the node's entry plus the column's bias,
    plus the head's bias. -/
theorem refTail_apply (s : (⟨S100000x128, .f32⟩ : BufTy).Contents (Elt Ideal)) (b : (⟨S128, .f32⟩ : BufTy).Contents (Elt Ideal))
    (batch : (⟨S100000, .i32⟩ : BufTy).Contents (Elt Ideal)) (w : (⟨S128x1, .f32⟩ : BufTy).Contents (Elt Ideal))
    (hb : (⟨S1, .f32⟩ : BufTy).Contents (Elt Ideal)) (g : S512.Idx) :
    refHead (F := Ideal) (refPool (refAct s b) batch) w hb g
      = (∑ k : Fin 128, (∑ n : Fin 100000, if (batch (nodeIdx n)).toInt = ((g 0).val : ℤ)
            then max (s (featAt n k) + b (biasAt k)) 0 else 0) * w (headAt k))
        + hb headBias := by
  have e1 : ∀ n : Fin 100000, ∀ k : Fin 128, nodeAt n (poolAt g k) = featAt n k := fun n k => funext fun a => match a with
    | ⟨0, _⟩ => rfl
    | ⟨1, _⟩ => rfl
  have e2 : ∀ n : Fin 100000, ∀ k : Fin 128, colOf (featAt n k) = biasAt k := fun n k => funext fun a => match a with
    | ⟨0, _⟩ => rfl
  refine (refHead_apply _ w hb g).trans ?_
  refine congrArg (fun t => t + hb headBias) (Finset.sum_congr rfl fun k _ => ?_)
  refine congrArg (fun t => t * w (headAt k)) ?_
  refine (refPool_apply _ batch (poolAt g k)).trans (Finset.sum_congr rfl fun n _ => ?_)
  rw [e1, refAct_apply, e2, Ideal.maximumf_def, Ideal.addf_def, Ideal.ofBits_def, Ideal.ofBits_zero_f32]

end Cert.ReferenceIdeal.RefValue

end
-- ==== Proof.Val.Main.lean ====
import proofs.«414673_j4638564679932_1_alg».proof.Proof.KI.Fold
import Idealize.ShloMosaic.Lib.StableHlo.Run

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

variable {F : FTy → Type} [FloatOps F]

local notation "Arr[" s ", " e "]" => BufTy.Contents (Elt F) (BufTy.mk s e)

/-! # The program's result as one function of its seven arguments

A three-layer graph convolution with a pooled linear head, over `N = 100000` nodes, `E = 1600000` edges and
one self loop per node (`E + N = 1700000` messages). Between the four kernel regions the program computes,
with host operations:

* `kerSrc`, `kerDst`: a row of the edge list followed by `0, 1, …, N - 1`;
* `kerDeg`: the number of messages arriving at each node; `kerDinv`: its inverse square root where it is
  positive and zero elsewhere; `kerNorm`: per message, the product of `kerDinv` at its two ends;
* `kerAgg h`: per node, the sum over the messages arriving there of the source's row of `h` times the
  message's weight — the same function of `h` after each of the three layer kernels;
* `kerW0/1/2`, `kerBrow0/1/2`: a layer's weight matrix and its bias as a one-row matrix;
* `kerBatchCol`: the graph number of each node, as a column; `kerHeadB`: the head's bias as a 1×1 matrix. -/

/-- The sources of the messages: row `0` of the edge list, then every node once. -/
def kerSrc (x1 : Arr[S2x1600000, .i32]) : Arr[S1700000, .i32] :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- The destinations of the messages: row `1` of the edge list, then every node once. -/
def kerDst (x1 : Arr[S2x1600000, .i32]) : Arr[S1700000, .i32] :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- A node number counted from the end when negative: `v + N` where `v < 0`, else `v`. -/
def kerWrap (v : Arr[S1700000, .i32]) : Arr[S1700000, .i32] :=
  select (cmpi .slt v (broadcastInDim S1700000 ![] bcast_S_S1700000 (constantI S_ 32 0#32)))
    (addi v (broadcastInDim S1700000 ![] bcast_S_S1700000 (constantI S_ 32 100000#32))) v

/-- A list of node numbers as a column of index vectors of length one. -/
def kerCol (v : Arr[S1700000, .i32]) : Arr[S1700000x1, .i32] :=
  broadcastInDim S1700000x1 ![0] bcast_S1700000_S1700000x1_0 v

/-- Per node, the number of messages arriving (a one added per message at its destination). -/
def kerDeg (x1 : Arr[S2x1600000, .i32]) : Arr[S100000, .f32] :=
  Host.scatterAdd scatter_S100000_S1700000x1_S1700000_n_0_0_1
    (broadcastInDim S100000 ![] bcast_S_S100000 (constant S_ .f32 0x00000000#32))
    (kerCol (kerDst x1))
    (broadcastInDim S1700000 ![] bcast_S_S1700000 (constant S_ .f32 0x3F800000#32))

/-- Per node, `1 / sqrt (kerDeg)` where the degree is positive, and zero elsewhere. -/
def kerDinv (x1 : Arr[S2x1600000, .i32]) : Arr[S100000, .f32] :=
  select (cmpf (F := F) .ogt (kerDeg x1) (broadcastInDim S100000 ![] bcast_S_S100000 (constant S_ .f32 0x00000000#32)))
    (Host.rsqrt (kerDeg x1))
    (broadcastInDim S100000 ![] bcast_S_S100000 (id (constant S_ .f32 0x00000000#32)))

/-- Per message, `kerDinv` at its source times `kerDinv` at its destination. -/
def kerNorm (x1 : Arr[S2x1600000, .i32]) : Arr[S1700000, .f32] :=
  mulf (Host.gather gather_S100000_S1700000x1_S1700000_n_0_n_n_0_1_1 (kerDinv x1) (kerCol (kerWrap (kerSrc x1))))
    (Host.gather gather_S100000_S1700000x1_S1700000_n_0_n_n_0_1_1 (kerDinv x1) (kerCol (kerWrap (kerDst x1))))

/-- One round of message passing from given sources, destinations and weights: per node, the sum over the
    messages arriving there of the source's row of `h` scaled by the message's weight. -/
def kerAggOf (src dst : Arr[S1700000, .i32]) (nrm : Arr[S1700000, .f32]) (h : Arr[S100000x128, .f32]) : Arr[S100000x128, .f32] :=
  Host.scatterAdd scatter_S100000x128_S1700000x1_S1700000x128_1_0_0_1
    (broadcastInDim S100000x128 ![] bcast_S_S100000x128 (constant S_ .f32 0x00000000#32))
    (kerCol dst)
    (mulf (Host.gather gather_S100000x128_S1700000x1_S1700000x128_1_0_n_n_0_1_1128 h (kerCol (kerWrap src)))
      (broadcastInDim S1700000x128 ![0, 1] bcast_S1700000x1_S1700000x128_0_1
        (broadcastInDim S1700000x1 ![0] bcast_S1700000_S1700000x1_0 nrm)))

/-- One round of message passing along the edge list `x1`. -/
def kerAgg (x1 : Arr[S2x1600000, .i32]) (h : Arr[S100000x128, .f32]) : Arr[S100000x128, .f32] :=
  kerAggOf (kerSrc x1) (kerDst x1) (kerNorm x1) h

/-- Layer `0`'s weight matrix. -/
def kerW0 (x3 : Arr[S3x128x128, .f32]) : Arr[S128x128, .f32] :=
  shapeCast _ (extractStridedSlice S1x128x128 ![0, 0, 0] x3 slices_S3x128x128_S1x128x128_0_0_0) shapeCasts_S1x128x128_S128x128
/-- Layer `1`'s weight matrix. -/
def kerW1 (x3 : Arr[S3x128x128, .f32]) : Arr[S128x128, .f32] :=
  shapeCast _ (extractStridedSlice S1x128x128 ![1, 0, 0] x3 slices_S3x128x128_S1x128x128_1_0_0) shapeCasts_S1x128x128_S128x128
/-- Layer `2`'s weight matrix. -/
def kerW2 (x3 : Arr[S3x128x128, .f32]) : Arr[S128x128, .f32] :=
  shapeCast _ (extractStridedSlice S1x128x128 ![2, 0, 0] x3 slices_S3x128x128_S1x128x128_2_0_0) shapeCasts_S1x128x128_S128x128

/-- Layer `0`'s bias vector … -/
def kerB0 (x4 : Arr[S3x128, .f32]) : Arr[S128, .f32] :=
  shapeCast _ (extractStridedSlice S1x128 ![0, 0] x4 slices_S3x128_S1x128_0_0) shapeCasts_S1x128_S128
/-- … and as the one-row matrix the next kernel reads. -/
def kerBrow0 (x4 : Arr[S3x128, .f32]) : Arr[S1x128, .f32] := shapeCast _ (kerB0 x4) shapeCasts_S128_S1x128
/-- Layer `1`'s bias vector … -/
def kerB1 (x4 : Arr[S3x128, .f32]) : Arr[S128, .f32] :=
  shapeCast _ (extractStridedSlice S1x128 ![1, 0] x4 slices_S3x128_S1x128_1_0) shapeCasts_S1x128_S128
/-- … and as a one-row matrix. -/
def kerBrow1 (x4 : Arr[S3x128, .f32]) : Arr[S1x128, .f32] := shapeCast _ (kerB1 x4) shapeCasts_S128_S1x128
/-- Layer `2`'s bias vector … -/
def kerB2 (x4 : Arr[S3x128, .f32]) : Arr[S128, .f32] :=
  shapeCast _ (extractStridedSlice S1x128 ![2, 0] x4 slices_S3x128_S1x128_2_0) shapeCasts_S1x128_S128
/-- … and as a one-row matrix. -/
def kerBrow2 (x4 : Arr[S3x128, .f32]) : Arr[S1x128, .f32] := shapeCast _ (kerB2 x4) shapeCasts_S128_S1x128

/-- Each node's graph number, as a column. -/
def kerBatchCol (x2 : Arr[S100000, .i32]) : Arr[S100000x1, .i32] := shapeCast _ x2 shapeCasts_S100000_S100000x1
/-- The head's bias as a 1×1 matrix. -/
def kerHeadB (x6 : Arr[S1, .f32]) : Arr[S1x1, .f32] := shapeCast _ x6 shapeCasts_S1_S1x1

/-- Reads what is left of a host stretch's results inside the operand list of a concatenation: each
    operation's result at its own buffer is its function's value, at another buffer what was there. -/
local macro "results_in_lists" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide))))

variable (m : (ℓ : Loc nD τ sig) → Buf (Elt F) ℓ) (ρ : Dev nD → PrngReg)

/-! ## What the host stretches leave: the buffers that are written once and read by every later stretch

The edge data (sources, destinations, weights) are computed before the first kernel region, and no later stretch
or region writes them or an argument: each is carried unchanged to every later boundary. -/

theorem W0_eq (c : Dev nD) (b : Ref sig .tc) : W0 m ρ c b = m ((c : Thread nD τ).loc b) := rfl

/-- A buffer that the first three stretches do not write holds its launch contents when region 0 is entered. -/
theorem W3_launch (c : Dev nD) (b : Ref sig .tc) (h0 : b ∉ hostOps0_W) (h1 : b ∉ hostOps0_1_W) (h2 : b ∉ hostOps0_2_W) :
    W3 m ρ c b = m ((c : Thread nD τ).loc b) :=
  (W3_keep m ρ c b h2).trans ((W2_keep m ρ c b h1).trans (W1_keep m ρ c b h0))

/-- A buffer that neither region 0 nor the stretch after it writes is, when region 1 is entered, as when region 0 was. -/
theorem W5_back (c : Dev nD) (b : Ref sig .tc) (h34 : b ≠ main_v34) (h1 : b ∉ hostOps1_W) : W5 m ρ c b = W3 m ρ c b :=
  (W5_keep m ρ c b h1).trans (W4_keep m ρ c b h34)
theorem W6_back (c : Dev nD) (b : Ref sig .tc) (h34 : b ≠ main_v34) (h1 : b ∉ hostOps1_W) (h53 : b ≠ main_v53) :
    W6 m ρ c b = W3 m ρ c b :=
  (W6_keep m ρ c b h53).trans (W5_back m ρ c b h34 h1)
/-- The same up to region 2's entry. -/
theorem W7_back (c : Dev nD) (b : Ref sig .tc) (h34 : b ≠ main_v34) (h1 : b ∉ hostOps1_W) (h53 : b ≠ main_v53) (h2 : b ∉ hostOps2_W) :
    W7 m ρ c b = W3 m ρ c b :=
  (W7_keep m ρ c b h2).trans (W6_back m ρ c b h34 h1 h53)
theorem W8_back (c : Dev nD) (b : Ref sig .tc) (h34 : b ≠ main_v34) (h1 : b ∉ hostOps1_W) (h53 : b ≠ main_v53) (h2 : b ∉ hostOps2_W)
    (h72 : b ≠ main_v72) : W8 m ρ c b = W3 m ρ c b :=
  (W8_keep m ρ c b h72).trans (W7_back m ρ c b h34 h1 h53 h2)
/-- The same up to region 3's entry. -/
theorem W9_back (c : Dev nD) (b : Ref sig .tc) (h34 : b ≠ main_v34) (h1 : b ∉ hostOps1_W) (h53 : b ≠ main_v53) (h2 : b ∉ hostOps2_W)
    (h72 : b ≠ main_v72) (h3 : b ∉ hostOps3_W) : W9 m ρ c b = W3 m ρ c b :=
  (W9_keep m ρ c b h3).trans (W8_back m ρ c b h34 h1 h53 h2 h72)

/-! ## The first host stretches: the edge data and layer 0's weights -/

theorem W3_v3 (c : Dev nD) : W3 m ρ c main_v3 = kerSrc (m ((c : Thread nD τ).loc main_arg1)) := by
  rw [W3_keep m ρ c main_v3 (by decide), W2_keep m ρ c main_v3 (by decide)]
  show StableHlo.after hostOps0 _ (Proc.devRef .tc main_v3) = _
  after_results
  rfl

theorem W3_v6 (c : Dev nD) : W3 m ρ c main_v6 = kerDst (m ((c : Thread nD τ).loc main_arg1)) := by
  rw [W3_keep m ρ c main_v6 (by decide), W2_keep m ρ c main_v6 (by decide)]
  show StableHlo.after hostOps0 _ (Proc.devRef .tc main_v6) = _
  after_results
  rfl

theorem W3_v29 (c : Dev nD) : W3 m ρ c main_v29 = kerNorm (m ((c : Thread nD τ).loc main_arg1)) := by
  show StableHlo.after hostOps0_2 _ (Proc.devRef .tc main_v29) = _
  after_results_simp
  results_in_lists
  simp only [StableHlo.TRef.ofBuf, StableHlo.TRef.toBuf, cast_eq]
  rfl

theorem W3_v32 (c : Dev nD) : W3 m ρ c main_v32 = kerW0 (m ((c : Thread nD τ).loc main_arg3)) := by
  show StableHlo.after hostOps0_2 _ (Proc.devRef .tc main_v32) = _
  after_results_simp
  rfl

/-! ## What each region is entered with

Region 0 reads the node features and layer 0's weights. Each later region reads the aggregate of the previous
region's output array, the next layer's weights and the previous layer's bias row; region 3 also reads the graph
numbers, the head's weights and its bias. -/

theorem B3_arg0 (c : Dev nD) : B3 m ρ c main_arg0 = m ((c : Thread nD τ).loc main_arg0) :=
  W3_launch m ρ c main_arg0 (by decide) (by decide) (by decide)

theorem B3_v32 (c : Dev nD) : B3 m ρ c main_v32 = kerW0 (m ((c : Thread nD τ).loc main_arg3)) := W3_v32 m ρ c

/-- The aggregate a stretch computes, over the edge data as that stretch finds them. -/
theorem W5_v47_of (c : Dev nD) : W5 m ρ c main_v47
    = kerAggOf (W4 m ρ c main_v3) (W4 m ρ c main_v6) (W4 m ρ c main_v29) (W4 m ρ c main_v34) := by
  show StableHlo.after hostOps1 _ (Proc.devRef .tc main_v47) = _
  after_results_simp
  rfl

theorem B5_v47 (c : Dev nD) : B5 m ρ c main_v47
    = kerAgg (m ((c : Thread nD τ).loc main_arg1)) ((dat0 (B3 m ρ) c).arrAt 3 cfg0.N) := by
  have h34 : W4 m ρ c main_v34 = (dat0 (B3 m ρ) c).arrAt 3 cfg0.N := W4_arr m ρ c 3
  show W5 m ρ c main_v47 = _
  rw [W5_v47_of, h34, W4_keep m ρ c main_v3 (by decide), W4_keep m ρ c main_v6 (by decide), W4_keep m ρ c main_v29 (by decide),
    W3_v3, W3_v6, W3_v29]
  rfl

theorem B5_v51 (c : Dev nD) : B5 m ρ c main_v51 = kerW1 (m ((c : Thread nD τ).loc main_arg3)) := by
  have e : W5 m ρ c main_v51 = kerW1 (W4 m ρ c main_arg3) := by
    show StableHlo.after hostOps1 _ (Proc.devRef .tc main_v51) = _
    after_results_simp
    rfl
  show W5 m ρ c main_v51 = _
  rw [e, W4_keep m ρ c main_arg3 (by decide), W3_launch m ρ c main_arg3 (by decide) (by decide) (by decide)]

theorem B5_v52 (c : Dev nD) : B5 m ρ c main_v52 = kerBrow0 (m ((c : Thread nD τ).loc main_arg4)) := by
  have e : W5 m ρ c main_v52 = kerBrow0 (W4 m ρ c main_arg4) := by
    show StableHlo.after hostOps1 _ (Proc.devRef .tc main_v52) = _
    after_results_simp
    rfl
  show W5 m ρ c main_v52 = _
  rw [e, W4_keep m ρ c main_arg4 (by decide), W3_launch m ρ c main_arg4 (by decide) (by decide) (by decide)]

theorem W7_v66_of (c : Dev nD) : W7 m ρ c main_v66
    = kerAggOf (W6 m ρ c main_v3) (W6 m ρ c main_v6) (W6 m ρ c main_v29) (W6 m ρ c main_v53) := by
  show StableHlo.after hostOps2 _ (Proc.devRef .tc main_v66) = _
  after_results_simp
  rfl

theorem B7_v66 (c : Dev nD) : B7 m ρ c main_v66
    = kerAgg (m ((c : Thread nD τ).loc main_arg1)) ((dat1 (B5 m ρ) c).arrAt 3 cfg1.N) := by
  have h53 : W6 m ρ c main_v53 = (dat1 (B5 m ρ) c).arrAt 3 cfg1.N := W6_arr m ρ c 3
  show W7 m ρ c main_v66 = _
  rw [W7_v66_of, h53, W6_back m ρ c main_v3 (by decide) (by decide) (by decide),
    W6_back m ρ c main_v6 (by decide) (by decide) (by decide), W6_back m ρ c main_v29 (by decide) (by decide) (by decide),
    W3_v3, W3_v6, W3_v29]
  rfl

theorem B7_v70 (c : Dev nD) : B7 m ρ c main_v70 = kerW2 (m ((c : Thread nD τ).loc main_arg3)) := by
  have e : W7 m ρ c main_v70 = kerW2 (W6 m ρ c main_arg3) := by
    show StableHlo.after hostOps2 _ (Proc.devRef .tc main_v70) = _
    after_results_simp
    rfl
  show W7 m ρ c main_v70 = _
  rw [e, W6_back m ρ c main_arg3 (by decide) (by decide) (by decide), W3_launch m ρ c main_arg3 (by decide) (by decide) (by decide)]

theorem B7_v71 (c : Dev nD) : B7 m ρ c main_v71 = kerBrow1 (m ((c : Thread nD τ).loc main_arg4)) := by
  have e : W7 m ρ c main_v71 = kerBrow1 (W6 m ρ c main_arg4) := by
    show StableHlo.after hostOps2 _ (Proc.devRef .tc main_v71) = _
    after_results_simp
    rfl
  show W7 m ρ c main_v71 = _
  rw [e, W6_back m ρ c main_arg4 (by decide) (by decide) (by decide), W3_launch m ρ c main_arg4 (by decide) (by decide) (by decide)]

theorem W9_v85_of (c : Dev nD) : W9 m ρ c main_v85
    = kerAggOf (W8 m ρ c main_v3) (W8 m ρ c main_v6) (W8 m ρ c main_v29) (W8 m ρ c main_v72) := by
  show StableHlo.after hostOps3 _ (Proc.devRef .tc main_v85) = _
  after_results_simp
  rfl

theorem B9_v85 (c : Dev nD) : B9 m ρ c main_v85
    = kerAgg (m ((c : Thread nD τ).loc main_arg1)) ((dat2 (B7 m ρ) c).arrAt 3 cfg2.N) := by
  have h72 : W8 m ρ c main_v72 = (dat2 (B7 m ρ) c).arrAt 3 cfg2.N := W8_arr m ρ c 3
  show W9 m ρ c main_v85 = _
  rw [W9_v85_of, h72, W8_back m ρ c main_v3 (by decide) (by decide) (by decide) (by decide) (by decide),
    W8_back m ρ c main_v6 (by decide) (by decide) (by decide) (by decide) (by decide),
    W8_back m ρ c main_v29 (by decide) (by decide) (by decide) (by decide) (by decide),
    W3_v3, W3_v6, W3_v29]
  rfl

theorem B9_v88 (c : Dev nD) : B9 m ρ c main_v88 = kerBrow2 (m ((c : Thread nD τ).loc main_arg4)) := by
  have e : W9 m ρ c main_v88 = kerBrow2 (W8 m ρ c main_arg4) := by
    show StableHlo.after hostOps3 _ (Proc.devRef .tc main_v88) = _
    after_results_simp
    rfl
  show W9 m ρ c main_v88 = _
  rw [e, W8_back m ρ c main_arg4 (by decide) (by decide) (by decide) (by decide) (by decide),
    W3_launch m ρ c main_arg4 (by decide) (by decide) (by decide)]

theorem B9_v89 (c : Dev nD) : B9 m ρ c main_v89 = kerBatchCol (m ((c : Thread nD τ).loc main_arg2)) := by
  have e : W9 m ρ c main_v89 = kerBatchCol (W8 m ρ c main_arg2) := by
    show StableHlo.after hostOps3 _ (Proc.devRef .tc main_v89) = _
    after_results_simp
    rfl
  show W9 m ρ c main_v89 = _
  rw [e, W8_back m ρ c main_arg2 (by decide) (by decide) (by decide) (by decide) (by decide),
    W3_launch m ρ c main_arg2 (by decide) (by decide) (by decide)]

theorem B9_v90 (c : Dev nD) : B9 m ρ c main_v90 = kerHeadB (m ((c : Thread nD τ).loc main_arg6)) := by
  have e : W9 m ρ c main_v90 = kerHeadB (W8 m ρ c main_arg6) := by
    show StableHlo.after hostOps3 _ (Proc.devRef .tc main_v90) = _
    after_results_simp
    rfl
  show W9 m ρ c main_v90 = _
  rw [e, W8_back m ρ c main_arg6 (by decide) (by decide) (by decide) (by decide) (by decide),
    W3_launch m ρ c main_arg6 (by decide) (by decide) (by decide)]

theorem B9_arg5 (c : Dev nD) : B9 m ρ c main_arg5 = m ((c : Thread nD τ).loc main_arg5) :=
  (W9_back m ρ c main_arg5 (by decide) (by decide) (by decide) (by decide) (by decide) (by decide)).trans
    (W3_launch m ρ c main_arg5 (by decide) (by decide) (by decide))

end Cert.KernelIdeal.Val
end
-- ==== Proof.Val.L0.lean ====
import proofs.«414673_j4638564679932_1_alg».proof.Proof.KI.R0
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

/-- The first layer's dense product: row `i 0` of the activations against column `i 1` of the weights. -/
def layer0 (x : Vec Ideal S100000x128 .f32) (w : Vec Ideal S128x128 .f32) : Vec Ideal S100000x128 .f32 :=
  fun i => ∑ k : Fin 128, x (ix2 (i 0) k) * w (ix2 k (i 1))

/-! ## The block product at an index -/

/-- The contraction record of a 10000 × 128 block against the 128 × 128 weights. -/
abbrev dotL0 := dot_S10000x128_S128x128_S10000x128_1_0_0_1_n_n

/-- Left operand, row axis: a free axis, it takes the output's row. -/
theorem lhs_dotL0_0 (i : S10000x128.Idx) (q : dotL0.contr.Idx) : (dotL0.lhsIdx i q 0).val = (i 0).val := by
  unfold DotDims.lhsIdx
  rw [dif_neg (show ¬(0 : Fin S10000x128.rank) ∈ dotL0.lhsBatch by decide), dif_pos (show (0 : Fin S10000x128.rank) ∈ dotL0.lhsNonContracting by decide)]
  rfl
/-- Left operand, column axis: the contracted one. -/
theorem lhs_dotL0_1 (i : S10000x128.Idx) (q : dotL0.contr.Idx) : (dotL0.lhsIdx i q 1).val = (q ⟨0, by decide⟩).val :=
  dotL0.lhsIdx_val_of_single rfl i q
/-- Right operand, row axis: the contracted one. -/
theorem rhs_dotL0_0 (i : S10000x128.Idx) (q : dotL0.contr.Idx) : (dotL0.rhsIdx i q 0).val = (q ⟨0, by decide⟩).val :=
  dotL0.rhsIdx_val_of_single rfl i q
/-- Right operand, column axis: a free axis, it takes the output's column. -/
theorem rhs_dotL0_1 (i : S10000x128.Idx) (q : dotL0.contr.Idx) : (dotL0.rhsIdx i q 1).val = (i 1).val := by
  unfold DotDims.rhsIdx
  rw [dif_neg (show ¬(1 : Fin S128x128.rank) ∈ dotL0.rhsBatch by decide), dif_pos (show (1 : Fin S128x128.rank) ∈ dotL0.rhsNonContracting by decide)]
  rfl

/-- With exact arithmetic the narrowing casts do nothing and the accumulator starts at zero, so the body's payload
    at row `p`, column `q` of the block is the inner product of row `p` of the staged rows with column `q` of the
    staged weights. -/
theorem k0_pay1_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  rw [shapeCast_self]
  refine (Ideal.matmul_constant_zero_apply dotL0 none _ _ (ix2 p q)).trans ?_
  rw [← Equiv.sum_comp (contrEquiv1 dotL0 128 rfl rfl).symm]
  refine Finset.sum_congr rfl fun k _ => ?_
  have hk := contrEquiv1_symm_val dotL0 128 rfl rfl k
  have el : dotL0.lhsIdx (ix2 p q) ((contrEquiv1 dotL0 128 rfl rfl).symm k) = ix2 p k := funext fun a => Fin.ext (by
    match a with
    | ⟨0, _⟩ => exact lhs_dotL0_0 _ _
    | ⟨1, _⟩ => exact (lhs_dotL0_1 _ _).trans hk)
  have er : dotL0.rhsIdx (ix2 p q) ((contrEquiv1 dotL0 128 rfl rfl).symm k) = ix2 k q := funext fun a => Fin.ext (by
    match a with
    | ⟨0, _⟩ => exact (rhs_dotL0_0 _ _).trans hk
    | ⟨1, _⟩ => exact rhs_dotL0_1 _ _)
  rw [el, er]
  rfl

/-! ## From the ten blocks to the whole array -/

variable (V : (c : Dev nD) → (b : Ref sig .tc) → Buf (Elt Ideal) ((c : Thread nD τ).loc b))

theorem zero_offsets0 : (![0, 0] : Fin 2 → Nat) = fun _ => 0 := funext fun a => by fin_cases a <;> rfl

/-- The index maps over the grid: at point `t` the activation and output windows sit at row block `t`, column
    block `0`; the weight window sits at block `(0, 0)` throughout. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- What point `t` writes back is block `t` of the dense product of the entry activations and weights. -/
theorem flushed0_3_eq (c : Dev nD) (t : Fin cfg0.N) :
    (dat0 (F := Ideal) V c).flushed 3 t = ((cfg0.win 3).blk t).view.read (Elt Ideal) (layer0 (V c main_arg0) (V c main_v32)) := by
  show (cfg0.win 3).cut (grid0.coords t) ((dat0 V c).after 3 t) = _
  rw [after0_3]
  unfold out0_3
  rw [View.canon_unit_zero zero_offsets0]
  simp only [View.ld_unit_zero (S := S10000x128) zero_offsets0, View.ld_unit_zero (S := S128x128) zero_offsets0]
  obtain ⟨e0, e1, e2, e3, e4, e5⟩ := idx_facts0 t
  funext j
  show k0_pay1 (F := Ideal) (iblk0 V c 0 t) (iblk0 V c 1 t) j
    = layer0 (V c main_arg0) (V c main_v32) (((cfg0.win 3).blk t).view.emb j)
  obtain ⟨p, q, rfl⟩ : ∃ (p : Fin 10000) (q : Fin 128), j = ix2 p q := ⟨j 0, j 1, eq_ix2 j⟩
  rw [k0_pay1_apply]
  unfold layer0
  refine Finset.sum_congr rfl fun k _ => ?_
  -- row `p` of block `t` is row `10000 t + p` of the array; the weights' block is the whole matrix
  have hx : ((cfg0.win 0).blk t).view.emb (ix2 p k) = ix2 ((((cfg0.win 3).blk t).view.emb (ix2 p q)) 0) k := by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have hw : ((cfg0.win 1).blk t).view.emb (ix2 k q) = ix2 k ((((cfg0.win 3).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have hx' : iblk0 V c 0 t (ix2 p k)
      = (V c main_arg0 : Vec Ideal S100000x128 .f32) (ix2 ((((cfg0.win 3).blk t).view.emb (ix2 p q)) 0) k) :=
    congrArg (V c main_arg0) hx
  have hw' : iblk0 V c 1 t (ix2 k q)
      = (V c main_v32 : Vec Ideal S128x128 .f32) (ix2 k ((((cfg0.win 3).blk t).view.emb (ix2 p q)) 1)) :=
    congrArg (V c main_v32) hw
  rw [hx', hw']

/-- An index of the output array lies in point `t`'s block exactly when each coordinate lies in the block's range. -/
theorem mem_blk0_3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v34).slice (win0_3.rect t)).set ↔ _
  rw [View.set_slice_whole, Rect.mem_set_unit]
  exact Iff.rfl

/-- The ten blocks tile the array: row `r` lies in the block of point `r / 10000`, which is written back. -/
theorem covered0_3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 10000 := ⟨⟨(i 0).val / 10000, by rw [show cfg0.N = 10 from N_0]; omega⟩, rfl⟩
  obtain ⟨e0, e1, e2, e3, e4, e5⟩ := idx_facts0 t
  refine ⟨t, flush0_3 t, ?_⟩
  rw [mem_blk0_3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- After the ten points the output array is the dense product of the entry activations and the entry weights. -/
theorem arr0_eq (c : Dev nD) : (dat0 (F := Ideal) V c).arrAt 3 cfg0.N = layer0 (V c main_arg0) (V c main_v32) :=
  (dat0 (F := Ideal) V c).arrAt_eq_of_cover 3 (layer0 (V c main_arg0) (V c main_v32)) (fun t _ => flushed0_3_eq V c t) covered0_3

end Cert.KernelIdeal.Val
end
-- ==== Proof.Val.L1.lean ====
import proofs.«414673_j4638564679932_1_alg».proof.Proof.KI.R1
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand
open scoped BigOperators

/-! # The value of the bias, rectifier and matrix-product kernel over the extended reals

    With exact arithmetic the narrowing casts are the identity and the matrix unit's product into a
    zero accumulator is a plain sum of products, so the kernel's output array is, entry by entry,
    `∑ k, max (s[r,k] + b[0,k]) 0 · w[k,c]`. -/

/-- The layer as one function of the three arrays: row `r`, column `c` of the result is the sum over
    the 128 features `k` of `max (s[r,k] + b[0,k]) 0` times `w[k,c]`. The zero is kept as the word the
    kernel compares against. -/
def layer1 (s : Vec Ideal S100000x128 .f32) (w : Vec Ideal S128x128 .f32) (b : Vec Ideal S1x128 .f32) : Vec Ideal S100000x128 .f32 :=
  fun i => ∑ k : Fin 128, max (s (ix2 (i 0 : Fin 100000) k) + b (ix2 (0 : Fin 1) k)) (Ideal.ofBits .f32 0x00000000#32) * w (ix2 k (i 1 : Fin 128))

/-! ## The block product at an entry -/

theorem hz1 : (![0, 0] : Fin 2 → Nat) = fun _ => 0 := funext fun a => by fin_cases a <;> rfl

/-- In the product of a [10000,128] block by a [128,128] matrix, the left factor of entry `(r, c)` at
    contraction index `k` sits at row `r` … -/
theorem lhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and column `k`; -/
theorem lhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right factor sits at row `k` … -/
theorem rhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and column `c`. -/
theorem rhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry `(p, q)` of the block, from the three buffers it read (activations
    `x0`, bias `x2`, weight `x9`): the sum over `k` of `max (x0[p,k] + x2[0,k]) 0 · x9[k,q]`. The casts to the
    same shape and the narrowing casts drop out, the bias row is repeated down the rows, and the product
    into the zero accumulator is the bare sum, re-indexed from the one-axis contraction index to `k < 128`. -/
theorem layer1_pay_apply (x0 : Vec Ideal S10000x128 .f32) (x2 : Vec Ideal S1x128 .f32) (x9 : Vec Ideal S128x128 .f32) (p : Fin 10000) (q : Fin 128) :
    k1_pay1 (F := Ideal) x0 x2 x9 (ix2 p q)
      = ∑ k : Fin 128, max (x0 (ix2 p k) + x2 (ix2 (0 : Fin 1) k)) (Ideal.ofBits .f32 0x00000000#32) * x9 (ix2 k q) := by
  unfold k1_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs1_0 _ _
    | ⟨1, _⟩ => exact (lhs1_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs1_0 _ _).trans hk
    | ⟨1, _⟩ => exact rhs1_1 _ _)
  rw [el, er]
  simp only [shapeCast_self]
  have eb : broadcastTo S10000x128 x2 broadcasts_S1x128_S10000x128 (ix2 p k) = x2 (ix2 (0 : Fin 1) k) :=
    broadcastTo_apply x2 broadcasts_S1x128_S10000x128 (ix2 p k) (ix2 (0 : Fin 1) k) (by
      intro a
      match a with
      | ⟨0, _⟩ => rfl
      | ⟨1, _⟩ => rfl)
  show max (x0 (ix2 p k) + broadcastTo S10000x128 x2 broadcasts_S1x128_S10000x128 (ix2 p k)) (Ideal.ofBits .f32 0x00000000#32) * x9 (ix2 k q) = _
  rw [eb]

/-! ## From the blocks to the array -/

variable (V : (c : Dev nD) → (b : Ref sig .tc) → Buf (Elt Ideal) ((c : Thread nD τ).loc b))

/-- Where the windows' blocks sit, decided over the ten grid points: the activation and output blocks
    at point `t` are block `t` along the rows; the weight and the bias are always their whole arrays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The activation block at point `t` is rows `10000 t … 10000 t + 9999` of the activation array. -/
theorem iblk1_0_apply (c : Dev nD) (t : Fin cfg1.N) (x : S10000x128.Idx) (i : S100000x128.Idx)
    (h0 : (i 0).val = t.val * 10000 + (x 0).val) (h1 : (i 1).val = (x 1).val) :
    (iblk1 V c 0 t : Vec Ideal S10000x128 .f32) x = (V c main_v47 : S100000x128.Idx → Elt Ideal .f32) i := by
  obtain ⟨e0, e1, -⟩ := idx_facts1 t
  unfold iblk1
  rw [View.read_apply]
  show V c main_v47 _ = V c main_v47 _
  congr 1
  funext a
  apply Fin.ext
  match a with
  | ⟨0, _⟩ => show win1_0.index t (0 : Fin 2) * 10000 + 1 * (x 0).val = (i 0).val; rw [e0, h0]; omega
  | ⟨1, _⟩ => show win1_0.index t (1 : Fin 2) * 128 + 1 * (x 1).val = (i 1).val; rw [e1, h1]; omega

/-- The weight block at every point is the weight array. -/
theorem iblk1_1_eq (c : Dev nD) (t : Fin cfg1.N) :
    (iblk1 V c 1 t : Vec Ideal S128x128 .f32) = (V c main_v51 : S128x128.Idx → Elt Ideal .f32) := by
  obtain ⟨-, -, e2, e3, -⟩ := idx_facts1 t
  funext x
  unfold iblk1
  rw [View.read_apply]
  show V c main_v51 _ = V c main_v51 _
  congr 1
  funext a
  apply Fin.ext
  match a with
  | ⟨0, _⟩ => show win1_1.index t (0 : Fin 2) * 128 + 1 * (x 0).val = (x 0).val; rw [e2]; omega
  | ⟨1, _⟩ => show win1_1.index t (1 : Fin 2) * 128 + 1 * (x 1).val = (x 1).val; rw [e3]; omega

/-- The bias block at every point is the bias row. -/
theorem iblk1_2_eq (c : Dev nD) (t : Fin cfg1.N) :
    (iblk1 V c 2 t : Vec Ideal S1x128 .f32) = (V c main_v52 : S1x128.Idx → Elt Ideal .f32) := by
  obtain ⟨-, -, -, -, e4, e5, -⟩ := idx_facts1 t
  funext x
  unfold iblk1
  rw [View.read_apply]
  show V c main_v52 _ = V c main_v52 _
  congr 1
  funext a
  apply Fin.ext
  match a with
  | ⟨0, _⟩ => show win1_2.index t (0 : Fin 2) * 1 + 1 * (x 0).val = (x 0).val; rw [e4]; omega
  | ⟨1, _⟩ => show win1_2.index t (1 : Fin 2) * 128 + 1 * (x 1).val = (x 1).val; rw [e5]; omega

/-- The body's result on block `n` of the rows is block `n` of `layer1`: if the activation buffer holds
    rows `10000 n …` of `A0` and the other two buffers the whole weight and bias, the stored entry `j` is
    `layer1` at the array entry `i` that `j` stands for (row `10000 n + j₀`, same column). Each term of the
    sum only moves the row. -/
theorem pay1_block (A0 : Vec Ideal S100000x128 .f32) (A1 : Vec Ideal S128x128 .f32) (A2 : Vec Ideal S1x128 .f32)
    (x0 : Vec Ideal S10000x128 .f32) (x1 : Vec Ideal S128x128 .f32) (x2 : Vec Ideal S1x128 .f32) (n : Nat)
    (h0 : ∀ (x : S10000x128.Idx) (i : S100000x128.Idx), (i 0).val = n * 10000 + (x 0).val → (i 1).val = (x 1).val → x0 x = A0 i)
    (h1 : x1 = A1) (h2 : x2 = A2)
    (j : S10000x128.Idx) (i : S100000x128.Idx) (hi0 : (i 0).val = n * 10000 + (j 0).val) (hi1 : (i 1).val = (j 1).val) :
    k1_pay1 (F := Ideal) x0 x2 x1 j = layer1 A0 A1 A2 i := by
  subst h1 h2
  obtain ⟨p, q, rfl⟩ : ∃ (p : Fin 10000) (q : Fin 128), j = ix2 p q := ⟨j 0, j 1, eq_ix2 j⟩
  rw [layer1_pay_apply]
  unfold layer1
  refine Finset.sum_congr rfl fun k _ => ?_
  have ea : x0 (ix2 p k) = A0 (ix2 (i 0 : Fin 100000) k) := h0 (ix2 p k) (ix2 (i 0 : Fin 100000) k) hi0 rfl
  have eq : (i 1 : Fin 128) = q := Fin.ext hi1
  rw [ea, eq]

/-- What point `t` writes back is block `t` of `layer1` of the three arrays as found at entry. -/
theorem flushed1_eq (c : Dev nD) (t : Fin cfg1.N) :
    (dat1 (F := Ideal) V c).flushed 3 t = ((cfg1.win 3).blk t).view.read (Elt Ideal)
      (layer1 (V c main_v47 : S100000x128.Idx → Elt Ideal .f32) (V c main_v51 : S128x128.Idx → Elt Ideal .f32) (V c main_v52 : S1x128.Idx → Elt Ideal .f32)) := by
  show (cfg1.win 3).cut (grid1.coords t) ((dat1 V c).after 3 t) = _
  rw [after1_3]
  unfold out1_3
  rw [View.canon_unit_zero hz1]
  simp only [View.ld_unit_zero (S := S10000x128) hz1, View.ld_unit_zero (S := S128x128) hz1, View.ld_unit_zero (S := S1x128) hz1]
  obtain ⟨-, -, -, -, -, -, e6, e7⟩ := idx_facts1 t
  funext j
  show k1_pay1 (F := Ideal) (iblk1 V c 0 t) (iblk1 V c 2 t) (iblk1 V c 1 t) j
    = layer1 (V c main_v47 : S100000x128.Idx → Elt Ideal .f32) (V c main_v51 : S128x128.Idx → Elt Ideal .f32) (V c main_v52 : S1x128.Idx → Elt Ideal .f32) (((cfg1.win 3).blk t).view.emb j)
  refine pay1_block _ _ _ (iblk1 V c 0 t) (iblk1 V c 1 t) (iblk1 V c 2 t) t.val
    (fun x i h0 h1 => iblk1_0_apply V c t x i h0 h1) (iblk1_1_eq V c t) (iblk1_2_eq V c t) j _ ?_ ?_
  · show win1_3.index t (0 : Fin 2) * 10000 + 1 * (j 0).val = t.val * 10000 + (j 0).val
    rw [e6]; omega
  · show win1_3.index t (1 : Fin 2) * 128 + 1 * (j 1).val = (j 1).val
    rw [e7]; omega

/-- An entry of the output array lies in point `t`'s block iff each coordinate lies in the block's range. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v53).slice (win1_3.rect t)).set ↔ _
  rw [View.set_slice_whole, Rect.mem_set_unit]
  exact Iff.rfl

/-- Every entry of the output array is written: row `r` lies in the block of point `r / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by show _ < grid1.N; rw [N_1]; omega⟩, rfl⟩
  obtain ⟨-, -, -, -, -, -, e6, e7⟩ := idx_facts1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 128 ≤ (i 1).val ∧ (i 1).val < win1_3.index t (1 : Fin 2) * 128 + 128
    rw [e7]; omega

/-- The output array after the ten points is `layer1` of the activation, weight and bias arrays as found at entry. -/
theorem arr1_eq (c : Dev nD) : (dat1 (F := Ideal) V c).arrAt 3 cfg1.N
    = layer1 (V c main_v47 : S100000x128.Idx → Elt Ideal .f32) (V c main_v51 : S128x128.Idx → Elt Ideal .f32) (V c main_v52 : S1x128.Idx → Elt Ideal .f32) :=
  (dat1 V c).arrAt_eq_of_cover 3 _ (fun t _ => flushed1_eq V c t) cover1

end Cert.KernelIdeal.Val

end
-- ==== Proof.Val.L2.lean ====
import proofs.«414673_j4638564679932_1_alg».proof.Proof.KI.R2
import Idealize.ShloMosaic.PureOps.Ideal.Laws
import Idealize.ShloMosaic.Lib.ValueIdx
import Idealize.ShloMosaic.Lib.Pipeline.Value
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Hand
open scoped BigOperators

/-! # The value of the bias, rectifier and matrix-product kernel over the extended reals

    With exact arithmetic the narrowing casts are the identity and the matrix unit's product into a
    zero accumulator is a plain sum of products, so the kernel's output array is, entry by entry,
    `∑ k, max (s[r,k] + b[0,k]) 0 · w[k,c]`. -/

/-- The layer as one function of the three arrays: row `r`, column `c` of the result is the sum over
    the 128 features `k` of `max (s[r,k] + b[0,k]) 0` times `w[k,c]`. The zero is kept as the word the
    kernel compares against. -/
def layer2 (s : Vec Ideal S100000x128 .f32) (w : Vec Ideal S128x128 .f32) (b : Vec Ideal S1x128 .f32) : Vec Ideal S100000x128 .f32 :=
  fun i => ∑ k : Fin 128, max (s (ix2 (i 0 : Fin 100000) k) + b (ix2 (0 : Fin 1) k)) (Ideal.ofBits .f32 0x00000000#32) * w (ix2 k (i 1 : Fin 128))

/-! ## The block product at an entry -/

theorem hz2 : (![0, 0] : Fin 2 → Nat) = fun _ => 0 := funext fun a => by fin_cases a <;> rfl

/-- In the product of a [10000,128] block by a [128,128] matrix, the left factor of entry `(r, c)` at
    contraction index `k` sits at row `r` … -/
theorem lhs2_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and column `k`; -/
theorem lhs2_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- the right factor sits at row `k` … -/
theorem rhs2_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and column `c`. -/
theorem rhs2_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- What the body stores, at entry `(p, q)` of the block, from the three buffers it read (activations
    `x0`, bias `x2`, weight `x9`): the sum over `k` of `max (x0[p,k] + x2[0,k]) 0 · x9[k,q]`. The casts to the
    same shape and the narrowing casts drop out, the bias row is repeated down the rows, and the product
    into the zero accumulator is the bare sum, re-indexed from the one-axis contraction index to `k < 128`. -/
theorem layer2_pay_apply (x0 : Vec Ideal S10000x128 .f32) (x2 : Vec Ideal S1x128 .f32) (x9 : Vec Ideal S128x128 .f32) (p : Fin 10000) (q : Fin 128) :
    k2_pay1 (F := Ideal) x0 x2 x9 (ix2 p q)
      = ∑ k : Fin 128, max (x0 (ix2 p k) + x2 (ix2 (0 : Fin 1) k)) (Ideal.ofBits .f32 0x00000000#32) * x9 (ix2 k q) := by
  unfold k2_pay1
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs2_0 _ _
    | ⟨1, _⟩ => exact (lhs2_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs2_0 _ _).trans hk
    | ⟨1, _⟩ => exact rhs2_1 _ _)
  rw [el, er]
  simp only [shapeCast_self]
  have eb : broadcastTo S10000x128 x2 broadcasts_S1x128_S10000x128 (ix2 p k) = x2 (ix2 (0 : Fin 1) k) :=
    broadcastTo_apply x2 broadcasts_S1x128_S10000x128 (ix2 p k) (ix2 (0 : Fin 1) k) (by
      intro a
      match a with
      | ⟨0, _⟩ => rfl
      | ⟨1, _⟩ => rfl)
  show max (x0 (ix2 p k) + broadcastTo S10000x128 x2 broadcasts_S1x128_S10000x128 (ix2 p k)) (Ideal.ofBits .f32 0x00000000#32) * x9 (ix2 k q) = _
  rw [eb]

/-! ## From the blocks to the array -/

variable (V : (c : Dev nD) → (b : Ref sig .tc) → Buf (Elt Ideal) ((c : Thread nD τ).loc b))

/-- Where the windows' blocks sit, decided over the ten grid points: the activation and output blocks
    at point `t` are block `t` along the rows; the weight and the bias are always their whole arrays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activation block at point `t` is rows `10000 t … 10000 t + 9999` of the activation array. -/
theorem iblk2_0_apply (c : Dev nD) (t : Fin cfg2.N) (x : S10000x128.Idx) (i : S100000x128.Idx)
    (h0 : (i 0).val = t.val * 10000 + (x 0).val) (h1 : (i 1).val = (x 1).val) :
    (iblk2 V c 0 t : Vec Ideal S10000x128 .f32) x = (V c main_v66 : S100000x128.Idx → Elt Ideal .f32) i := by
  obtain ⟨e0, e1, -⟩ := idx_facts2 t
  unfold iblk2
  rw [View.read_apply]
  show V c main_v66 _ = V c main_v66 _
  congr 1
  funext a
  apply Fin.ext
  match a with
  | ⟨0, _⟩ => show win2_0.index t (0 : Fin 2) * 10000 + 1 * (x 0).val = (i 0).val; rw [e0, h0]; omega
  | ⟨1, _⟩ => show win2_0.index t (1 : Fin 2) * 128 + 1 * (x 1).val = (i 1).val; rw [e1, h1]; omega

/-- The weight block at every point is the weight array. -/
theorem iblk2_1_eq (c : Dev nD) (t : Fin cfg2.N) :
    (iblk2 V c 1 t : Vec Ideal S128x128 .f32) = (V c main_v70 : S128x128.Idx → Elt Ideal .f32) := by
  obtain ⟨-, -, e2, e3, -⟩ := idx_facts2 t
  funext x
  unfold iblk2
  rw [View.read_apply]
  show V c main_v70 _ = V c main_v70 _
  congr 1
  funext a
  apply Fin.ext
  match a with
  | ⟨0, _⟩ => show win2_1.index t (0 : Fin 2) * 128 + 1 * (x 0).val = (x 0).val; rw [e2]; omega
  | ⟨1, _⟩ => show win2_1.index t (1 : Fin 2) * 128 + 1 * (x 1).val = (x 1).val; rw [e3]; omega

/-- The bias block at every point is the bias row. -/
theorem iblk2_2_eq (c : Dev nD) (t : Fin cfg2.N) :
    (iblk2 V c 2 t : Vec Ideal S1x128 .f32) = (V c main_v71 : S1x128.Idx → Elt Ideal .f32) := by
  obtain ⟨-, -, -, -, e4, e5, -⟩ := idx_facts2 t
  funext x
  unfold iblk2
  rw [View.read_apply]
  show V c main_v71 _ = V c main_v71 _
  congr 1
  funext a
  apply Fin.ext
  match a with
  | ⟨0, _⟩ => show win2_2.index t (0 : Fin 2) * 1 + 1 * (x 0).val = (x 0).val; rw [e4]; omega
  | ⟨1, _⟩ => show win2_2.index t (1 : Fin 2) * 128 + 1 * (x 1).val = (x 1).val; rw [e5]; omega

/-- The body's result on block `n` of the rows is block `n` of `layer2`: if the activation buffer holds
    rows `10000 n …` of `A0` and the other two buffers the whole weight and bias, the stored entry `j` is
    `layer2` at the array entry `i` that `j` stands for (row `10000 n + j₀`, same column). Each term of the
    sum only moves the row. -/
theorem pay2_block (A0 : Vec Ideal S100000x128 .f32) (A1 : Vec Ideal S128x128 .f32) (A2 : Vec Ideal S1x128 .f32)
    (x0 : Vec Ideal S10000x128 .f32) (x1 : Vec Ideal S128x128 .f32) (x2 : Vec Ideal S1x128 .f32) (n : Nat)
    (h0 : ∀ (x : S10000x128.Idx) (i : S100000x128.Idx), (i 0).val = n * 10000 + (x 0).val → (i 1).val = (x 1).val → x0 x = A0 i)
    (h1 : x1 = A1) (h2 : x2 = A2)
    (j : S10000x128.Idx) (i : S100000x128.Idx) (hi0 : (i 0).val = n * 10000 + (j 0).val) (hi1 : (i 1).val = (j 1).val) :
    k2_pay1 (F := Ideal) x0 x2 x1 j = layer2 A0 A1 A2 i := by
  subst h1 h2
  obtain ⟨p, q, rfl⟩ : ∃ (p : Fin 10000) (q : Fin 128), j = ix2 p q := ⟨j 0, j 1, eq_ix2 j⟩
  rw [layer2_pay_apply]
  unfold layer2
  refine Finset.sum_congr rfl fun k _ => ?_
  have ea : x0 (ix2 p k) = A0 (ix2 (i 0 : Fin 100000) k) := h0 (ix2 p k) (ix2 (i 0 : Fin 100000) k) hi0 rfl
  have eq : (i 1 : Fin 128) = q := Fin.ext hi1
  rw [ea, eq]

/-- What point `t` writes back is block `t` of `layer2` of the three arrays as found at entry. -/
theorem flushed2_eq (c : Dev nD) (t : Fin cfg2.N) :
    (dat2 (F := Ideal) V c).flushed 3 t = ((cfg2.win 3).blk t).view.read (Elt Ideal)
      (layer2 (V c main_v66 : S100000x128.Idx → Elt Ideal .f32) (V c main_v70 : S128x128.Idx → Elt Ideal .f32) (V c main_v71 : S1x128.Idx → Elt Ideal .f32)) := by
  show (cfg2.win 3).cut (grid2.coords t) ((dat2 V c).after 3 t) = _
  rw [after2_3]
  unfold out2_3
  rw [View.canon_unit_zero hz2]
  simp only [View.ld_unit_zero (S := S10000x128) hz2, View.ld_unit_zero (S := S128x128) hz2, View.ld_unit_zero (S := S1x128) hz2]
  obtain ⟨-, -, -, -, -, -, e6, e7⟩ := idx_facts2 t
  funext j
  show k2_pay1 (F := Ideal) (iblk2 V c 0 t) (iblk2 V c 2 t) (iblk2 V c 1 t) j
    = layer2 (V c main_v66 : S100000x128.Idx → Elt Ideal .f32) (V c main_v70 : S128x128.Idx → Elt Ideal .f32) (V c main_v71 : S1x128.Idx → Elt Ideal .f32) (((cfg2.win 3).blk t).view.emb j)
  refine pay2_block _ _ _ (iblk2 V c 0 t) (iblk2 V c 1 t) (iblk2 V c 2 t) t.val
    (fun x i h0 h1 => iblk2_0_apply V c t x i h0 h1) (iblk2_1_eq V c t) (iblk2_2_eq V c t) j _ ?_ ?_
  · show win2_3.index t (0 : Fin 2) * 10000 + 1 * (j 0).val = t.val * 10000 + (j 0).val
    rw [e6]; omega
  · show win2_3.index t (1 : Fin 2) * 128 + 1 * (j 1).val = (j 1).val
    rw [e7]; omega

/-- An entry of the output array lies in point `t`'s block iff each coordinate lies in the block's range. -/
theorem mem_blk2 (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v72).slice (win2_3.rect t)).set ↔ _
  rw [View.set_slice_whole, Rect.mem_set_unit]
  exact Iff.rfl

/-- Every entry of the output array is written: row `r` lies in the block of point `r / 10000`. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by show _ < grid2.N; rw [N_2]; omega⟩, rfl⟩
  obtain ⟨-, -, -, -, -, -, e6, e7⟩ := idx_facts2 t
  refine ⟨t, flush2_3 t, ?_⟩
  rw [mem_blk2]
  intro a
  match a with
  | ⟨0, _⟩ =>
    show win2_3.index t (0 : Fin 2) * 10000 ≤ (i 0).val ∧ (i 0).val < win2_3.index t (0 : Fin 2) * 10000 + 10000
    rw [e6, ht]; omega
  | ⟨1, _⟩ =>
    show win2_3.index t (1 : Fin 2) * 128 ≤ (i 1).val ∧ (i 1).val < win2_3.index t (1 : Fin 2) * 128 + 128
    rw [e7]; omega

/-- The output array after the ten points is `layer2` of the activation, weight and bias arrays as found at entry. -/
theorem arr2_eq (c : Dev nD) : (dat2 (F := Ideal) V c).arrAt 3 cfg2.N
    = layer2 (V c main_v66 : S100000x128.Idx → Elt Ideal .f32) (V c main_v70 : S128x128.Idx → Elt Ideal .f32) (V c main_v71 : S1x128.Idx → Elt Ideal .f32) :=
  (dat2 V c).arrAt_eq_of_cover 3 _ (fun t _ => flushed2_eq V c t) cover2

end Cert.KernelIdeal.Val

end
-- ==== Proof.Val.Chain.lean ====
import proofs.«414673_j4638564679932_1_alg».proof.Proof.Val.Main
import proofs.«414673_j4638564679932_1_alg».proof.Proof.Val.L0
import proofs.«414673_j4638564679932_1_alg».proof.Proof.Val.L1
import proofs.«414673_j4638564679932_1_alg».proof.Proof.Val.L2

set_option maxRecDepth 16384

noncomputable section

namespace Cert.KernelIdeal.Val

open Idealize.ShloMosaic Idealize.ShloMosaic.TcCoe Idealize.SL.Sem
open Cert.KernelIdeal Cert.KernelIdeal.Gen Cert.KernelIdeal.Hand

/-! # The aggregates the regions are entered with, as functions of the arguments

Over the extended reals region 0's output array is `layer0` of the node features and layer 0's weights, and a
later region's is `layer1` / `layer2` of the aggregate it was entered with, its weights and the previous bias
row. Composing these with the aggregation between the regions gives what each region is entered with. -/

section Chain

open Cert.KernelIdeal.Hand

local notation "ArrI[" s ", " e "]" => BufTy.Contents (Elt Ideal) (BufTy.mk s e)

/-- The node features aggregated after layer `0`'s product (before its bias). -/
def kerS0 (x0 : ArrI[S100000x128, .f32]) (x1 : ArrI[S2x1600000, .i32]) (x3 : ArrI[S3x128x128, .f32]) : ArrI[S100000x128, .f32] :=
  kerAgg (F := Ideal) x1 (layer0 x0 (kerW0 (F := Ideal) x3))
/-- The node features aggregated after layer `1`'s product. -/
def kerS1 (x0 : ArrI[S100000x128, .f32]) (x1 : ArrI[S2x1600000, .i32]) (x3 : ArrI[S3x128x128, .f32]) (x4 : ArrI[S3x128, .f32]) :
    ArrI[S100000x128, .f32] :=
  kerAgg (F := Ideal) x1 (layer1 (kerS0 x0 x1 x3) (kerW1 (F := Ideal) x3) (kerBrow0 (F := Ideal) x4))
/-- The node features aggregated after layer `2`'s product. -/
def kerS2 (x0 : ArrI[S100000x128, .f32]) (x1 : ArrI[S2x1600000, .i32]) (x3 : ArrI[S3x128x128, .f32]) (x4 : ArrI[S3x128, .f32]) :
    ArrI[S100000x128, .f32] :=
  kerAgg (F := Ideal) x1 (layer2 (kerS1 x0 x1 x3 x4) (kerW2 (F := Ideal) x3) (kerBrow1 (F := Ideal) x4))

variable (m : (ℓ : Loc nD τ sig) → Buf (Elt Ideal) ℓ) (ρ : Dev nD → PrngReg)

/-- Region 0's output array: the features times layer 0's weights. -/
theorem out0_eq (c : Dev nD) : (dat0 (F := Ideal) (B3 m ρ) c).arrAt 3 cfg0.N
    = layer0 (m ((c : Thread nD τ).loc main_arg0)) (kerW0 (F := Ideal) (m ((c : Thread nD τ).loc main_arg3))) := by
  rw [arr0_eq (B3 m ρ) c, B3_arg0, B3_v32]

/-- Region 1 is entered with the first aggregate. -/
theorem B5_v47_eq (c : Dev nD) : B5 m ρ c main_v47
    = kerS0 (m ((c : Thread nD τ).loc main_arg0)) (m ((c : Thread nD τ).loc main_arg1)) (m ((c : Thread nD τ).loc main_arg3)) := by
  rw [B5_v47, out0_eq]; rfl

/-- Region 1's output array. -/
theorem out1_eq (c : Dev nD) : (dat1 (F := Ideal) (B5 m ρ) c).arrAt 3 cfg1.N
    = layer1 (kerS0 (m ((c : Thread nD τ).loc main_arg0)) (m ((c : Thread nD τ).loc main_arg1)) (m ((c : Thread nD τ).loc main_arg3)))
        (kerW1 (F := Ideal) (m ((c : Thread nD τ).loc main_arg3))) (kerBrow0 (F := Ideal) (m ((c : Thread nD τ).loc main_arg4))) := by
  rw [arr1_eq (B5 m ρ) c, B5_v47_eq, B5_v51, B5_v52]

/-- Region 2 is entered with the second aggregate. -/
theorem B7_v66_eq (c : Dev nD) : B7 m ρ c main_v66
    = kerS1 (m ((c : Thread nD τ).loc main_arg0)) (m ((c : Thread nD τ).loc main_arg1)) (m ((c : Thread nD τ).loc main_arg3))
        (m ((c : Thread nD τ).loc main_arg4)) := by
  rw [B7_v66, out1_eq]; rfl

/-- Region 2's output array. -/
theorem out2_eq (c : Dev nD) : (dat2 (F := Ideal) (B7 m ρ) c).arrAt 3 cfg2.N
    = layer2 (kerS1 (m ((c : Thread nD τ).loc main_arg0)) (m ((c : Thread nD τ).loc main_arg1)) (m ((c : Thread nD τ).loc main_arg3))
          (m ((c : Thread nD τ).loc main_arg4)))
        (kerW2 (F := Ideal) (m ((c : Thread nD τ).loc main_arg3))) (kerBrow1 (F := Ideal) (m ((c : Thread nD τ).loc main_arg4))) := by
  rw [arr2_eq (B7 m ρ) c, B7_v66_eq, B7_v70, B7_v71]

/-- Region 3 is entered with the third aggregate. -/
theorem B9_v85_eq (c : Dev nD) : B9 m ρ c main_v85
    = kerS2 (m ((c : Thread nD τ).loc main_arg0)) (m ((c : Thread nD τ).loc main_arg1)) (m ((c : Thread nD τ).loc main_arg3))
        (m ((c : Thread nD τ).loc main_arg4)) := by
  rw [B9_v85, out2_eq]; rfl

end Chain

end Cert.KernelIdeal.Val
end
-- ==== Proof.Val.Bridge.lean ====
import proofs.«414673_j4638564679932_1_alg».proof.Proof.Val.Main
import proofs.«414673_j4638564679932_1_alg».proof.Proof.RefValue
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.SL.Sem
open Cert.KernelIdeal Cert.KernelIdeal.Gen
open Cert.ReferenceIdeal.RefValue (edgeSrc edgeDst wrapIdx idxCol refDeg refDinv refNorm refAgg refW0 refW1 refW2 refB0 refB1 refB2)

variable {F : FTy → Type} [FloatOps F]

local notation "Arr[" s ", " e "]" => BufTy.Contents (Elt F) (BufTy.mk s e)

/-! # The host stages of the two programs are the same functions

Between its kernel regions the kernel program applies to the edge list, the stacked weights and the stacked biases
the very operations the reference applies; the two printed programs name their shapes and their operations'
dimension records separately, with equal contents. Each stage of this side is therefore the reference's stage of
the same name, stage by stage, without opening any operation. -/

section Host

theorem kerSrc_eq (x1 : Arr[S2x1600000, .i32]) : kerSrc (F := F) x1 = edgeSrc (F := F) x1 := rfl
theorem kerDst_eq (x1 : Arr[S2x1600000, .i32]) : kerDst (F := F) x1 = edgeDst (F := F) x1 := rfl
theorem kerWrap_eq (v : Arr[S1700000, .i32]) : kerWrap (F := F) v = wrapIdx (F := F) v := rfl
theorem kerCol_eq (v : Arr[S1700000, .i32]) : kerCol (F := F) v = idxCol (F := F) v := rfl

theorem kerDeg_eq (x1 : Arr[S2x1600000, .i32]) : kerDeg (F := F) x1 = refDeg (F := F) x1 := by
  unfold kerDeg refDeg
  rw [kerDst_eq, kerCol_eq]
  rfl

theorem kerDinv_eq (x1 : Arr[S2x1600000, .i32]) : kerDinv (F := F) x1 = refDinv (F := F) x1 := by
  unfold kerDinv refDinv
  rw [kerDeg_eq]

theorem kerNorm_eq (x1 : Arr[S2x1600000, .i32]) : kerNorm (F := F) x1 = refNorm (F := F) x1 := by
  unfold kerNorm refNorm
  rw [kerDinv_eq, kerSrc_eq, kerDst_eq, kerWrap_eq, kerWrap_eq, kerCol_eq, kerCol_eq]
  rfl

theorem kerAgg_eq (x1 : Arr[S2x1600000, .i32]) (h : Arr[S100000x128, .f32]) : kerAgg (F := F) x1 h = refAgg (F := F) x1 h := by
  unfold kerAgg kerAggOf refAgg
  rw [kerNorm_eq, kerSrc_eq, kerDst_eq, kerWrap_eq, kerCol_eq, kerCol_eq]
  rfl

theorem kerW0_eq (x3 : Arr[S3x128x128, .f32]) : kerW0 (F := F) x3 = refW0 (F := F) x3 := rfl
theorem kerW1_eq (x3 : Arr[S3x128x128, .f32]) : kerW1 (F := F) x3 = refW1 (F := F) x3 := rfl
theorem kerW2_eq (x3 : Arr[S3x128x128, .f32]) : kerW2 (F := F) x3 = refW2 (F := F) x3 := rfl
theorem kerB0_eq (x4 : Arr[S3x128, .f32]) : kerB0 (F := F) x4 = refB0 (F := F) x4 := rfl
theorem kerB1_eq (x4 : Arr[S3x128, .f32]) : kerB1 (F := F) x4 = refB1 (F := F) x4 := rfl
theorem kerB2_eq (x4 : Arr[S3x128, .f32]) : kerB2 (F := F) x4 = refB2 (F := F) x4 := rfl

end Host

/-! ## The reshaped rows and columns, read at an index

The bias a kernel reads is the layer's bias vector laid out as one row; the graph numbers are a column; the head's
bias is a 1×1 matrix. A reshape keeps the row-major position. -/

section Layout

open Idealize.ShloMosaic.ValueIdx

theorem kerBrow0_apply (x4 : Arr[S3x128, .f32]) (u : Fin 1) (k : Fin 128) :
    kerBrow0 (F := F) x4 (ix2 u k) = refB0 (F := F) x4 (ix1 k) := by
  unfold kerBrow0
  rw [kerB0_eq]
  exact shapeCast_a_1a_apply (refB0 (F := F) x4) shapeCasts_S128_S1x128 u k

theorem kerBrow1_apply (x4 : Arr[S3x128, .f32]) (u : Fin 1) (k : Fin 128) :
    kerBrow1 (F := F) x4 (ix2 u k) = refB1 (F := F) x4 (ix1 k) := by
  unfold kerBrow1
  rw [kerB1_eq]
  exact shapeCast_a_1a_apply (refB1 (F := F) x4) shapeCasts_S128_S1x128 u k

theorem kerBrow2_apply (x4 : Arr[S3x128, .f32]) (u : Fin 1) (k : Fin 128) :
    kerBrow2 (F := F) x4 (ix2 u k) = refB2 (F := F) x4 (ix1 k) := by
  unfold kerBrow2
  rw [kerB2_eq]
  exact shapeCast_a_1a_apply (refB2 (F := F) x4) shapeCasts_S128_S1x128 u k

/-- The column of graph numbers at row `r` is the list's entry `r`. -/
theorem kerBatchCol_apply (x2 : Arr[S100000, .i32]) (r : Fin 100000) (z : Fin 1) :
    kerBatchCol (F := F) x2 (ix2 r z) = x2 (ix1 r) := by
  unfold kerBatchCol
  refine shapeCast_apply x2 shapeCasts_S100000_S100000x1 (ix2 r z) (ix1 r) ?_
  rw [Shape.rowMajor_val_two, Shape.rowMajor_val_one]
  show r.val = r.val * 1 + z.val
  omega

/-- The head's bias as a 1×1 matrix holds the bias. -/
theorem kerHeadB_apply (x6 : Arr[S1, .f32]) (u z : Fin 1) : kerHeadB (F := F) x6 (ix2 u z) = x6 (ix1 z) := by
  unfold kerHeadB
  exact shapeCast_a_1a_apply x6 shapeCasts_S1_S1x1 u z

end Layout

end Cert.KernelIdeal.Val
end
-- ==== Proof.Val.BridgeLayers.lean ====
import proofs.«414673_j4638564679932_1_alg».proof.Proof.Val.L0
import proofs.«414673_j4638564679932_1_alg».proof.Proof.Val.L1
import proofs.«414673_j4638564679932_1_alg».proof.Proof.Val.L2
import proofs.«414673_j4638564679932_1_alg».proof.Proof.RefValue
import Idealize.ShloMosaic.PureOps.Ideal.Laws
import Idealize.ShloMosaic.Lib.ValueIdx

noncomputable section

namespace Cert.KernelIdeal.Val

open Idealize.ShloMosaic Idealize.ShloMosaic.TcCoe
open Idealize.ShloMosaic.ValueIdx
open Cert.KernelIdeal
open Cert.ReferenceIdeal.RefValue (refLayerFirst refLayerNext refAct rowAt colAt colOf refLayerFirst_apply refLayerNext_apply refAct_apply)
open scoped BigOperators

/-! # The three dense stages on the two sides are the same functions

    Each side writes an entry of a layer's product as a sum over the 128 features of a row entry times a
    weight entry; they differ only in how the row, column and bias indices are spelt, and in the bias being
    a row `[1,128]` on one side and a vector `[128]` on the other. -/

/-- Entry `(row of i, k)` in the two spellings. -/
theorem rowAt_eq (i : S100000x128.Idx) (k : Fin 128) : rowAt i k = ix2 (i 0 : Fin 100000) k :=
  funext fun a => by match a with | ⟨0, _⟩ => rfl | ⟨1, _⟩ => rfl

/-- Entry `(k, column of i)` in the two spellings. -/
theorem colAt_eq (i : S100000x128.Idx) (k : Fin 128) : colAt i k = ix2 k (i 1 : Fin 128) :=
  funext fun a => by match a with | ⟨0, _⟩ => rfl | ⟨1, _⟩ => rfl

/-- The column of entry `(row of i, k)` is `k`. -/
theorem colOf_rowAt (i : S100000x128.Idx) (k : Fin 128) : colOf (rowAt i k) = ix1 k :=
  funext fun a => by match a with | ⟨0, _⟩ => rfl

/-- The first layer's product: both sides are `∑ k, x[r,k] · W[k,c]`. -/
theorem layer0_eq_ref (x : Vec Ideal S100000x128 .f32) (W : Vec Ideal S128x128 .f32) :
    layer0 x W = refLayerFirst (F := Ideal) x W := by
  funext i
  refine Eq.trans ?_ (refLayerFirst_apply x W i).symm
  unfold layer0
  refine Finset.sum_congr rfl fun k _ => ?_
  rw [rowAt_eq, colAt_eq]
  rfl

/-- A later layer's product, for the kernel's bias row `brow` and the reference's bias vector `b` with the
    same 128 entries: both sides are `∑ k, max (s[r,k] + bias[k]) 0 · W[k,c]`, the zero being the same word. -/
theorem layer1_eq_ref (s : Vec Ideal S100000x128 .f32) (W : Vec Ideal S128x128 .f32) (brow : Vec Ideal S1x128 .f32)
    (b : Vec Ideal S128 .f32) (hb : ∀ k : Fin 128, brow (ix2 (0 : Fin 1) k) = b (ix1 k)) :
    layer1 s W brow = refLayerNext (F := Ideal) s b W := by
  funext i
  refine Eq.trans ?_ (refLayerNext_apply s b W i).symm
  unfold layer1
  refine Finset.sum_congr rfl fun k _ => ?_
  rw [refAct_apply, colOf_rowAt, rowAt_eq, colAt_eq, hb k]
  rfl

/-- The same for the last layer. -/
theorem layer2_eq_ref (s : Vec Ideal S100000x128 .f32) (W : Vec Ideal S128x128 .f32) (brow : Vec Ideal S1x128 .f32)
    (b : Vec Ideal S128 .f32) (hb : ∀ k : Fin 128, brow (ix2 (0 : Fin 1) k) = b (ix1 k)) :
    layer2 s W brow = refLayerNext (F := Ideal) s b W := by
  funext i
  refine Eq.trans ?_ (refLayerNext_apply s b W i).symm
  unfold layer2
  refine Finset.sum_congr rfl fun k _ => ?_
  rw [refAct_apply, colOf_rowAt, rowAt_eq, colAt_eq, hb k]
  rfl

end Cert.KernelIdeal.Val

end
-- ==== Proof.Val.PoolMath.lean ====
import proofs.«414673_j4638564679932_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

/-!
# The pooling and head kernel's values, at an index

Read at the exact (extended real) values, the three values this kernel stores are:

* the reset value of the [512,128] scratch: zero;
* the scratch after a point: the scratch before it plus, at `(g, j)`, the sum over the point's 5000 rows whose graph
  id reads (as a signed 32-bit integer) as `g` of `max (x + b) 0` in column `j` — the one-hot matrix of the ids,
  transposed, times the rectified biased features; an id that is negative or at least 512 selects no row `g`;
* the output: each pooled row dotted with the head weights, plus the head bias.

Nothing here asks the values to be finite: only `1 * a = a`, `0 * a = 0` and the re-indexing of a finite sum.
-/

set_option synthInstance.maxSize 4096

noncomputable section

namespace Cert.KernelIdeal.Val

open Idealize.ShloMosaic Idealize.SL.Sem Idealize.ShloMosaic.ValueIdx Cert.KernelIdeal Cert.KernelIdeal.Gen

/-! ### A column broadcast along the rows -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The one-hot entry -/

/-- A 32-bit word is the word of a number below 512 exactly when its signed reading is that number:
    a word whose signed reading is negative, or 512 and more, is the word of no such number. -/
theorem word_eq_ofNat_iff_toInt (w : BitVec 32) (g : Fin 512) :
    w = BitVec.ofNat 32 g.val ↔ w.toInt = (g.val : ℤ) := by
  have hg := g.isLt
  have e := BitVec.toInt_eq_toNat_cond w
  have hw := w.isLt
  constructor
  · intro h
    have hn : w.toNat = g.val := by rw [h, BitVec.toNat_ofNat]; omega
    rw [e]; split <;> omega
  · intro h
    apply BitVec.eq_of_toNat_eq
    rw [BitVec.toNat_ofNat]
    rw [e] at h
    split at h <;> omega

/-- The one-hot entry: the comparison bit of a word with the word of `g`, widened and converted, is `1`
    where the word's signed reading is `g` and `0` elsewhere. -/
theorem onehot_entry (w : BitVec 32) (g : Fin 512) :
    FloatOps.sitofp (F := Ideal) .f32 ((IntOp.cmpi .eq w (BitVec.ofNat 32 g.val)).setWidth 32)
      = if w.toInt = (g.val : ℤ) then (1 : EReal) else 0 := by
  show (((BitVec.setWidth 32 (IntOp.cmpi CmpIPredicate.eq w (BitVec.ofNat 32 g.val))).toInt : ℝ) : EReal) = _
  by_cases h : w = BitVec.ofNat 32 g.val
  · rw [if_pos ((word_eq_ofNat_iff_toInt w g).mp h)]
    have hc : IntOp.cmpi CmpIPredicate.eq w (BitVec.ofNat 32 g.val) = 1#1 := by
      simp [IntOp.cmpi, h]
    have h1 : (BitVec.setWidth 32 (1#1 : BitVec 1)).toInt = 1 := by decide
    rw [hc, h1, Int.cast_one, EReal.coe_one]
  · rw [if_neg (fun h' => h ((word_eq_ofNat_iff_toInt w g).mpr h'))]
    have hb : (w == BitVec.ofNat 32 g.val) = false := beq_eq_false_iff_ne.mpr h
    have hc : IntOp.cmpi CmpIPredicate.eq w (BitVec.ofNat 32 g.val) = 0#1 := by
      show BitVec.ofBool (w == BitVec.ofNat 32 g.val) = 0#1
      rw [hb]; rfl
    have h0 : (BitVec.setWidth 32 (0#1 : BitVec 1)).toInt = 0 := by decide
    rw [hc, h0, Int.cast_zero, EReal.coe_zero]

/-! ### The pooling product: a [5000,512]ᵀ × [5000,128] product contracting both operands' rows. -/

theorem poolDot_lhs_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem poolDot_lhs_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem poolDot_rhs_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem poolDot_rhs_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The scratch's reset value is zero everywhere. -/
theorem pay1_apply (g : Fin 512) (j : Fin 128) : k3_pay1 (F := Ideal) (ix2 g j) = 0 := by
  unfold k3_pay1
  rw [shapeCast_self]
  exact Ideal.ofBits_zero_f32

/-- The scratch after a point, at `(g, j)`: the scratch before it plus the sum over the block's 5000 rows of
    (one where the row's graph id reads, signed, as `g`; zero elsewhere) times the rectified biased feature
    `max (x + b) 0` in column `j`. -/
theorem pay2_apply (x : Vec Ideal S5000x128 .f32) (b : Vec Ideal S1x128 .f32) (bt : Vec Ideal S5000x1 .i32)
    (acc : Vec Ideal S512x128 .f32) (g : Fin 512) (j : Fin 128) :
    k3_pay2 (F := Ideal) x b bt acc (ix2 g j) = acc (ix2 g j) + ∑ r : Fin 5000,
      (if (bt (ix2 r (0 : Fin 1))).toInt = (g.val : ℤ) then (1 : EReal) else 0) * max (x (ix2 r j) + b (ix2 (0 : Fin 1) j)) 0 := by
  unfold k3_pay2
  rw [shapeCast_self, addf_apply]
  congr 1
  simp only [matmul]
  rw [Ideal.matmul_constant_zero_apply, ← Equiv.sum_comp (contrEquiv1 dot_S5000x512_S5000x128_S512x128_0_0_1_1_n_n 5000 rfl rfl).symm]
  refine Finset.sum_congr rfl fun r _ => ?_
  have hr := contrEquiv1_symm_val dot_S5000x512_S5000x128_S512x128_0_0_1_1_n_n 5000 rfl rfl r
  have el : dot_S5000x512_S5000x128_S512x128_0_0_1_1_n_n.lhsIdx (ix2 g j) ((contrEquiv1 dot_S5000x512_S5000x128_S512x128_0_0_1_1_n_n 5000 rfl rfl).symm r) = ix2 r g := funext fun a => Fin.ext (by
    match a with
    | ⟨0, _⟩ => exact (poolDot_lhs_0 _ _).trans hr
    | ⟨1, _⟩ => exact poolDot_lhs_1 _ _)
  have er : dot_S5000x512_S5000x128_S512x128_0_0_1_1_n_n.rhsIdx (ix2 g j) ((contrEquiv1 dot_S5000x512_S5000x128_S512x128_0_0_1_1_n_n 5000 rfl rfl).symm r) = ix2 r j := funext fun a => Fin.ext (by
    match a with
    | ⟨0, _⟩ => exact (poolDot_rhs_0 _ _).trans hr
    | ⟨1, _⟩ => exact poolDot_rhs_1 _ _)
  rw [el, er]
  congr 1
  · rw [truncf_apply, sitofp_apply, extui_apply]
    show FloatOps.sitofp (F := Ideal) .f32 ((IntOp.cmpi CmpIPredicate.eq
        (broadcastTo S5000x512 (shapeCast S5000x1 bt shapeCasts_S5000x1_S5000x1) broadcasts_S5000x1_S5000x512 (ix2 r g))
        (iota Kind.tc S5000x512 32 [1] iota_S5000x512_d1_w32 (ix2 r g))).setWidth 32) = _
    rw [broadcastTo_a1_ab_apply, shapeCast_self, iota_single_apply]
    exact onehot_entry _ g
  · rw [truncf_apply, maximumf_apply, addf_apply, shapeCast_self, broadcastTo_1b_ab_apply, shapeCast_self, broadcast_apply,
      Ideal.ofBits_def, Ideal.ofBits_zero_f32]

/-- A one-or-zero factor selects or drops its cofactor. -/
theorem ite_one_zero_mul (p : Prop) [Decidable p] (x : EReal) :
    (if p then (1 : EReal) else 0) * x = if p then x else 0 := by
  split
  · exact one_mul x
  · exact zero_mul x

/-- The same with the one-hot factor applied: each row adds its rectified biased feature where its id reads as `g`,
    and nothing elsewhere. -/
theorem pay2_apply_ite (x : Vec Ideal S5000x128 .f32) (b : Vec Ideal S1x128 .f32) (bt : Vec Ideal S5000x1 .i32)
    (acc : Vec Ideal S512x128 .f32) (g : Fin 512) (j : Fin 128) :
    k3_pay2 (F := Ideal) x b bt acc (ix2 g j) = acc (ix2 g j) + ∑ r : Fin 5000,
      if (bt (ix2 r (0 : Fin 1))).toInt = (g.val : ℤ) then max (x (ix2 r j) + b (ix2 (0 : Fin 1) j)) 0 else 0 := by
  rw [pay2_apply]
  congr 1
  exact Finset.sum_congr rfl fun r _ => ite_one_zero_mul _ _

/-! ### The head product: a [512,128] × [128,1] product contracting the left operand's columns
    against the right operand's rows. -/

theorem headDot_lhs_0 (i : S512x1.Idx) (q : dot_S512x128_S128x1_S512x1_1_0_0_1_n_n.contr.Idx) :
    (dot_S512x128_S128x1_S512x1_1_0_0_1_n_n.lhsIdx i q 0).val = (i 0).val := by
  unfold DotDims.lhsIdx
  rw [dif_neg (show ¬(0 : Fin S512x128.rank) ∈ dot_S512x128_S128x1_S512x1_1_0_0_1_n_n.lhsBatch by decide), dif_pos (show (0 : Fin S512x128.rank) ∈ dot_S512x128_S128x1_S512x1_1_0_0_1_n_n.lhsNonContracting by decide)]
  rfl
theorem headDot_lhs_1 (i : S512x1.Idx) (q : dot_S512x128_S128x1_S512x1_1_0_0_1_n_n.contr.Idx) :
    (dot_S512x128_S128x1_S512x1_1_0_0_1_n_n.lhsIdx i q 1).val = (q ⟨0, by decide⟩).val :=
  dot_S512x128_S128x1_S512x1_1_0_0_1_n_n.lhsIdx_val_of_single rfl i q
theorem headDot_rhs_0 (i : S512x1.Idx) (q : dot_S512x128_S128x1_S512x1_1_0_0_1_n_n.contr.Idx) :
    (dot_S512x128_S128x1_S512x1_1_0_0_1_n_n.rhsIdx i q 0).val = (q ⟨0, by decide⟩).val :=
  dot_S512x128_S128x1_S512x1_1_0_0_1_n_n.rhsIdx_val_of_single rfl i q
theorem headDot_rhs_1 (i : S512x1.Idx) (q : dot_S512x128_S128x1_S512x1_1_0_0_1_n_n.contr.Idx) :
    (dot_S512x128_S128x1_S512x1_1_0_0_1_n_n.rhsIdx i q 1).val = (i 1).val := by
  unfold DotDims.rhsIdx
  rw [dif_neg (show ¬(1 : Fin S128x1.rank) ∈ dot_S512x128_S128x1_S512x1_1_0_0_1_n_n.rhsBatch by decide), dif_pos (show (1 : Fin S128x1.rank) ∈ dot_S512x128_S128x1_S512x1_1_0_0_1_n_n.rhsNonContracting by decide)]
  rfl

/-- The head's output at row `g`: the pooled row `g` dotted with the head weights, plus the head bias. -/
theorem pay3_apply (acc : Vec Ideal S512x128 .f32) (hw : Vec Ideal S128x1 .f32) (hb : Vec Ideal S1x1 .f32) (g : Fin 512) :
    k3_pay3 (F := Ideal) acc hw hb (ix2 g (0 : Fin 1)) = (∑ k : Fin 128, acc (ix2 g k) * hw (ix2 k (0 : Fin 1))) + hb (ix2 (0 : Fin 1) (0 : Fin 1)) := by
  unfold k3_pay3
  rw [addf_apply, broadcastTo_1b_ab_apply, shapeCast_self]
  congr 1
  simp only [matmul]
  rw [Ideal.matmul_constant_zero_apply, ← Equiv.sum_comp (contrEquiv1 dot_S512x128_S128x1_S512x1_1_0_0_1_n_n 128 rfl rfl).symm]
  refine Finset.sum_congr rfl fun k _ => ?_
  have hk := contrEquiv1_symm_val dot_S512x128_S128x1_S512x1_1_0_0_1_n_n 128 rfl rfl k
  have el : dot_S512x128_S128x1_S512x1_1_0_0_1_n_n.lhsIdx (ix2 g (0 : Fin 1)) ((contrEquiv1 dot_S512x128_S128x1_S512x1_1_0_0_1_n_n 128 rfl rfl).symm k) = ix2 g k := funext fun a => Fin.ext (by
    match a with
    | ⟨0, _⟩ => exact headDot_lhs_0 _ _
    | ⟨1, _⟩ => exact (headDot_lhs_1 _ _).trans hk)
  have er : dot_S512x128_S128x1_S512x1_1_0_0_1_n_n.rhsIdx (ix2 g (0 : Fin 1)) ((contrEquiv1 dot_S512x128_S128x1_S512x1_1_0_0_1_n_n 128 rfl rfl).symm k) = ix2 k (0 : Fin 1) := funext fun a => Fin.ext (by
    match a with
    | ⟨0, _⟩ => exact (headDot_rhs_0 _ _).trans hk
    | ⟨1, _⟩ => exact headDot_rhs_1 _ _)
  rw [el, er, truncf_apply, truncf_apply]

end Cert.KernelIdeal.Val
-- ==== Proof.Val.Pool.lean ====
import proofs.«414673_j4638564679932_1_alg».proof.Proof.KI.R3
import proofs.«414673_j4638564679932_1_alg».proof.Proof.Val.PoolMath
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## Where the twenty row blocks sit in their arrays -/

/-- The index maps over the grid: at point `t` the pooled rows and their segment ids sit at row block `t`; the
    bias row, the head's weights, the head's bias and the result sit at block `(0, 0)` throughout. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- The grid has twenty points. -/
theorem point_lt3 (t : Fin cfg3.N) : t.val < 20 := Nat.lt_of_lt_of_eq t.isLt N_3

/-- Row `r` of the block of point `t` is row `5000 t + r` of the array. -/
def rowOf3 (t : Fin cfg3.N) (r : Fin 5000) : Fin 100000 :=
  ⟨5000 * t.val + r.val, by have h := point_lt3 t; omega⟩

theorem rowOf3_val (t : Fin cfg3.N) (r : Fin 5000) : (rowOf3 t r).val = 5000 * t.val + r.val := rfl

/-- The rows to pool, read at an index of the block. -/
theorem iblk3_0_apply (c : Dev nD) (t : Fin cfg3.N) (r : Fin 5000) (k : Fin 128) :
    iblk3 V c 0 t (ix2 r k) = (V c main_v85 : Vec Ideal S100000x128 .f32) (ix2 (rowOf3 t r) k) := by
  obtain ⟨e0, e1, -⟩ := idx_facts3 t
  show V c main_v85 (((cfg3.win 0).blk t).view.emb (ix2 r k)) = _
  refine congrArg (V c main_v85) ?_
  funext a; apply Fin.ext
  match a with
  | ⟨0, _⟩ => show win3_0.index t (0 : Fin 2) * 5000 + 1 * r.val = 5000 * t.val + r.val; omega
  | ⟨1, _⟩ => show win3_0.index t (1 : Fin 2) * 128 + 1 * k.val = k.val; omega

/-- The segment ids, read at an index of the block. -/
theorem iblk3_2_apply (c : Dev nD) (t : Fin cfg3.N) (r : Fin 5000) (z : Fin 1) :
    iblk3 V c 2 t (ix2 r z) = (V c main_v89 : Vec Ideal S100000x1 .i32) (ix2 (rowOf3 t r) z) := by
  obtain ⟨-, -, -, -, e4, e5, -⟩ := idx_facts3 t
  show V c main_v89 (((cfg3.win 2).blk t).view.emb (ix2 r z)) = _
  refine congrArg (V c main_v89) ?_
  funext a; apply Fin.ext
  match a with
  | ⟨0, _⟩ => show win3_2.index t (0 : Fin 2) * 5000 + 1 * r.val = 5000 * t.val + r.val; omega
  | ⟨1, _⟩ => show win3_2.index t (1 : Fin 2) * 1 + 1 * z.val = z.val; omega

/-- The bias row's block is the whole row, at every point. -/
theorem iblk3_1_eq (c : Dev nD) (t : Fin cfg3.N) : iblk3 V c 1 t = (V c main_v88 : Vec Ideal S1x128 .f32) := by
  obtain ⟨-, -, e2, e3, -⟩ := idx_facts3 t
  funext j
  show V c main_v88 (((cfg3.win 1).blk t).view.emb j) = V c main_v88 j
  refine congrArg (V c main_v88) ?_
  funext a; apply Fin.ext
  match a with
  | ⟨0, _⟩ => show win3_1.index t (0 : Fin 2) * 1 + 1 * (j 0).val = (j 0).val; omega
  | ⟨1, _⟩ => show win3_1.index t (1 : Fin 2) * 128 + 1 * (j 1).val = (j 1).val; omega

/-- The head's weight column is its whole array, at every point. -/
theorem iblk3_3_eq (c : Dev nD) (t : Fin cfg3.N) : iblk3 V c 3 t = (V c main_arg5 : Vec Ideal S128x1 .f32) := by
  obtain ⟨-, -, -, -, -, -, e6, e7, -⟩ := idx_facts3 t
  funext j
  show V c main_arg5 (((cfg3.win 3).blk t).view.emb j) = V c main_arg5 j
  refine congrArg (V c main_arg5) ?_
  funext a; apply Fin.ext
  match a with
  | ⟨0, _⟩ => show win3_3.index t (0 : Fin 2) * 128 + 1 * (j 0).val = (j 0).val; omega
  | ⟨1, _⟩ => show win3_3.index t (1 : Fin 2) * 1 + 1 * (j 1).val = (j 1).val; omega

/-- The head's bias is its whole one-entry array, at every point. -/
theorem iblk3_4_eq (c : Dev nD) (t : Fin cfg3.N) : iblk3 V c 4 t = (V c main_v90 : Vec Ideal S1x1 .f32) := by
  obtain ⟨-, -, -, -, -, -, -, -, e8, e9, -⟩ := idx_facts3 t
  funext j
  show V c main_v90 (((cfg3.win 4).blk t).view.emb j) = V c main_v90 j
  refine congrArg (V c main_v90) ?_
  funext a; apply Fin.ext
  match a with
  | ⟨0, _⟩ => show win3_4.index t (0 : Fin 2) * 1 + 1 * (j 0).val = (j 0).val; omega
  | ⟨1, _⟩ => show win3_4.index t (1 : Fin 2) * 1 + 1 * (j 1).val = (j 1).val; omega

/-! ## The result array is what the last point wrote -/

/-- An index of the result array lies in point `t`'s block exactly when each coordinate lies in the block's range. -/
theorem mem_blk3_5 (t : Fin cfg3.N) (i : S512x1.Idx) :
    i ∈ ((cfg3.win 5).blk t).view.set ↔ ∀ a : Fin 2, win3_5.index t a * S512x1.size a ≤ (i a).val ∧ (i a).val < win3_5.index t a * S512x1.size a + S512x1.size a := by
  show i ∈ ((View.whole main_v91).slice (win3_5.rect t)).set ↔ _
  rw [View.set_slice_whole, Rect.mem_set_unit]
  exact Iff.rfl

/-- The result window's block is the whole 512 × 1 array and it is written back once, after point 19: so the array
    ends at whatever the result buffer holds after the body there. -/
theorem arr3_of_last (c : Dev nD) (G : Vec Ideal S512x1 .f32) (hG : ∀ h : 19 < cfg3.N, (outsAt3 V c 19 h).1 = G) :
    (dat3 (F := Ideal) V c).arrAt 5 cfg3.N = G := by
  refine (dat3 (F := Ideal) V c).arrAt_eq_of_cover 5 G (fun t hf => ?_) (fun i => ?_)
  · have h19 : t.val = 19 := by
      have h1 := (flush3_5 t).mp hf; have h2 := point_lt3 t; omega
    have hlast : (outsAt3 V c t.val t.isLt).1 = G := by
      obtain ⟨n, hn⟩ := t
      have : n = 19 := h19
      subst this
      exact hG hn
    obtain ⟨-, -, -, -, -, -, -, -, -, -, e10, e11⟩ := idx_facts3 t
    show (cfg3.win 5).cut (grid3.coords t) ((dat3 V c).after 5 t) = _
    rw [after3_5, hlast]
    funext j
    show G j = G (((cfg3.win 5).blk t).view.emb j)
    refine congrArg G ?_
    funext a; apply Fin.ext
    match a with
    | ⟨0, _⟩ => show (j 0).val = win3_5.index t (0 : Fin 2) * 512 + 1 * (j 0).val; omega
    | ⟨1, _⟩ => show (j 1).val = win3_5.index t (1 : Fin 2) * 1 + 1 * (j 1).val; omega
  · obtain ⟨t, ht⟩ : ∃ t : Fin cfg3.N, t.val = 19 := ⟨⟨19, Nat.lt_of_lt_of_eq (by omega : 19 < 20) N_3.symm⟩, rfl⟩
    obtain ⟨-, -, -, -, -, -, -, -, -, -, e10, e11⟩ := idx_facts3 t
    refine ⟨t, (flush3_5 t).mpr (by omega), ?_⟩
    have hi0 : (i 0).val < 512 := (i 0).isLt
    have hi1 : (i 1).val < 1 := (i 1).isLt
    rw [mem_blk3_5]
    intro a
    match a with
    | ⟨0, _⟩ => show win3_5.index t (0 : Fin 2) * 512 ≤ (i 0).val ∧ (i 0).val < win3_5.index t (0 : Fin 2) * 512 + 512; omega
    | ⟨1, _⟩ => show win3_5.index t (1 : Fin 2) * 1 ≤ (i 1).val ∧ (i 1).val < win3_5.index t (1 : Fin 2) * 1 + 1; omega

/-! ## The accumulator after each point -/

/-- The points up to the first. -/
theorem points_le_zero3 (h : 0 < cfg3.N) :
    (Finset.univ.filter fun t : Fin cfg3.N => t.val ≤ 0) = {⟨0, h⟩} := by
  ext t; simp only [Finset.mem_filter, Finset.mem_univ, true_and, Finset.mem_singleton, Fin.ext_iff]; omega

/-- The points up to `n + 1` are the point `n + 1` and the points up to `n`. -/
theorem points_le_succ3 (n : ℕ) (h : n + 1 < cfg3.N) :
    (Finset.univ.filter fun t : Fin cfg3.N => t.val ≤ n + 1)
      = insert ⟨n + 1, h⟩ (Finset.univ.filter fun t : Fin cfg3.N => t.val ≤ n) := by
  ext t; simp only [Finset.mem_filter, Finset.mem_univ, true_and, Finset.mem_insert, Fin.ext_iff]; omega

/-- The points up to the last are all of them. -/
theorem points_le_last3 : (Finset.univ.filter fun t : Fin cfg3.N => t.val ≤ 19) = Finset.univ := by
  ext t; have := point_lt3 t
  simp only [Finset.mem_filter, Finset.mem_univ, true_and, iff_true]; omega

/-- If the first accumulator entry is zero and each point adds `M t g k` to entry `(g, k)` of what it finds, then
    after point `n` the entry is the sum of `M t g k` over the points `t ≤ n`. -/
theorem scr3_apply (c : Dev nD) (M : Fin cfg3.N → Fin 512 → Fin 128 → EReal)
    (hzero : ∀ (g : Fin 512) (k : Fin 128), k3_pay1 (F := Ideal) (ix2 g k) = 0)
    (hstep : ∀ (t : Fin cfg3.N) (acc : Vec Ideal S512x128 .f32) (g : Fin 512) (k : Fin 128),
      k3_pay2 (F := Ideal) (iblk3 V c 0 t) (iblk3 V c 1 t) (iblk3 V c 2 t) acc (ix2 g k) = acc (ix2 g k) + M t g k) :
    ∀ (n : ℕ) (h : n < cfg3.N) (g : Fin 512) (k : Fin 128),
      (outsAt3 V c n h).2 (ix2 g k) = ∑ t ∈ Finset.univ.filter (fun t : Fin cfg3.N => t.val ≤ n), M t g k := by
  intro n
  induction n with
  | zero =>
    intro h g k
    rw [scr3_zero, hstep, hzero, zero_add, points_le_zero3 h, Finset.sum_singleton]
  | succ n ih =>
    intro h g k
    have hnot : (⟨n + 1, h⟩ : Fin cfg3.N) ∉ Finset.univ.filter (fun t : Fin cfg3.N => t.val ≤ n) := by
      simp only [Finset.mem_filter, Finset.mem_univ, true_and]; omega
    rw [scr3_succ, hstep, ih (Nat.lt_of_succ_lt h), points_le_succ3 n h, Finset.sum_insert hnot, add_comm]

/-! ## Twenty blocks of 5000 rows are the 100000 rows -/

/-- A point and a row inside its block, against the row of the array: `(t, r) ↦ 5000 t + r`, with inverse
    `n ↦ (n / 5000, n % 5000)`. -/
def rowEquiv3 : Fin cfg3.N × Fin 5000 ≃ Fin 100000 where
  toFun p := rowOf3 p.1 p.2
  invFun n := (⟨n.val / 5000, Nat.lt_of_lt_of_eq (by have := n.isLt; omega : n.val / 5000 < 20) N_3.symm⟩,
               ⟨n.val % 5000, Nat.mod_lt _ (by omega)⟩)
  left_inv p := by
    obtain ⟨t, r⟩ := p
    have ht := point_lt3 t
    have hr := r.isLt
    refine Prod.ext (Fin.ext ?_) (Fin.ext ?_)
    · show (5000 * t.val + r.val) / 5000 = t.val; omega
    · show (5000 * t.val + r.val) % 5000 = r.val; omega
  right_inv n := by
    apply Fin.ext
    show 5000 * (n.val / 5000) + n.val % 5000 = n.val; omega

/-- Summing over the points and, within each, over the rows of its block is summing over all rows. -/
theorem sum_rows3 (f : Fin 100000 → EReal) :
    ∑ t : Fin cfg3.N, ∑ r : Fin 5000, f (rowOf3 t r) = ∑ n : Fin 100000, f n := by
  rw [← Equiv.sum_comp rowEquiv3 f, Fintype.sum_prod_type]
  rfl

/-! ## The pooled head as one function of the five arrays -/

/-- Segment-sum pooling followed by the linear head. Entry `g` is the dot product with the head's weight column
    of the row whose column `k` is the sum, over all rows `n` whose segment id reads as `g`, of
    `max (s (n, k) + b (0, k)) 0`, plus the head's bias. -/
def poolHead (s : Vec Ideal S100000x128 .f32) (b : Vec Ideal S1x128 .f32) (bt : Vec Ideal S100000x1 .i32)
    (hw : Vec Ideal S128x1 .f32) (hb : Vec Ideal S1x1 .f32) : Vec Ideal S512x1 .f32 :=
  fun i => (∑ k : Fin 128, (∑ n : Fin 100000,
      if (bt (ix2 n (0 : Fin 1))).toInt = ((i 0).val : ℤ) then max (s (ix2 n k) + b (ix2 (0 : Fin 1) k)) 0 else 0)
        * hw (ix2 k (0 : Fin 1))) + hb (ix2 (0 : Fin 1) (0 : Fin 1))

theorem poolHead_apply (s : Vec Ideal S100000x128 .f32) (b : Vec Ideal S1x128 .f32) (bt : Vec Ideal S100000x1 .i32)
    (hw : Vec Ideal S128x1 .f32) (hb : Vec Ideal S1x1 .f32) (g : Fin 512) :
    poolHead s b bt hw hb (ix2 g (0 : Fin 1)) = (∑ k : Fin 128, (∑ n : Fin 100000,
      if (bt (ix2 n (0 : Fin 1))).toInt = (g.val : ℤ) then max (s (ix2 n k) + b (ix2 (0 : Fin 1) k)) 0 else 0)
        * hw (ix2 k (0 : Fin 1))) + hb (ix2 (0 : Fin 1) (0 : Fin 1)) := rfl

/-- Row `n`'s contribution to entry `(g, k)` of the pooled matrix. -/
def poolRow (s : Vec Ideal S100000x128 .f32) (b : Vec Ideal S1x128 .f32) (bt : Vec Ideal S100000x1 .i32)
    (g : Fin 512) (k : Fin 128) (n : Fin 100000) : EReal :=
  if (bt (ix2 n (0 : Fin 1))).toInt = (g.val : ℤ) then max (s (ix2 n k) + b (ix2 (0 : Fin 1) k)) 0 else 0

/-- What point `t` adds to entry `(g, k)` of the accumulator: the contributions of the rows of its block. -/
def poolStep (c : Dev nD) (t : Fin cfg3.N) (g : Fin 512) (k : Fin 128) : EReal :=
  ∑ r : Fin 5000, poolRow (V c main_v85) (V c main_v88) (V c main_v89) g k (rowOf3 t r)

/-- Each point adds its block's pooled rows to what it finds. -/
theorem poolStep_spec (c : Dev nD) (t : Fin cfg3.N) (acc : Vec Ideal S512x128 .f32) (g : Fin 512) (k : Fin 128) :
    k3_pay2 (F := Ideal) (iblk3 V c 0 t) (iblk3 V c 1 t) (iblk3 V c 2 t) acc (ix2 g k) = acc (ix2 g k) + poolStep V c t g k := by
  rw [pay2_apply_ite (iblk3 V c 0 t) (iblk3 V c 1 t) (iblk3 V c 2 t) acc g k]
  unfold poolStep
  refine congrArg₂ (· + ·) rfl ?_
  refine Finset.sum_congr rfl fun r _ => ?_
  rw [iblk3_0_apply, iblk3_2_apply, iblk3_1_eq]
  rfl

/-- After the last point, entry `(g, k)` of the accumulator is the pooled sum over all 100000 rows. -/
theorem scr3_last_apply (c : Dev nD) (h : 19 < cfg3.N) (g : Fin 512) (k : Fin 128) :
    (outsAt3 V c 19 h).2 (ix2 g k) = ∑ n : Fin 100000, poolRow (V c main_v85) (V c main_v88) (V c main_v89) g k n := by
  rw [scr3_apply V c (poolStep V c) pay1_apply (poolStep_spec V c) 19 h g k, points_le_last3]
  exact sum_rows3 (poolRow (V c main_v85) (V c main_v88) (V c main_v89) g k)

/-- The result array after the region: the pooled head of the entry arrays. -/
theorem pool_eq (c : Dev nD) : (dat3 (F := Ideal) V c).arrAt 5 cfg3.N
    = poolHead (V c main_v85) (V c main_v88) (V c main_v89) (V c main_arg5) (V c main_v90) := by
  refine arr3_of_last V c _ fun h => ?_
  funext j
  obtain ⟨g, z, rfl⟩ : ∃ (g : Fin 512) (z : Fin 1), j = ix2 g z := ⟨j 0, j 1, eq_ix2 j⟩
  obtain rfl : z = 0 := Subsingleton.elim _ _
  rw [out3_last, pay3_apply, iblk3_3_eq, iblk3_4_eq, poolHead_apply]
  refine congrArg₂ (· + ·) ?_ rfl
  refine Finset.sum_congr rfl fun k _ => ?_
  rw [scr3_last_apply]
  rfl

end Cert.KernelIdeal.Val
end
-- ==== Proof.Val.BridgePool.lean ====
import proofs.«414673_j4638564679932_1_alg».proof.Proof.Val.Pool
import proofs.«414673_j4638564679932_1_alg».proof.Proof.RefValue
import Idealize.ShloMosaic.PureOps.Ideal.Laws
import Idealize.ShloMosaic.Lib.ValueIdx
import Idealize.ShloMosaic.Lib.Pipeline.Value

noncomputable section

namespace Cert.KernelIdeal.Val

open Idealize.ShloMosaic Idealize.ShloMosaic.TcCoe
open Idealize.ShloMosaic.ValueIdx
open Cert.KernelIdeal
open Cert.ReferenceIdeal.RefValue (refAct refPool refHead refTail_apply featAt biasAt headAt headBias nodeIdx)
open scoped BigOperators

/-! # The pooled head on the two sides is the same function

    Both sides write entry `g` as the dot product, with the head's weight column, of the row whose column `k` is
    the sum over the rows `n` whose segment id reads as `g` of `max (s[n,k] + bias[k]) 0`, plus the head's bias.
    They differ in how the indices are spelt, in the bias being a row `[1,128]` against a vector `[128]`, the
    segment ids a column `[100000,1]` against a vector `[100000]`, the head's bias a `[1,1]` against a `[1]`, and
    the result a column `[512,1]` against a vector `[512]`. -/

/-- Entry `(n, k)` of the rows to pool in the two spellings. -/
theorem featAt_eq (n : Fin 100000) (k : Fin 128) : featAt n k = ix2 n k :=
  funext fun a => by match a with | ⟨0, _⟩ => rfl | ⟨1, _⟩ => rfl

/-- Entry `k` of the bias vector in the two spellings. -/
theorem biasAt_eq (k : Fin 128) : biasAt k = ix1 k :=
  funext fun a => by match a with | ⟨0, _⟩ => rfl

/-- Entry `k` of the head's weight column in the two spellings. -/
theorem headAt_eq (k : Fin 128) : headAt k = ix2 k (0 : Fin 1) :=
  funext fun a => by match a with | ⟨0, _⟩ => rfl | ⟨1, _⟩ => rfl

/-- The head's one bias entry in the two spellings. -/
theorem headBias_eq : headBias = ix1 (0 : Fin 1) :=
  funext fun a => by match a with | ⟨0, _⟩ => rfl

/-- Row `n` of a per-row vector in the two spellings. -/
theorem nodeIdx_eq (n : Fin 100000) : nodeIdx n = ix1 n :=
  funext fun a => by match a with | ⟨0, _⟩ => rfl

/-- Entry by entry: the column form's entry `(g, 0)` is the vector form's entry `g`, when the bias row, the
    column of segment ids and the `[1,1]` head bias hold the same numbers as their vector forms. -/
theorem poolHead_apply_eq_ref (s : Vec Ideal S100000x128 .f32) (brow : Vec Ideal S1x128 .f32) (btcol : Vec Ideal S100000x1 .i32)
    (hw : Vec Ideal S128x1 .f32) (hb11 : Vec Ideal S1x1 .f32)
    (b : Vec Ideal S128 .f32) (batch : Vec Ideal S100000 .i32) (hb : Vec Ideal S1 .f32)
    (hbrow : ∀ k : Fin 128, brow (ix2 (0 : Fin 1) k) = b (ix1 k))
    (hbt : ∀ n : Fin 100000, btcol (ix2 n (0 : Fin 1)) = batch (ix1 n))
    (hhb : hb11 (ix2 (0 : Fin 1) (0 : Fin 1)) = hb (ix1 (0 : Fin 1)))
    (g : Fin 512) :
    poolHead s brow btcol hw hb11 (ix2 g (0 : Fin 1))
      = refHead (F := Ideal) (refPool (F := Ideal) (refAct (F := Ideal) s b) batch) hw hb (ix1 g) := by
  rw [poolHead_apply, refTail_apply, headBias_eq, hhb]
  refine congrArg₂ (· + ·) (Finset.sum_congr rfl fun k _ => ?_) rfl
  rw [headAt_eq]
  refine congrArg₂ (· * ·) (Finset.sum_congr rfl fun n _ => ?_) rfl
  rw [nodeIdx_eq, featAt_eq, biasAt_eq, hbt n, hbrow k]

/-- The same as functions: the column `[512,1]` recast as a vector `[512]` is the reference's head. -/
theorem poolHead_reshape_eq_ref (s : Vec Ideal S100000x128 .f32) (brow : Vec Ideal S1x128 .f32) (btcol : Vec Ideal S100000x1 .i32)
    (hw : Vec Ideal S128x1 .f32) (hb11 : Vec Ideal S1x1 .f32)
    (b : Vec Ideal S128 .f32) (batch : Vec Ideal S100000 .i32) (hb : Vec Ideal S1 .f32)
    (hbrow : ∀ k : Fin 128, brow (ix2 (0 : Fin 1) k) = b (ix1 k))
    (hbt : ∀ n : Fin 100000, btcol (ix2 n (0 : Fin 1)) = batch (ix1 n))
    (hhb : hb11 (ix2 (0 : Fin 1) (0 : Fin 1)) = hb (ix1 (0 : Fin 1)))
    (h : S512x1.ShapeCasts S512) :
    shapeCast S512 (poolHead s brow btcol hw hb11) h
      = refHead (F := Ideal) (refPool (F := Ideal) (refAct (F := Ideal) s b) batch) hw hb := by
  funext i
  obtain ⟨g, rfl⟩ : ∃ g : Fin 512, i = ix1 g := ⟨i 0, eq_ix1 i⟩
  rw [shapeCast_apply (poolHead s brow btcol hw hb11) h (ix1 g) (ix2 g (0 : Fin 1))
    (by rewrite [Shape.rowMajor_val_two, Shape.rowMajor_val_one]; show g.val * 1 + 0 = g.val; omega)]
  exact poolHead_apply_eq_ref s brow btcol hw hb11 b batch hb hbrow hbt hhb g

end Cert.KernelIdeal.Val
end
-- ==== Proof.Val.Final.lean ====
import proofs.«414673_j4638564679932_1_alg».proof.Proof.Val.Chain
import proofs.«414673_j4638564679932_1_alg».proof.Proof.Val.Bridge
import proofs.«414673_j4638564679932_1_alg».proof.Proof.Val.BridgeLayers
import proofs.«414673_j4638564679932_1_alg».proof.Proof.Val.Pool
import proofs.«414673_j4638564679932_1_alg».proof.Proof.Val.BridgePool
import proofs.«414673_j4638564679932_1_alg».proof.Proof.KI.Run

set_option maxRecDepth 16384

noncomputable section

namespace Cert.KernelIdeal.Val

open Idealize.ShloMosaic Idealize.ShloMosaic.TcCoe Idealize.SL.Sem
open Idealize.ShloMosaic.ValueIdx
open Cert.KernelIdeal Cert.KernelIdeal.Gen Cert.KernelIdeal.Hand
open Cert.ReferenceIdeal.RefValue (refAgg refW0 refW1 refW2 refB0 refB1 refB2 refLayerFirst refLayerNext refAct refPool refHead refS0 refS1 refS2 refOut)

local notation "ArrI[" s ", " e "]" => BufTy.Contents (Elt Ideal) (BufTy.mk s e)

/-! # The program's result, and the reference's

The aggregates the regions are entered with are the reference's aggregates: the host stages are the same
functions, and a layer's product is the same sum on both sides. The result buffer holds the pooled head of the
last aggregate, reshaped to a vector. -/

/-- The first aggregate is the reference's. -/
theorem kerS0_eq (x0 : ArrI[S100000x128, .f32]) (x1 : ArrI[S2x1600000, .i32]) (x3 : ArrI[S3x128x128, .f32]) :
    kerS0 x0 x1 x3 = refS0 (F := Ideal) x0 x1 x3 := by
  unfold kerS0 refS0
  rw [kerAgg_eq, layer0_eq_ref, kerW0_eq]

/-- The second aggregate is the reference's. -/
theorem kerS1_eq (x0 : ArrI[S100000x128, .f32]) (x1 : ArrI[S2x1600000, .i32]) (x3 : ArrI[S3x128x128, .f32]) (x4 : ArrI[S3x128, .f32]) :
    kerS1 x0 x1 x3 x4 = refS1 (F := Ideal) x0 x1 x3 x4 := by
  unfold kerS1 refS1
  rw [kerAgg_eq, layer1_eq_ref _ _ _ (refB0 (F := Ideal) x4) (fun k => kerBrow0_apply x4 0 k), kerS0_eq, kerW1_eq]

/-- The third aggregate is the reference's. -/
theorem kerS2_eq (x0 : ArrI[S100000x128, .f32]) (x1 : ArrI[S2x1600000, .i32]) (x3 : ArrI[S3x128x128, .f32]) (x4 : ArrI[S3x128, .f32]) :
    kerS2 x0 x1 x3 x4 = refS2 (F := Ideal) x0 x1 x3 x4 := by
  unfold kerS2 refS2
  rw [kerAgg_eq, layer2_eq_ref _ _ _ (refB1 (F := Ideal) x4) (fun k => kerBrow1_apply x4 0 k), kerS1_eq, kerW2_eq]

/-- The program's result as one function of its seven arguments: the pooled head of the last aggregate, with
    the last bias row, the graph numbers as a column, the head's weights and its bias, as a vector. -/
def kerOut (x0 : ArrI[S100000x128, .f32]) (x1 : ArrI[S2x1600000, .i32]) (x2 : ArrI[S100000, .i32]) (x3 : ArrI[S3x128x128, .f32])
    (x4 : ArrI[S3x128, .f32]) (x5 : ArrI[S128x1, .f32]) (x6 : ArrI[S1, .f32]) : ArrI[S512, .f32] :=
  shapeCast S512 (poolHead (kerS2 x0 x1 x3 x4) (kerBrow2 (F := Ideal) x4) (kerBatchCol (F := Ideal) x2) x5 (kerHeadB (F := Ideal) x6))
    shapeCasts_S512x1_S512

variable (m : (ℓ : Loc nD τ sig) → Buf (Elt Ideal) ℓ) (ρ : Dev nD → PrngReg)

/-- The last stretch reshapes region 3's output column to the result vector. -/
theorem W11_v92_of (c : Dev nD) : W11 m ρ c main_v92 = shapeCast S512 (W10 m ρ c main_v91) shapeCasts_S512x1_S512 := by
  show StableHlo.after hostOps4 _ (Proc.devRef .tc main_v92) = _
  after_results_simp
  rfl

/-- Region 3's output column is the pooled head of what the region is entered with. -/
theorem out3_eq (c : Dev nD) : W10 m ρ c main_v91
    = poolHead (kerS2 (m ((c : Thread nD τ).loc main_arg0)) (m ((c : Thread nD τ).loc main_arg1)) (m ((c : Thread nD τ).loc main_arg3))
          (m ((c : Thread nD τ).loc main_arg4)))
        (kerBrow2 (F := Ideal) (m ((c : Thread nD τ).loc main_arg4))) (kerBatchCol (F := Ideal) (m ((c : Thread nD τ).loc main_arg2)))
        (m ((c : Thread nD τ).loc main_arg5)) (kerHeadB (F := Ideal) (m ((c : Thread nD τ).loc main_arg6))) := by
  have h91 : W10 m ρ c main_v91 = (dat3 (B9 m ρ) c).arrAt 5 cfg3.N := W10_arr m ρ c 5
  rw [h91, pool_eq (B9 m ρ) c, B9_v85_eq, B9_v88, B9_v89, B9_arg5, B9_v90]

/-- The result buffer at the end of the program. -/
theorem W11_v92_eq (c : Dev nD) : W11 m ρ c main_v92
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [W11_v92_of, out3_eq]
  rfl

/-- The program's result is the reference's result, as functions of the seven arguments: the last aggregate is the
    reference's, and the pooled head of a row bias, a column of graph numbers and a 1×1 head bias, recast as a
    vector, is the reference's pooled head of the same numbers as vectors. -/
theorem kerOut_eq (x0 : ArrI[S100000x128, .f32]) (x1 : ArrI[S2x1600000, .i32]) (x2 : ArrI[S100000, .i32]) (x3 : ArrI[S3x128x128, .f32])
    (x4 : ArrI[S3x128, .f32]) (x5 : ArrI[S128x1, .f32]) (x6 : ArrI[S1, .f32]) :
    kerOut x0 x1 x2 x3 x4 x5 x6 = refOut (F := Ideal) x0 x1 x2 x3 x4 x5 x6 := by
  unfold kerOut refOut
  rw [poolHead_reshape_eq_ref _ _ _ _ _ (refB2 (F := Ideal) x4) x2 x6 (fun k => kerBrow2_apply x4 0 k)
    (fun n => kerBatchCol_apply x2 n 0) (kerHeadB_apply x6 0 0) shapeCasts_S512x1_S512, kerS2_eq]

/-- From memories agreeing on the seven arguments, the kernel program's result buffer at the end of its run holds
    the reference's result. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (c : Dev Cert.KernelIdeal.nD) :
    Cert.KernelIdeal.Hand.W11 (F := Ideal) m ρ c Cert.KernelIdeal.main_v92
      = refOut (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6)) := by
  obtain ⟨h0, h1, h2, h3, h4, h5, h6⟩ := hagree c
  rw [h0, h1, h2, h3, h4, h5, h6]
  exact (W11_v92_eq m ρ c).trans (kerOut_eq _ _ _ _ _ _ _)

end Cert.KernelIdeal.Val
end
-- ==== Proof.lean ====
/- The proof of `Cert.Claim`: the three frames, the (empty) idealization ledger, and the equivalence of the idealized kernel
   program with the idealized reference over the extended reals.

   The kernel program alternates host stretches with four kernel regions: three row-block matrix products (the first plain,
   the next two after adding a bias row and clamping at zero) and a pooling region that accumulates, block by block in a
   scratch carried across its grid, the one-hot product that sums the rows of each graph, and applies the linear head at
   its last point. Its frame at both instances is one launch over the eleven segments, the buffers' contents at every
   boundary named by a fold from the launch memory (Proof/KI, Proof/K: the same text at the two instances). At the ideal
   instance the fold's value of the result buffer is the reference's result (Proof/Val): a block matrix product is the
   whole product row by row; the accumulated one-hot products are the scatter-add of the rows by graph id, every id
   outside the range contributing to no row on either side; everything else is the same host operations on both sides. -/
import proofs.«414673_j4638564679932_1_alg».proof.Defs
import proofs.«414673_j4638564679932_1_alg».proof.Proof.Gen.Kernel
import proofs.«414673_j4638564679932_1_alg».proof.Proof.Gen.KernelIdeal
import proofs.«414673_j4638564679932_1_alg».proof.Proof.Gen.ReferenceIdeal
import proofs.«414673_j4638564679932_1_alg».proof.Proof.Gen.Pre_finite_inputs
import proofs.«414673_j4638564679932_1_alg».proof.Proof.K.Run
import proofs.«414673_j4638564679932_1_alg».proof.Proof.KI.Run
import proofs.«414673_j4638564679932_1_alg».proof.Proof.RefValue
import proofs.«414673_j4638564679932_1_alg».proof.Proof.Val.Final
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame m ρ

/-- So does the idealized program. -/
theorem frame_ki : Cert.frame_KernelIdeal := fun m ρ _ => Cert.KernelIdeal.Hand.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.RefValue.run_refOut (F := Ideal) m ρ)

/-- The two idealized programs, from memories agreeing on the arguments, end with equal results. -/
theorem algebraic : Cert.algebraic_KernelIdeal_ReferenceIdeal := by
  intro m ρ m' ρ' _ hagree
  refine ⟨fun c => Cert.KernelIdeal.Hand.W11 (F := Ideal) m ρ c Cert.KernelIdeal.main_v92,
    Cert.KernelIdeal.Hand.run_value (F := Ideal) m ρ, ?_⟩
  refine (θ_run Cert.ReferenceIdeal.defs _ _).mono (fun _ h c => ⟨(h c).1.trans ?_, (h c).2⟩)
    (Cert.ReferenceIdeal.RefValue.run_refOut (F := Ideal) m' ρ')
  exact (Cert.KernelIdeal.Val.result_eq m ρ m' hagree c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
